-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x400 : Shape := ⟨2, ![4096, 400]⟩
abbrev S4096 : Shape := ⟨1, ![4096]⟩
abbrev S4096x128 : Shape := ⟨2, ![4096, 128]⟩
abbrev S_ : Shape := ⟨0, ![]⟩

class Facts : Prop where
  bcast_S_S4096x400 : S_.BroadcastsInDim S4096x400 (![] : Fin 0 → Fin S4096x400.rank)
  reducesTo_S4096x400_S_d0_1 : S4096x400.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x400 .f32) (main_arg1 : IVec S4096 32) (main_arg2 : FVec F S4096x128 .f32) (main_arg3 : IVec S4096 32) : IVec S_ 1 :=
  let main_v0 : FVec F S4096x400 .f32 := Host.absf main_arg0
  let main_cst : FVec F S_ .f32 := constant S_ .f32 0x7F800000#32
  let main_v1 : FVec F S4096x400 .f32 := broadcastInDim S4096x400 ![] bcast_S_S4096x400 main_cst
  let main_v2 : IVec S4096x400 1 := cmpf .olt main_v0 main_v1
  let main_c : IVec S_ 1 := constantI S_ 1 1#1
  let main_v3 : IVec S_ 1 := (fun x v => Host.reduce IntOp.andi x v reducesTo_S4096x400_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 400#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x400 : Shape := ⟨2, ![4096, 400]⟩
abbrev S4096 : Shape := ⟨1, ![4096]⟩
abbrev S4096x128 : Shape := ⟨2, ![4096, 128]⟩
abbrev S36 : Shape := ⟨1, ![36]⟩
abbrev S4096x1 : Shape := ⟨2, ![4096, 1]⟩
abbrev S1x1 : Shape := ⟨2, ![1, 1]⟩
abbrev S512x400 : Shape := ⟨2, ![512, 400]⟩
abbrev S512x1 : Shape := ⟨2, ![512, 1]⟩
abbrev S512 : Shape := ⟨1, ![512]⟩
abbrev S1 : Shape := ⟨1, ![1]⟩
abbrev S_ : Shape := ⟨0, ![]⟩
abbrev S512x8x128 : Shape := ⟨3, ![512, 8, 128]⟩
abbrev S36x1 : Shape := ⟨2, ![36, 1]⟩
abbrev S512x36x128 : Shape := ⟨3, ![512, 36, 128]⟩
abbrev S36x512x128 : Shape := ⟨3, ![36, 512, 128]⟩
abbrev S36x1024x128 : Shape := ⟨3, ![36, 1024, 128]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩

abbrev nBuf : Space → Nat
  | .hbm => 34
  | .vmem => 8
  | .smem => 0
  | _ => 0

abbrev bufTy : (tb : Table) → Fin (tcTables nBuf tb) → BufTy
  | .hbm, ⟨0, _⟩ => ⟨S4096x400, .f32⟩
  | .hbm, ⟨1, _⟩ => ⟨S4096, .i32⟩
  | .hbm, ⟨2, _⟩ => ⟨S4096x128, .f32⟩
  | .hbm, ⟨3, _⟩ => ⟨S4096, .i32⟩
  | .hbm, ⟨4, _⟩ => ⟨S36, .i32⟩
  | .hbm, ⟨5, _⟩ => ⟨S36, .i1⟩
  | .hbm, ⟨6, _⟩ => ⟨S36, .i32⟩
  | .hbm, ⟨7, _⟩ => ⟨S36, .i1⟩
  | .hbm, ⟨8, _⟩ => ⟨S4096x1, .i32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512x8x128, .f32⟩
  | .hbm, ⟨14, _⟩ => ⟨S_, .i32⟩
  | .hbm, ⟨15, _⟩ => ⟨S36, .i32⟩
  | .hbm, ⟨16, _⟩ => ⟨S36, .i32⟩
  | .hbm, ⟨17, _⟩ => ⟨S36, .i32⟩
  | .hbm, ⟨18, _⟩ => ⟨S36x1, .i32⟩
  | .hbm, ⟨19, _⟩ => ⟨S512x36x128, .f32⟩
  | .hbm, ⟨20, _⟩ => ⟨S36x512x128, .f32⟩
  | .hbm, ⟨21, _⟩ => ⟨S_, .i32⟩
  | .hbm, ⟨22, _⟩ => ⟨S36, .i32⟩
  | .hbm, ⟨23, _⟩ => ⟨S36, .i32⟩
  | .hbm, ⟨24, _⟩ => ⟨S36, .i32⟩
  | .hbm, ⟨25, _⟩ => ⟨S36x1, .i32⟩
  | .hbm, ⟨26, _⟩ => ⟨S512x36x128, .f32⟩
  | .hbm, ⟨27, _⟩ => ⟨S36x512x128, .f32⟩
  | .hbm, ⟨28, _⟩ => ⟨S36x1024x128, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x400, .f32⟩
  | .local _ .vmem, ⟨1, _⟩ => ⟨S512x400, .f32⟩
  | .local _ .vmem, ⟨2, _⟩ => ⟨S512x1, .i32⟩
  | .local _ .vmem, ⟨3, _⟩ => ⟨S512x1, .i32⟩
  | .local _ .vmem, ⟨4, _⟩ => ⟨S1x1, .f32⟩
  | .local _ .vmem, ⟨5, _⟩ => ⟨S1x1024x128, .f32⟩
  | .local _ .vmem, ⟨6, _⟩ => ⟨S1x1024x128, .f32⟩
  | .local _ .vmem, ⟨7, _⟩ => ⟨S1x1, .f32⟩
  | _, _ => ⟨S4096x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![36], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inb_S512x400_S512x400_0_0 : ∀ a, (![0, 0] : Fin 2 → Nat) a + S512x400.size a ≤ S512x400.size a
  h_S512x400 : 0 < S512x400.numel
  reduces_S512x400_S512 : S512x400.Reduces [1] S512
  shapeCasts_S512_S512x1 : S512.ShapeCasts S512x1
  broadcasts_S512x1_S512x400 : S512x1.Broadcasts S512x400
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x400_d1_w32 : S512x400.Iotas .tc 32 [1]
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  shapeCasts_S4096x128_S512x8x128 : S4096x128.ShapeCasts S512x8x128
  bcast_S_S36 : S_.BroadcastsInDim S36 (![] : Fin 0 → Fin S36.rank)
  bcast_S36_S36x1_0 : S36.BroadcastsInDim S36x1 (![0] : Fin 1 → Fin S36x1.rank)
  transposes_S512x36x128_S36x512x128_1_0_2 : S512x36x128.Transposes [1, 0, 2] S36x512x128
  concatenates_S36x512x128_S36x512x128_S36x1024x128_d1 : Shape.Concatenates [S36x512x128, S36x512x128] S36x1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  rotates_S1024x128_d0 : S1024x128.Rotates 0 none
  reduces_S1024x128_S1024 : S1024x128.Reduces [1] S1024
  shapeCasts_S1024_S1024x1 : S1024.ShapeCasts S1024x1
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  broadcasts_S1024x1_S1024x1024 : S1024x1.Broadcasts S1024x1024
  reduces_S1024x1_S1 : S1024x1.Reduces [0] S1
  gather_S512x8x128_S36x1_S512x36x128_02_1_n_n_1_1_5121128_wf : GatherDims.WF S512x8x128 S36x1 S512x36x128 [0, 2] [1] [] [1] [] 1 ![512, 1, 128]
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x400.size a ≤ S4096x400.size a
  hwx0_0 : ∀ i : grid0.Coords, EltTy.bits .f32 = 32 ∨ (Rect.block (s := S4096x400) S512x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S36x1024x128.size a
  hwx1_0 : ∀ i : grid1.Coords, EltTy.bits .f32 = 32 ∨ (Rect.block (s := S36x1024x128) S1x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def gather_S512x8x128_S36x1_S512x36x128_02_1_n_n_1_1_5121128 : GatherDims S512x8x128 S36x1 S512x36x128 where
  offsetDims := [0, 2]
  collapsedSliceDims := [1]
  operandBatchingDims := []
  startIndicesBatchingDims := []
  startIndexMap := [1]
  indexVectorDim := 1
  sliceSizes := ![512, 1, 128]
  wf := gather_S512x8x128_S36x1_S512x36x128_02_1_n_n_1_1_5121128_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S512x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x400 : Shape := ⟨2, ![4096, 400]⟩
abbrev S4096 : Shape := ⟨1, ![4096]⟩
abbrev S4096x128 : Shape := ⟨2, ![4096, 128]⟩
abbrev S36 : Shape := ⟨1, ![36]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S512x8x128 : Shape := ⟨3, ![512, 8, 128]⟩
abbrev S36x1 : Shape := ⟨2, ![36, 1]⟩
abbrev S512x36x128 : Shape := ⟨3, ![512, 36, 128]⟩
abbrev S36x512x128 : Shape := ⟨3, ![36, 512, 128]⟩
abbrev S36x1024x128 : Shape := ⟨3, ![36, 1024, 128]⟩
abbrev S36x1024 : Shape := ⟨2, ![36, 1024]⟩
abbrev S1024x1024 : Shape := ⟨2, ![1024, 1024]⟩
abbrev S36x128x1024 : Shape := ⟨3, ![36, 128, 1024]⟩
abbrev S36x1024x1024 : Shape := ⟨3, ![36, 1024, 1024]⟩
abbrev S1x1024x1024 : Shape := ⟨3, ![1, 1024, 1024]⟩
abbrev S36x1024x1 : Shape := ⟨3, ![36, 1024, 1]⟩

abbrev nBuf : Space → Nat
  | .hbm => 128
  | .vmem => 0
  | .smem => 0
  | _ => 0

abbrev bufTy : (tb : Table) → Fin (tcTables nBuf tb) → BufTy
  | .hbm, ⟨0, _⟩ => ⟨S4096x400, .f32⟩
  | .hbm, ⟨1, _⟩ => ⟨S4096, .i32⟩
  | .hbm, ⟨2, _⟩ => ⟨S4096x128, .f32⟩
  | .hbm, ⟨3, _⟩ => ⟨S4096, .i32⟩
  | .hbm, ⟨4, _⟩ => ⟨S36, .i32⟩
  | .hbm, ⟨5, _⟩ => ⟨S36, .i1⟩
  | .hbm, ⟨6, _⟩ => ⟨S36, .i32⟩
  | .hbm, ⟨7, _⟩ => ⟨S36, .i1⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x400, .f32⟩
  | .hbm, ⟨15, _⟩ => ⟨S4096x400, .f32⟩
  | .hbm, ⟨16, _⟩ => ⟨S4096x400, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S4096x400, .f32⟩
  | .hbm, ⟨22, _⟩ => ⟨S4096x400, .f32⟩
  | .hbm, ⟨23, _⟩ => ⟨S4096x1, .i32⟩
  | .hbm, ⟨24, _⟩ => ⟨S_, .i32⟩
  | .hbm, ⟨25, _⟩ => ⟨S4096x1, .i32⟩
  | .hbm, ⟨26, _⟩ => ⟨S4096x1, .i1⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S4096x1x1, .i32⟩
  | .hbm, ⟨32, _⟩ => ⟨S1, .i32⟩
  | .hbm, ⟨33, _⟩ => ⟨S_, .i32⟩
  | .hbm, ⟨34, _⟩ => ⟨S4096x1x1, .i32⟩
  | .hbm, ⟨35, _⟩ => ⟨S4096x1x1, .i1⟩
  | .hbm, ⟨36, _⟩ => ⟨S1x1x1, .i32⟩
  | .hbm, ⟨37, _⟩ => ⟨S4096x1x1, .i32⟩
  | .hbm, ⟨38, _⟩ => ⟨S4096x1x1, .i1⟩
  | .hbm, ⟨39, _⟩ => ⟨S4096x1x1, .i1⟩
  | .hbm, ⟨40, _⟩ => ⟨S_, .i1⟩
  | .hbm, ⟨41, _⟩ => ⟨S4096x1, .i1⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S512x8x128, .f32⟩
  | .hbm, ⟨52, _⟩ => ⟨S_, .i32⟩
  | .hbm, ⟨53, _⟩ => ⟨S36, .i32⟩
  | .hbm, ⟨54, _⟩ => ⟨S36, .i32⟩
  | .hbm, ⟨55, _⟩ => ⟨S36, .i32⟩
  | .hbm, ⟨56, _⟩ => ⟨S36x1, .i32⟩
  | .hbm, ⟨57, _⟩ => ⟨S512x36x128, .f32⟩
  | .hbm, ⟨58, _⟩ => ⟨S36x512x128, .f32⟩
  | .hbm, ⟨59, _⟩ => ⟨S_, .i32⟩
  | .hbm, ⟨60, _⟩ => ⟨S36, .i32⟩
  | .hbm, ⟨61, _⟩ => ⟨S36, .i32⟩
  | .hbm, ⟨62, _⟩ => ⟨S36, .i32⟩
  | .hbm, ⟨63, _⟩ => ⟨S36x1, .i32⟩
  | .hbm, ⟨64, _⟩ => ⟨S512x36x128, .f32⟩
  | .hbm, ⟨65, _⟩ => ⟨S36x512x128, .f32⟩
  | .hbm, ⟨66, _⟩ => ⟨S36x1024x128, .f32⟩
  | .hbm, ⟨67, _⟩ => ⟨S36x512x128, .f32⟩
  | .hbm, ⟨68, _⟩ => ⟨S36x512x128, .f32⟩
  | .hbm, ⟨69, _⟩ => ⟨S36x1024x128, .f32⟩
  | .hbm, ⟨70, _⟩ => ⟨S36x1024x128, .f32⟩
  | .hbm, ⟨71, _⟩ => ⟨S_, .f32⟩
  | .hbm, ⟨72, _⟩ => ⟨S36x1024, .f32⟩
  | .hbm, ⟨73, _⟩ => ⟨S_, .f32⟩
  | .hbm, ⟨74, _⟩ => ⟨S36x1024, .f32⟩
  | .hbm, ⟨75, _⟩ => ⟨S36x1024, .f32⟩
  | .hbm, ⟨76, _⟩ => ⟨S36x1024, .f32⟩
  | .hbm, ⟨77, _⟩ => ⟨S1024x1024, .i32⟩
  | .hbm, ⟨78, _⟩ => ⟨S1024x1024, .i32⟩
  | .hbm, ⟨79, _⟩ => ⟨S_, .i32⟩
  | .hbm, ⟨80, _⟩ => ⟨S1024x1024, .i32⟩
  | .hbm, ⟨81, _⟩ => ⟨S1024x1024, .i32⟩
  | .hbm, ⟨82, _⟩ => ⟨S1024x1024, .i1⟩
  | .hbm, ⟨83, _⟩ => ⟨S1024x1024, .f32⟩
  | .hbm, ⟨84, _⟩ => ⟨S_, .f32⟩
  | .hbm, ⟨85, _⟩ => ⟨S1024x1024, .f32⟩
  | .hbm, ⟨86, _⟩ => ⟨S1024x1024, .f32⟩
  | .hbm, ⟨87, _⟩ => ⟨S36x128x1024, .f32⟩
  | .hbm, ⟨88, _⟩ => ⟨S36x1024x1024, .f32⟩
  | .hbm, ⟨89, _⟩ => ⟨S_, .f32⟩
  | .hbm, ⟨90, _⟩ => ⟨S36x1024x1024, .f32⟩
  | .hbm, ⟨91, _⟩ => ⟨S36x1024x1024, .f32⟩
  | .hbm, ⟨92, _⟩ => ⟨S36x1024x1024, .f32⟩
  | .hbm, ⟨93, _⟩ => ⟨S1x1024x1024, .f32⟩
  | .hbm, ⟨94, _⟩ => ⟨S36x1024x1024, .f32⟩
  | .hbm, ⟨95, _⟩ => ⟨S36x1024x1024, .f32⟩
  | .hbm, ⟨96, _⟩ => ⟨S_, .f32⟩
  | .hbm, ⟨97, _⟩ => ⟨S36x1024, .f32⟩
  | .hbm, ⟨98, _⟩ => ⟨S36x1024, .f32⟩
  | .hbm, ⟨99, _⟩ => ⟨S36x1024x1, .f32⟩
  | .hbm, ⟨100, _⟩ => ⟨S36x1024x1024, .f32⟩
  | .hbm, ⟨101, _⟩ => ⟨S36x1024x1024, .f32⟩
  | .hbm, ⟨102, _⟩ => ⟨S_, .f32⟩
  | .hbm, ⟨103, _⟩ => ⟨S36x1024x1024, .f32⟩
  | .hbm, ⟨104, _⟩ => ⟨S36x1024x1024, .f32⟩
  | .hbm, ⟨105, _⟩ => ⟨S36x1024x1024, .f32⟩
  | .hbm, ⟨106, _⟩ => ⟨S_, .f32⟩
  | .hbm, ⟨107, _⟩ => ⟨S36x1024, .f32⟩
  | .hbm, ⟨108, _⟩ => ⟨S_, .f32⟩
  | .hbm, ⟨109, _⟩ => ⟨S36x1024, .f32⟩
  | .hbm, ⟨110, _⟩ => ⟨S36x1024, .f32⟩
  | .hbm, ⟨111, _⟩ => ⟨S36x1024, .f32⟩
  | .hbm, ⟨112, _⟩ => ⟨S36x1024, .f32⟩
  | .hbm, ⟨113, _⟩ => ⟨S36x1024, .f32⟩
  | .hbm, ⟨114, _⟩ => ⟨S_, .f32⟩
  | .hbm, ⟨115, _⟩ => ⟨S36, .f32⟩
  | .hbm, ⟨116, _⟩ => ⟨S_, .f32⟩
  | .hbm, ⟨117, _⟩ => ⟨S36, .f32⟩
  | .hbm, ⟨118, _⟩ => ⟨S36, .f32⟩
  | .hbm, ⟨119, _⟩ => ⟨S36, .f32⟩
  | .hbm, ⟨120, _⟩ => ⟨S_, .f32⟩
  | .hbm, ⟨121, _⟩ => ⟨S36, .f32⟩
  | .hbm, ⟨122, _⟩ => ⟨S36, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4096x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev main_v1 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v2 : Ref sig .tc := ⟨.hbm, 45, rfl⟩
abbrev main_cst : Ref sig .tc := ⟨.hbm, 46, rfl⟩
abbrev main_v3 : Ref sig .tc := ⟨.hbm, 47, rfl⟩
abbrev main_cst_3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_c_4 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_5 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩
abbrev main_cst_7 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_c_8 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_9 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_10 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_11 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_12 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_13 : Ref sig .tc := ⟨.hbm, 106, rfl⟩
abbrev main_v52 : Ref sig .tc := ⟨.hbm, 107, rfl⟩
abbrev main_cst_14 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_15 : Ref sig .tc := ⟨.hbm, 114, rfl⟩
abbrev main_v58 : Ref sig .tc := ⟨.hbm, 115, rfl⟩
abbrev main_cst_16 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_17 : Ref sig .tc := ⟨.hbm, 120, rfl⟩
abbrev main_v62 : Ref sig .tc := ⟨.hbm, 121, rfl⟩
abbrev main_v63 : Ref sig .tc := ⟨.hbm, 122, rfl⟩
abbrev main_cst_18 : Ref sig .tc := ⟨.hbm, 123, rfl⟩
abbrev main_v64 : Ref sig .tc := ⟨.hbm, 124, rfl⟩
abbrev main_cst_19 : Ref sig .tc := ⟨.hbm, 125, rfl⟩
abbrev main_v65 : Ref sig .tc := ⟨.hbm, 126, rfl⟩
abbrev main_v66 : Ref sig .tc := ⟨.hbm, 127, rfl⟩

abbrev nD : Nat := 1
abbrev τ : Topo := Topo.v7x

variable {F : FTy → Type} [FloatOps F]

class Facts₀ : Prop where
  reducesTo_S4096x400_S4096_d1 : S4096x400.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x400_0_1 : S4096x1.BroadcastsInDim S4096x400 (![0, 1] : Fin 2 → Fin S4096x400.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  shapeCasts_S4096x128_S512x8x128 : S4096x128.ShapeCasts S512x8x128
  bcast_S_S36 : S_.BroadcastsInDim S36 (![] : Fin 0 → Fin S36.rank)
  bcast_S36_S36x1_0 : S36.BroadcastsInDim S36x1 (![0] : Fin 1 → Fin S36x1.rank)
  transposes_S512x36x128_S36x512x128_1_0_2 : S512x36x128.Transposes [1, 0, 2] S36x512x128
  concatenates_S36x512x128_S36x512x128_S36x1024x128_d1 : Shape.Concatenates [S36x512x128, S36x512x128] S36x1024x128 1
  slices_S36x1024x128_S36x512x128_0_512_0 : S36x1024x128.Slices ![0, 512, 0] S36x512x128
  slices_S36x1024x128_S36x512x128_0_0_0 : S36x1024x128.Slices ![0, 0, 0] S36x512x128
  reducesTo_S36x1024x128_S36x1024_d2 : S36x1024x128.ReducesTo [2] S36x1024
  bcast_S_S36x1024 : S_.BroadcastsInDim S36x1024 (![] : Fin 0 → Fin S36x1024.rank)
  bcast_S_S1024x1024 : S_.BroadcastsInDim S1024x1024 (![] : Fin 0 → Fin S1024x1024.rank)
  transposes_S36x1024x128_S36x128x1024_0_2_1 : S36x1024x128.Transposes [0, 2, 1] S36x128x1024
  bcast_S_S36x1024x1024 : S_.BroadcastsInDim S36x1024x1024 (![] : Fin 0 → Fin S36x1024x1024.rank)
  bcast_S1024x1024_S1x1024x1024_1_2 : S1024x1024.BroadcastsInDim S1x1024x1024 (![1, 2] : Fin 2 → Fin S1x1024x1024.rank)
  bcast_S1x1024x1024_S36x1024x1024_0_1_2 : S1x1024x1024.BroadcastsInDim S36x1024x1024 (![0, 1, 2] : Fin 3 → Fin S36x1024x1024.rank)
  reducesTo_S36x1024x1024_S36x1024_d2 : S36x1024x1024.ReducesTo [2] S36x1024
  bcast_S36x1024_S36x1024x1_0_1 : S36x1024.BroadcastsInDim S36x1024x1 (![0, 1] : Fin 2 → Fin S36x1024x1.rank)
  bcast_S36x1024x1_S36x1024x1024_0_1_2 : S36x1024x1.BroadcastsInDim S36x1024x1024 (![0, 1, 2] : Fin 3 → Fin S36x1024x1024.rank)
  reducesTo_S36x1024_S36_d1 : S36x1024.ReducesTo [1] S36
  reducesTo_S36_S_d0 : S36.ReducesTo [0] S_
  gather_S4096x400_S4096x1x1_S4096x1_n_1_0_0_1_2_11_wf : GatherDims.WF S4096x400 S4096x1x1 S4096x1 [] [1] [0] [1] [0] 2 ![1, 1]
  gather_S512x8x128_S36x1_S512x36x128_02_1_n_n_1_1_5121128_wf : GatherDims.WF S512x8x128 S36x1 S512x36x128 [0, 2] [1] [] [1] [] 1 ![512, 1, 128]
  dot_S36x1024x128_S36x128x1024_S36x1024x1024_2_1_1_2_0_0_wf : DotDims.WF S36x1024x128 S36x128x1024 S36x1024x1024 [2] [1] [1] [2] [0] [0]

variable [Facts₀]

def gather_S4096x400_S4096x1x1_S4096x1_n_1_0_0_1_2_11 : GatherDims S4096x400 S4096x1x1 S4096x1 where
  offsetDims := []
  collapsedSliceDims := [1]
  operandBatchingDims := [0]
  startIndicesBatchingDims := [0]
  startIndexMap := [1]
  indexVectorDim := 2
  sliceSizes := ![1, 1]
  wf := gather_S4096x400_S4096x1x1_S4096x1_n_1_0_0_1_2_11_wf
def gather_S512x8x128_S36x1_S512x36x128_02_1_n_n_1_1_5121128 : GatherDims S512x8x128 S36x1 S512x36x128 where
  offsetDims := [0, 2]
  collapsedSliceDims := [1]
  operandBatchingDims := []
  startIndicesBatchingDims := []
  startIndexMap := [1]
  indexVectorDim := 1
  sliceSizes := ![512, 1, 128]
  wf := gather_S512x8x128_S36x1_S512x36x128_02_1_n_n_1_1_5121128_wf
def dot_S36x1024x128_S36x128x1024_S36x1024x1024_2_1_1_2_0_0 : DotDims S36x1024x128 S36x128x1024 S36x1024x1024 where
  lhsContracting := [2]
  rhsContracting := [1]
  lhsNonContracting := [1]
  rhsNonContracting := [2]
  lhsBatch := [0]
  rhsBatch := [0]
  wf := dot_S36x1024x128_S36x128x1024_S36x1024x1024_2_1_1_2_0_0_wf

class Facts : Prop extends Facts₀ where

variable [Facts]
-- ==== Proof.KAcc.lean ====
/-
  What the two kernels' [1,1] output staging buffers hold after each grid point.

  Each kernel keeps a running total in a one-entry output block whose index never moves. At the first point the body
  stores the zero entry and then stores the point's update of it; at every later point it stores the point's update of
  what the point before left. So after point n the buffer holds the n-fold update of zero, in point order: a
  recursion on the point, with no enumeration of the grid.
-/
import proofs.«404227_j85306640433706_2_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem

variable {F : FTy → Type} [FloatOps F]
variable (V : (c : Dev nD) → (b : Ref sig .tc) → Buf (Elt F) ((c : Thread nD τ).loc b))

/-- The one-entry block sits at offset zero on both axes. -/
theorem hz : (![0, 0] : Fin 2 → Nat) = fun _ => 0 := funext fun a => by fin_cases a <;> rfl

/-- The one whole pair block sits at offset zero on its three axes. -/
theorem hz3 : (![0, 0, 0] : Fin 3 → Nat) = fun _ => 0 := funext fun a => by fin_cases a <;> rfl

/-! ## Cross entropy: the first point and the later points -/

/-- At the first point the buffer ends at the update of the zero entry by the point's two input blocks. -/
theorem out0_A (c : Dev nD) (i : grid0.Coords) (arg1 : Memref sig .tc .vmem S512x400 .f32) (harg1 : arg1.IsWhole) (arg2 : Memref sig .tc .vmem S512x1 .i32) (harg2 : arg2.IsWhole) (arg3 : Memref sig .tc .vmem S1x1 .f32) (harg3 : arg3.IsWhole) (hc0 : cond0_0 i)
    (x0 : Vec F S512x400 .f32) (x1 : Vec F S512x1 .i32) :
    out0_A_2 c i arg1 harg1 arg2 harg2 arg3 harg3 hc0 x0 x1 = k0_pay2 x0 x1 (k0_pay1 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S512x400) hz,
    View.ld_unit_zero (S := S512x1) hz]

/-- At a later point the buffer ends at the update of what it held by the point's two input blocks. -/
theorem out0_B (c : Dev nD) (i : grid0.Coords) (arg1 : Memref sig .tc .vmem S512x400 .f32) (harg1 : arg1.IsWhole) (arg2 : Memref sig .tc .vmem S512x1 .i32) (harg2 : arg2.IsWhole) (arg3 : Memref sig .tc .vmem S1x1 .f32) (harg3 : arg3.IsWhole) (hc0 : ¬cond0_0 i)
    (x0 : Vec F S512x400 .f32) (x1 : Vec F S512x1 .i32) (xo2 : Vec F S1x1 .f32) :
    out0_B_2 c i arg1 harg1 arg2 harg2 arg3 harg3 hc0 x0 x1 xo2 = k0_pay2 x0 x1 xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero (S := S1x1) hz]
  simp only [View.readAt_eq_ld, harg1.read_unread, harg2.read_unread, harg3.read_unread,
    View.ld_unit_zero (S := S512x400) hz, View.ld_unit_zero (S := S512x1) hz, View.ld_unit_zero (S := S1x1) hz]

/-! ## The contrastive term: the first point and the later points -/

/-- At the first point the buffer ends at the update of the zero entry by the point's pair block. -/
theorem out1_A (c : Dev nD) (i : grid1.Coords) (arg1 : Memref sig .tc .vmem S1x1024x128 .f32) (harg1 : arg1.IsWhole) (arg2 : Memref sig .tc .vmem S1x1 .f32) (harg2 : arg2.IsWhole) (hc0 : cond1_0 i)
    (x0 : Vec F S1x1024x128 .f32) :
    out1_A_1 c i arg1 harg1 arg2 harg2 hc0 x0 = k1_pay1 (k1_pay7 x0) (k1_pay8 x0) (k1_pay2 (F := F)) := by
  unfold out1_A_1
  rw [View.read_writes_eq_canon _ _ _ (cover1_A_1 c i arg1 harg1 arg2 harg2 hc0 x0)]
  unfold kernelRun1_A
  dsimp only
  sl_unfold_words
  rw [View.canon_cons_unit_zero (S := S1x1) hz, View.readCov_unit_zero (S := S1x1) _ hz]
  simp only [View.readAt_eq_ld, harg1.read_unread, View.ld_unit_zero (S := S1x1024x128) hz3]

/-- At a later point the buffer ends at the update of what it held by the point's pair block. -/
theorem out1_B (c : Dev nD) (i : grid1.Coords) (arg1 : Memref sig .tc .vmem S1x1024x128 .f32) (harg1 : arg1.IsWhole) (arg2 : Memref sig .tc .vmem S1x1 .f32) (harg2 : arg2.IsWhole) (hc0 : ¬cond1_0 i)
    (x0 : Vec F S1x1024x128 .f32) (xo1 : Vec F S1x1 .f32) :
    out1_B_1 c i arg1 harg1 arg2 harg2 hc0 x0 xo1 = k1_pay1 (k1_pay7 x0) (k1_pay8 x0) xo1 := by
  unfold out1_B_1
  rw [View.read_writes_eq_canon _ _ _ (cover1_B_1 c i arg1 harg1 arg2 harg2 hc0 x0 xo1)]
  unfold kernelRun1_B
  dsimp only
  sl_unfold_words
  rw [View.canon_unit_zero (S := S1x1) hz]
  simp only [View.readAt_eq_ld, harg1.read_unread, harg2.read_unread, View.ld_unit_zero (S := S1x1024x128) hz3,
    View.ld_unit_zero (S := S1x1) hz]

/-! ## The running contents -/

/-- the running contents, by recursion on the point -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

/-- After every point the cross-entropy buffer holds the running contents: by induction on the point. -/
theorem outsAt0_eq (c : Dev nD) : ∀ (n : ℕ) (h : n < cfg0.N), outsAt0 V c n h = acc0 V c n h
  | 0, h => (outsAt0_A V c ⟨0, h⟩ rfl).trans
      (out0_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk0 V c 0 ⟨0, h⟩) (iblk0 V c 1 ⟨0, h⟩))
  | n + 1, h => by
    have hN : cfg0.N = 8 := N_0
    have hB : ¬(⟨n + 1, h⟩ : Fin cfg0.N).val % 8 = 0 := by dsimp only; omega
    rw [outsAt0_B V c ⟨n + 1, h⟩ hB]
    dsimp only
    refine (out0_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (iblk0 V c 0 ⟨n + 1, h⟩) (iblk0 V c 1 ⟨n + 1, h⟩)
      (outsAt0 V c n (Nat.lt_of_succ_lt h))).trans ?_
    exact congrArg (k0_pay2 (iblk0 V c 0 ⟨n + 1, h⟩) (iblk0 V c 1 ⟨n + 1, h⟩)) (outsAt0_eq c n (Nat.lt_of_succ_lt h))

/-- the running contents, by recursion on the point -/
def acc1 (c : Dev nD) : (n : ℕ) → n < cfg1.N → Vec F S1x1 .f32
  | 0, h => k1_pay1 (k1_pay7 (iblk1 V c 0 ⟨0, h⟩)) (k1_pay8 (iblk1 V c 0 ⟨0, h⟩)) (k1_pay2 (F := F))
  | n + 1, h => k1_pay1 (k1_pay7 (iblk1 V c 0 ⟨n + 1, h⟩)) (k1_pay8 (iblk1 V c 0 ⟨n + 1, h⟩)) (acc1 c n (Nat.lt_of_succ_lt h))

/-- After every point the contrastive buffer holds the running contents: by induction on the point. -/
theorem outsAt1_eq (c : Dev nD) : ∀ (n : ℕ) (h : n < cfg1.N), outsAt1 V c n h = acc1 V c n h
  | 0, h => (outsAt1_A V c ⟨0, h⟩ rfl).trans
      (out1_A c (grid1.coords ⟨0, h⟩) (ms1_0 ⟨0, h⟩) (hs1_0 ⟨0, h⟩) (ms1_1 ⟨0, h⟩) (hs1_1 ⟨0, h⟩)
        ((hcond1_0 ⟨0, h⟩).mpr rfl) (iblk1 V c 0 ⟨0, h⟩))
  | n + 1, h => by
    have hN : cfg1.N = 36 := N_1
    have hB : ¬(⟨n + 1, h⟩ : Fin cfg1.N).val % 36 = 0 := by dsimp only; omega
    rw [outsAt1_B V c ⟨n + 1, h⟩ hB]
    dsimp only
    refine (out1_B c (grid1.coords ⟨n + 1, h⟩) (ms1_0 ⟨n + 1, h⟩) (hs1_0 ⟨n + 1, h⟩) (ms1_1 ⟨n + 1, h⟩) (hs1_1 ⟨n + 1, h⟩)
      (fun hh => hB ((hcond1_0 ⟨n + 1, h⟩).mp hh)) (iblk1 V c 0 ⟨n + 1, h⟩) (outsAt1 V c n (Nat.lt_of_succ_lt h))).trans ?_
    exact congrArg (k1_pay1 (k1_pay7 (iblk1 V c 0 ⟨n + 1, h⟩)) (k1_pay8 (iblk1 V c 0 ⟨n + 1, h⟩)))
      (outsAt1_eq c n (Nat.lt_of_succ_lt h))

end Cert.KernelIdeal.Acc

end
-- ==== Proof.KBlocks.lean ====
/-
  The geometry of the two grids' windows, read off the frame.

  Each input window cuts its array into equal blocks along the leading axis: block t of the logits is rows
  512 t … 512 t + 511, block t of the labels the same rows of the one-column array, block t of the pair
  array is its t-th [1024, 128] slab. A block's coordinate in the array is always
  block index × block size + the coordinate inside the block; the block indices are decided once over each grid.
  Each accumulated total is a [1, 1] array whose single block is the whole array, written back once, at
  the last point; so the array ends holding what the body left there.
-/
import proofs.«404227_j85306640433706_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The input windows' blocks, entry by entry -/

/-- The logits' window: at point t its block index is (t, 0). -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_0_apply (c : Dev nD) (t : Fin cfg0.N) (r : Fin 512) (col : Fin 400) (h : 512 * t.val + r.val < 4096) :
    (iblk0 V c 0 t : Vec F S512x400 .f32) (ix2 r col) = (V c main_arg0 : Vec F S4096x400 .f32) (ix2 ⟨512 * t.val + r.val, h⟩ col) := by
  have hi := index0_0 t
  unfold iblk0
  rw [View.read_apply]
  show V c main_arg0 _ = V c main_arg0 _
  congr 1
  funext a
  apply Fin.ext
  match a with
  | ⟨0, _⟩ => show win0_0.index t 0 * 512 + 1 * r.val = 512 * t.val + r.val; rw [hi.1]; omega
  | ⟨1, _⟩ => show win0_0.index t 1 * 400 + 1 * col.val = col.val; rw [hi.2]; omega

/-- The labels' window: at point t its block index is (t, 0). -/
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk0_1_apply (c : Dev nD) (t : Fin cfg0.N) (r : Fin 512) (h : 512 * t.val + r.val < 4096) :
    (iblk0 V c 1 t : Vec F S512x1 .i32) (ix2 r (0 : Fin 1)) = (V c main_v0 : Vec F S4096x1 .i32) (ix2 ⟨512 * t.val + r.val, h⟩ (0 : Fin 1)) := by
  have hi := index0_1 t
  unfold iblk0
  rw [View.read_apply]
  show V c main_v0 _ = V c main_v0 _
  congr 1
  funext a
  apply Fin.ext
  match a with
  | ⟨0, _⟩ => show win0_1.index t 0 * 512 + 1 * r.val = 512 * t.val + r.val; rw [hi.1]; omega
  | ⟨1, _⟩ => show win0_1.index t 1 * 1 + 1 * 0 = 0; rw [hi.2]

/-- The pair array's window: at point t its block index is (t, 0, 0). -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)

theorem iblk1_0_apply (c : Dev nD) (t : Fin cfg1.N) (i : Fin 1024) (k : Fin 128) (h : t.val < 36) :
    (iblk1 V c 0 t : Vec F S1x1024x128 .f32) (ix3 (0 : Fin 1) i k) = (V c main_v17 : Vec F S36x1024x128 .f32) (ix3 ⟨t.val, h⟩ i k) := by
  have hi := index1_0 t
  unfold iblk1
  rw [View.read_apply]
  show V c main_v17 _ = V c main_v17 _
  congr 1
  funext a
  apply Fin.ext
  match a with
  | ⟨0, _⟩ => show win1_0.index t 0 * 1 + 1 * 0 = t.val; rw [hi.1]; omega
  | ⟨1, _⟩ => show win1_0.index t 1 * 1024 + 1 * i.val = i.val; rw [hi.2.1]; omega
  | ⟨2, _⟩ => show win1_0.index t 2 * 128 + 1 * k.val = k.val; rw [hi.2.2]; omega

/-! ## The accumulated totals: one write-back, of the whole array -/

/-- The first total's window: its block index is (0, 0) at every point. -/
theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The first total's one write-back, at point 7: block (0, 0) of the [1, 1] array, read through zero offsets, is the array. -/
theorem flushed0_eq (c : Dev nD) (h : 7 < cfg0.N) (t : Fin cfg0.N) (hf : (cfg0.win 2).flush t = true) :
    (dat0 V c).flushed 2 t = ((cfg0.win 2).blk t).view.read (Elt F) (outsAt0 V c 7 h : Vec F S1x1 .f32) := by
  have hN : cfg0.N = 8 := N_0
  have h7 : t.val = 7 := by have := (flush0_2 t).mp hf; have := t.isLt; omega
  obtain rfl : t = ⟨7, h⟩ := Fin.ext h7
  show (cfg0.win 2).cut (grid0.coords ⟨7, h⟩) ((dat0 V c).after 2 ⟨7, h⟩) = _
  rw [after0_2]
  have hi := index0_2 ⟨7, h⟩
  have hz' : (fun a => win0_2.index ⟨7, h⟩ a * main_v1.ty.shape.size a) = fun _ => 0 := funext fun a =>
    match a with
    | ⟨0, _⟩ => by show win0_2.index ⟨7, h⟩ 0 * 1 = 0; rw [hi.1]
    | ⟨1, _⟩ => by show win0_2.index ⟨7, h⟩ 1 * 1 = 0; rw [hi.2]
  exact (Memref.read_access_unit_zero (Elt F) main_v1 hz' (fun a => by rw [congrFun hz' a]; simp) (outsAt0 V c 7 h)).symm

/-- So the first total's array ends holding what the body left after point 7. -/
theorem final0 (c : Dev nD) (h : 7 < cfg0.N) : (dat0 V c).arrAt 2 cfg0.N = (outsAt0 V c 7 h : Vec F S1x1 .f32) :=
  (dat0 V c).arrAt_eq_of_cover 2 (outsAt0 V c 7 h) (flushed0_eq V c h) fun i =>
    ⟨⟨7, h⟩, (flush0_2 ⟨7, h⟩).mpr rfl, by
      show i ∈ ((View.whole main_v1).slice (win0_2.rect ⟨7, h⟩)).set
      rw [View.set_slice_whole, Rect.mem_set_unit]
      intro a
      have hi := index0_2 ⟨7, h⟩
      have h0 : (i 0 : Nat) < 1 := (i 0).isLt
      have h1 : (i 1 : Nat) < 1 := (i 1).isLt
      match a with
      | ⟨0, _⟩ => show win0_2.index ⟨7, h⟩ 0 * 1 ≤ (i 0 : Nat) ∧ (i 0 : Nat) < win0_2.index ⟨7, h⟩ 0 * 1 + win0_2.xsize (grid0.coords ⟨7, h⟩) 0
                  rw [hi.1, show win0_2.xsize (grid0.coords ⟨7, h⟩) 0 = 1 from rfl]; omega
      | ⟨1, _⟩ => show win0_2.index ⟨7, h⟩ 1 * 1 ≤ (i 1 : Nat) ∧ (i 1 : Nat) < win0_2.index ⟨7, h⟩ 1 * 1 + win0_2.xsize (grid0.coords ⟨7, h⟩) 1
                  rw [hi.2, show win0_2.xsize (grid0.coords ⟨7, h⟩) 1 = 1 from rfl]; omega⟩

/-- The second total's window: its block index is (0, 0) at every point. -/
theorem index1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The second total's one write-back, at point 35: block (0, 0) of the [1, 1] array, read through zero offsets, is the array. -/
theorem flushed1_eq (c : Dev nD) (h : 35 < cfg1.N) (t : Fin cfg1.N) (hf : (cfg1.win 1).flush t = true) :
    (dat1 V c).flushed 1 t = ((cfg1.win 1).blk t).view.read (Elt F) (outsAt1 V c 35 h : Vec F S1x1 .f32) := by
  have hN : cfg1.N = 36 := N_1
  have h35 : t.val = 35 := by have := (flush1_1 t).mp hf; have := t.isLt; omega
  obtain rfl : t = ⟨35, h⟩ := Fin.ext h35
  show (cfg1.win 1).cut (grid1.coords ⟨35, h⟩) ((dat1 V c).after 1 ⟨35, h⟩) = _
  rw [after1_1]
  have hi := index1_1 ⟨35, h⟩
  have hz' : (fun a => win1_1.index ⟨35, h⟩ a * main_v18.ty.shape.size a) = fun _ => 0 := funext fun a =>
    match a with
    | ⟨0, _⟩ => by show win1_1.index ⟨35, h⟩ 0 * 1 = 0; rw [hi.1]
    | ⟨1, _⟩ => by show win1_1.index ⟨35, h⟩ 1 * 1 = 0; rw [hi.2]
  exact (Memref.read_access_unit_zero (Elt F) main_v18 hz' (fun a => by rw [congrFun hz' a]; simp) (outsAt1 V c 35 h)).symm

/-- So the second total's array ends holding what the body left after point 35. -/
theorem final1 (c : Dev nD) (h : 35 < cfg1.N) : (dat1 V c).arrAt 1 cfg1.N = (outsAt1 V c 35 h : Vec F S1x1 .f32) :=
  (dat1 V c).arrAt_eq_of_cover 1 (outsAt1 V c 35 h) (flushed1_eq V c h) fun i =>
    ⟨⟨35, h⟩, (flush1_1 ⟨35, h⟩).mpr rfl, by
      show i ∈ ((View.whole main_v18).slice (win1_1.rect ⟨35, h⟩)).set
      rw [View.set_slice_whole, Rect.mem_set_unit]
      intro a
      have hi := index1_1 ⟨35, h⟩
      have h0 : (i 0 : Nat) < 1 := (i 0).isLt
      have h1 : (i 1 : Nat) < 1 := (i 1).isLt
      match a with
      | ⟨0, _⟩ => show win1_1.index ⟨35, h⟩ 0 * 1 ≤ (i 0 : Nat) ∧ (i 0 : Nat) < win1_1.index ⟨35, h⟩ 0 * 1 + win1_1.xsize (grid1.coords ⟨35, h⟩) 0
                  rw [hi.1, show win1_1.xsize (grid1.coords ⟨35, h⟩) 0 = 1 from rfl]; omega
      | ⟨1, _⟩ => show win1_1.index ⟨35, h⟩ 1 * 1 ≤ (i 1 : Nat) ∧ (i 1 : Nat) < win1_1.index ⟨35, h⟩ 1 * 1 + win1_1.xsize (grid1.coords ⟨35, h⟩) 1
                  rw [hi.2, show win1_1.xsize (grid1.coords ⟨35, h⟩) 1 = 1 from rfl]; omega⟩

end Cert.KernelIdeal.Blocks

end
-- ==== Proof.PairsK.lean ====
/-
  The pair tensor both programs build from the features before anything else: the 4096 rows regrouped as 512 groups of
  8, for each of the 36 index pairs (a, b) with a ≤ b the 512 rows numbered a of their groups followed by the 512 rows
  numbered b, one block of 1024 rows per pair. It is carried as one function of the feature array; nothing here looks
  inside it.
-/
import proofs.«404227_j85306640433706_2_alg».proof.KernelIdeal
import proofs.«404227_j85306640433706_2_alg».proof.Proof.Gen.KernelIdeal

noncomputable section

namespace Cert.KernelIdeal.Pairs

open Cert.KernelIdeal Cert.KernelIdeal.Gen Idealize.ShloMosaic

variable {F : FTy → Type} [FloatOps F]

/-- The host operations from the feature array to the pair tensor, composed. -/
def pairs (a2 : FVec F S4096x128 .f32) : FVec F S36x1024x128 .f32 :=
  let c : IVec S36 32 := fun i => lit0 (S36.rowMajor i)
  let c_0 : IVec S36 1 := constantI S36 1 0#1
  let c_1 : IVec S36 32 := fun i => lit1 (S36.rowMajor i)
  let c_2 : IVec S36 1 := constantI S36 1 0#1
  let g : FVec F S512x8x128 .f32 := shapeCast S512x8x128 a2 shapeCasts_S4096x128_S512x8x128
  let e : IVec S_ 32 := constantI S_ 32 8#32
  let e1 : IVec S36 32 := broadcastInDim S36 ![] bcast_S_S36 e
  let s1 : IVec S36 32 := addi c e1
  let t1 : IVec S36 32 := select c_0 s1 c
  let i1 : IVec S36x1 32 := broadcastInDim S36x1 ![0] bcast_S36_S36x1_0 t1
  let r1 : FVec F S512x36x128 .f32 := Host.gather gather_S512x8x128_S36x1_S512x36x128_02_1_n_n_1_1_5121128 g i1
  let x1 : FVec F S36x512x128 .f32 := transpose S36x512x128 [1, 0, 2] r1 transposes_S512x36x128_S36x512x128_1_0_2
  let e' : IVec S_ 32 := constantI S_ 32 8#32
  let e2 : IVec S36 32 := broadcastInDim S36 ![] bcast_S_S36 e'
  let s2 : IVec S36 32 := addi c_1 e2
  let t2 : IVec S36 32 := select c_2 s2 c_1
  let i2 : IVec S36x1 32 := broadcastInDim S36x1 ![0] bcast_S36_S36x1_0 t2
  let r2 : FVec F S512x36x128 .f32 := Host.gather gather_S512x8x128_S36x1_S512x36x128_02_1_n_n_1_1_5121128 g i2
  let x2 : FVec F S36x512x128 .f32 := transpose S36x512x128 [1, 0, 2] r2 transposes_S512x36x128_S36x512x128_1_0_2
  concatenate S36x1024x128 1 [⟨S36x512x128, x1⟩, ⟨S36x512x128, x2⟩] concatenates_S36x512x128_S36x512x128_S36x1024x128_d1

end Cert.KernelIdeal.Pairs

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«404227_j85306640433706_2_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.KHost.lean ====
/-
  The host operations around the two regions, read as values: the buffers a region is entered with, and the buffer
  the program returns, each as a term of the operations that wrote it, over the launch memory and over what the two
  regions leave in their output arrays. The first and the last stretch are short and are read off directly; the
  second stretch is in single-assignment form and is read one operation at a time, each buffer's final contents as
  its operation's function of its operands' final contents.
-/
import proofs.«404227_j85306640433706_2_alg».proof.Proof.Gen.KernelIdeal.Frame
import proofs.«404227_j85306640433706_2_alg».proof.Proof.PairsK
import proofs.«404227_j85306640433706_2_alg».proof.Proof.LibSsa
import Idealize.ShloMosaic.Lib.StableHlo.Run
import Idealize.ShloMosaic.Lib.Pipeline.Value
import Idealize.ShloMosaic.Lib.ValueIdx

set_option maxRecDepth 16384

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx Cert.LibStretch Cert.LibSsa

variable {F : FTy → Type} [FloatOps F]
variable (m : (ℓ : Loc nD τ sig) → Buf (Elt F) ℓ) (ρ : Dev nD → PrngReg)

/-! ## The first stretch: region 0 is entered with the logits as launched and the labels as one column -/

theorem V1_arg0 (c : Dev nD) : V1 m ρ c main_arg0 = m ((c : Thread nD τ).loc main_arg0) := by
  show StableHlo.after hostOps0 (W0 m ρ c) (Proc.devRef .tc main_arg0) = _
  after_results

/-- The label column is the label vector at the column's shape. -/
theorem V1_v0 (c : Dev nD) :
    (V1 m ρ c main_v0 : Vec F S4096x1 .i32)
      = shapeCast S4096x1 (m ((c : Thread nD τ).loc main_arg1) : Vec F S4096 .i32) shapeCasts_S4096_S4096x1 := by
  show StableHlo.after hostOps0 (W0 m ρ c) (Proc.devRef .tc main_v0) = _
  after_results
  rfl

/-- Row r of the label column is label r: the two indices have the same row-major position, r · 1 + 0 = r. -/
theorem V1_v0_apply (c : Dev nD) (r : Fin 4096) :
    (V1 m ρ c main_v0 : Vec F S4096x1 .i32) (ix2 r (0 : Fin 1))
      = (m ((c : Thread nD τ).loc main_arg1) : Vec F S4096 .i32) (ix1 r) := by
  refine (congrFun (V1_v0 m ρ c) (ix2 r (0 : Fin 1))).trans ?_
  refine shapeCast_apply (s := S4096) (t := S4096x1) _ _ _ _ ?_
  show (S4096.rowMajor (ix1 r)).val = (S4096x1.rowMajor (ix2 r (0 : Fin 1))).val
  rw [Shape.rowMajor_val_one, Shape.rowMajor_val_two]
  show r.val = r.val * 1 + 0
  omega

/-! ## Across region 0: the four constant tables and the feature array are none of its arrays -/

theorem W2_c (c : Dev nD) :
    (W2 m ρ c (Proc.devRef .tc main_c) : IVec S36 32) = fun i => lit0 (S36.rowMajor i) := by
  refine (W2_of_ne m ρ c main_c (by decide)).trans ?_
  show StableHlo.after hostOps0 (W0 m ρ c) (Proc.devRef .tc main_c) = _
  after_results
  rfl

theorem W2_c_0 (c : Dev nD) :
    (W2 m ρ c (Proc.devRef .tc main_c_0) : IVec S36 1) = constantI S36 1 0#1 := by
  refine (W2_of_ne m ρ c main_c_0 (by decide)).trans ?_
  show StableHlo.after hostOps0 (W0 m ρ c) (Proc.devRef .tc main_c_0) = _
  after_results

theorem W2_c_1 (c : Dev nD) :
    (W2 m ρ c (Proc.devRef .tc main_c_1) : IVec S36 32) = fun i => lit1 (S36.rowMajor i) := by
  refine (W2_of_ne m ρ c main_c_1 (by decide)).trans ?_
  show StableHlo.after hostOps0 (W0 m ρ c) (Proc.devRef .tc main_c_1) = _
  after_results
  rfl

theorem W2_c_2 (c : Dev nD) :
    (W2 m ρ c (Proc.devRef .tc main_c_2) : IVec S36 1) = constantI S36 1 0#1 := by
  refine (W2_of_ne m ρ c main_c_2 (by decide)).trans ?_
  show StableHlo.after hostOps0 (W0 m ρ c) (Proc.devRef .tc main_c_2) = _
  after_results

theorem W2_arg2 (c : Dev nD) :
    W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-! ## The second stretch: the pair tensor region 1 is entered with -/

/-- The references the second stretch writes, operation by operation; each occurs once. -/
abbrev ys1 : List (Ref sig .tc) :=
  [main_v2, main_cst, main_v3, main_v4, main_c_3, main_v5, main_v6, main_v7, main_v8, main_v9, main_v10, main_c_4,
   main_v11, main_v12, main_v13, main_v14, main_v15, main_v16, main_v17]

theorem writes1 : WritesAre (hostOps1 : List (HloOp τ sig (Elt F))) ys1 := by writes_are

/-- The pair tensor: the final contents of the concatenation's buffer, unfolded operation by operation down to the
    constant tables and the feature array, is the composed function of the feature array. -/
theorem V3_v17 (c : Dev nD) :
    V3 m ρ c main_v17 = Cert.KernelIdeal.Pairs.pairs (m ((c : Thread nD τ).loc main_arg2)) := by
  show StableHlo.after hostOps1 (W2 m ρ c) (Proc.devRef .tc main_v17) = _
  have h := writes1 (F := F)
  rw [at_binary h 18 (W2 m ρ c) _ _ _ _ rfl (by decide) (by decide) (by decide),
    at_unary h 10 (W2 m ρ c) _ _ _ rfl (by decide) (by decide),
    at_unary h 17 (W2 m ρ c) _ _ _ rfl (by decide) (by decide),
    at_binary h 9 (W2 m ρ c) _ _ _ _ rfl (by decide) (by decide) (by decide),
    at_binary h 16 (W2 m ρ c) _ _ _ _ rfl (by decide) (by decide) (by decide),
    at_reshape h 3 (W2 m ρ c) _ _ _ _ rfl (by decide) (by decide),
    at_unary h 8 (W2 m ρ c) _ _ _ rfl (by decide) (by decide),
    at_unary h 15 (W2 m ρ c) _ _ _ rfl (by decide) (by decide),
    at_ternary h 7 (W2 m ρ c) _ _ _ _ _ rfl (by decide) (by decide) (by decide) (by decide),
    at_ternary h 14 (W2 m ρ c) _ _ _ _ _ rfl (by decide) (by decide) (by decide) (by decide),
    at_binary h 6 (W2 m ρ c) _ _ _ _ rfl (by decide) (by decide) (by decide),
    at_binary h 13 (W2 m ρ c) _ _ _ _ rfl (by decide) (by decide) (by decide),
    at_unary h 5 (W2 m ρ c) _ _ _ rfl (by decide) (by decide),
    at_unary h 12 (W2 m ρ c) _ _ _ rfl (by decide) (by decide),
    at_nullary h 4 (W2 m ρ c) _ _ rfl (by decide),
    at_nullary h 11 (W2 m ρ c) _ _ rfl (by decide),
    keeps h (W2 m ρ c) main_c (by decide), keeps h (W2 m ρ c) main_c_0 (by decide),
    keeps h (W2 m ρ c) main_c_1 (by decide), keeps h (W2 m ρ c) main_c_2 (by decide),
    keeps h (W2 m ρ c) main_arg2 (by decide),
    W2_c, W2_c_0, W2_c_1, W2_c_2, W2_arg2]
  rfl

/-- What region 0 leaves in its output array, divided by 4096: the buffer main_v3 when region 1 is entered. -/
theorem W3_v3 (c : Dev nD) :
    (W3 m ρ c (Proc.devRef .tc main_v3) : Vec F S_ .f32)
      = Host.divf (shapeCast S_ ((dat0 (V1 m ρ) c).arrAt 2 cfg0.N) shapeCasts_S1x1_S_)
          (constant S_ .f32 0x45800000#32) := by
  show StableHlo.after hostOps1 (W2 m ρ c) (Proc.devRef .tc main_v3) = _
  have h := writes1 (F := F)
  rw [at_binary h 2 (W2 m ρ c) _ _ _ _ rfl (by decide) (by decide) (by decide),
    at_reshape h 0 (W2 m ρ c) _ _ _ _ rfl (by decide) (by decide),
    at_nullary h 1 (W2 m ρ c) _ _ rfl (by decide),
    keeps h (W2 m ρ c) main_v1 (by decide)]
  rw [show W2 m ρ c (Proc.devRef .tc main_v1) = (dat0 (V1 m ρ) c).arrAt 2 cfg0.N from W2_arr m ρ c 2]
  rfl

/-! ## The last stretch: the returned scalar -/

/-- The weight times what region 1 leaves in its output array, plus the mean of what region 0 leaves in its. -/
theorem W5_v21 (c : Dev nD) :
    W5 m ρ c (Proc.devRef .tc main_v21)
      = addf (mulf (constant S_ .f32 0x3CF5C28F#32)
            (shapeCast S_ ((dat1 (V3 m ρ) c).arrAt 1 cfg1.N) shapeCasts_S1x1_S_))
          (Host.divf (shapeCast S_ ((dat0 (V1 m ρ) c).arrAt 2 cfg0.N) shapeCasts_S1x1_S_)
            (constant S_ .f32 0x45800000#32)) := by
  show StableHlo.after hostOps2 (W4 m ρ c) (Proc.devRef .tc main_v21) = _
  after_results
  rw [show W4 m ρ c (Proc.devRef .tc main_v18) = (dat1 (V3 m ρ) c).arrAt 1 cfg1.N from W4_arr m ρ c 1,
    show W4 m ρ c (Proc.devRef .tc main_v3) = W3 m ρ c (Proc.devRef .tc main_v3) from W4_of_ne m ρ c main_v3 (by decide),
    W3_v3]
  rfl

end Cert.KernelIdeal.HostV

end
-- ==== Proof.Spec.lean ====
/-
  The mathematics both programs compute, stated once over plain functions into the extended reals.

  The loss is  α · Σ_p nce(x_p)  +  ce,  where
  * ce is the mean, over the 4096 rows r of the logits P, of minus the log-softmax of row r at its label:
    logp r c = (P r c - max_c' P r c') - log Σ_c' exp (P r c' - max_c'' P r c''), and
  * for each of the 36 pair blocks x (1024 rows of 128 features), with rot i = i + 512 mod 1024,
      pos i      = exp ((Σ_k x i k · x (rot i) k) / T),
      allProb i j = exp ((Σ_k x i k · x j k) / T) · [i ≠ j],      allDiv i = Σ_j allProb i j,
      pmt i      = pos i / allDiv i,
      lnPon i    = Σ_j log (1 - allProb i j / allDiv i) - log (1 - pmt i),
      nce x      = -(Σ_i log (pmt i) + Σ_i lnPon i) / 1024.
  Every operation is the extended reals' own (Ideal.div, Ideal.exp, Ideal.log); T, 1024, 4096 and α are the
  values of the float literals the programs carry.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The literals -/

/-- The temperature, the float nearest 0.1. -/
def tenth : EReal := Ideal.ofBits .f32 0x3DCCCCCD#32
/-- 1024, the rows of a pair block. -/
def c1024 : EReal := Ideal.ofBits .f32 0x44800000#32
/-- 4096, the rows of the logits. -/
def c4096 : EReal := Ideal.ofBits .f32 0x45800000#32
/-- The weight of the contrastive term, the float nearest 0.03. -/
def alpha : EReal := Ideal.ofBits .f32 0x3CF5C28F#32

/-! ## Cross entropy -/

/-- The largest logit of row r (the fold of max from the bottom element over the 400 columns). -/
def rowMax {n : Nat} (P : Fin n → Fin 400 → EReal) (r : Fin n) : EReal :=
  (Finset.univ : Finset (Fin 400)).fold max (⊥ : EReal) (fun c => P r c)

/-- A logit minus its row's largest. -/
def shifted {n : Nat} (P : Fin n → Fin 400 → EReal) (r : Fin n) (c : Fin 400) : EReal := P r c - rowMax P r

/-- The log of the row's sum of exponentials of the shifted logits. -/
def lse {n : Nat} (P : Fin n → Fin 400 → EReal) (r : Fin n) : EReal :=
  Ideal.log (∑ c : Fin 400, Ideal.exp (shifted P r c))

/-- The log-softmax of row r at column c. -/
def logp {n : Nat} (P : Fin n → Fin 400 → EReal) (r : Fin n) (c : Fin 400) : EReal := shifted P r c - lse P r

/-- What one block of rows adds to the running total in the kernel: over its rows, zero minus the sum over the
    columns of the log-softmax where the column's number is the row's label word, and zero elsewhere. -/
def cePartial {n : Nat} (P : Fin n → Fin 400 → EReal) (L : Fin n → BitVec 32) : EReal :=
  ∑ r : Fin n, (0 - ∑ c : Fin 400, if BitVec.ofNat 32 c.val = L r then logp P r c else 0)

/-- The column a label word names when it is in range (its value modulo 400 otherwise, which no proof uses). -/
def lblIdx (w : BitVec 32) : Fin 400 := ⟨w.toNat % 400, Nat.mod_lt _ (by norm_num)⟩

/-- The reference's cross entropy: minus the quotient by 4096 of the sum over the rows of the log-softmax at the label. -/
def ceRef (P : Fin 4096 → Fin 400 → EReal) (L : Fin 4096 → BitVec 32) : EReal :=
  -(Ideal.div (∑ r : Fin 4096, logp P r (lblIdx (L r))) c4096)

/-! ## The contrastive term of one pair block -/

/-- The partner row: half a block further, cyclically. -/
def rot (i : Fin 1024) : Fin 1024 := ⟨(i.val + 512) % 1024, Nat.mod_lt _ (by norm_num)⟩

def sim (x : Fin 1024 → Fin 128 → EReal) (i j : Fin 1024) : EReal := ∑ k : Fin 128, x i k * x j k

def pos (x : Fin 1024 → Fin 128 → EReal) (i : Fin 1024) : EReal := Ideal.exp (Ideal.div (sim x i (rot i)) tenth)

/-- One off the diagonal, zero on it. -/
def offDiag (i j : Fin 1024) : EReal := if i = j then 0 else 1

def allProb (x : Fin 1024 → Fin 128 → EReal) (i j : Fin 1024) : EReal :=
  Ideal.exp (Ideal.div (sim x i j) tenth) * offDiag i j

def allDiv (x : Fin 1024 → Fin 128 → EReal) (i : Fin 1024) : EReal := ∑ j : Fin 1024, allProb x i j

def pmt (x : Fin 1024 → Fin 128 → EReal) (i : Fin 1024) : EReal := Ideal.div (pos x i) (allDiv x i)

def lnPon (x : Fin 1024 → Fin 128 → EReal) (i : Fin 1024) : EReal :=
  (∑ j : Fin 1024, Ideal.log (1 - Ideal.div (allProb x i j) (allDiv x i))) - Ideal.log (1 - pmt x i)

def nceVal (x : Fin 1024 → Fin 128 → EReal) : EReal :=
  Ideal.div (-((∑ i : Fin 1024, Ideal.log (pmt x i)) + ∑ i : Fin 1024, lnPon x i)) c1024

/-! ## The loss -/

/-- α times the sum of the 36 blocks' contrastive terms, plus the cross entropy. -/
def loss (ce : EReal) (X : Fin 36 → Fin 1024 → Fin 128 → EReal) : EReal :=
  alpha * (∑ p : Fin 36, nceVal (X p)) + ce

/-! ## Values of the literals that the proofs meet -/

theorem ofBits_one : Ideal.ofBits .f32 0x3F800000#32 = 1 := by
  simp [Ideal.ofBits, Ideal.ieee]
  rw [← EReal.coe_mul]
  norm_num

theorem ofBits_neg_inf : Ideal.ofBits .f32 0xFF800000#32 = ⊥ := by
  simp [Ideal.ofBits, Ideal.ieee]

end Cert.Spec

end
-- ==== Proof.KPay0.lean ====
/-
  The first kernel's arithmetic read at an index, over the extended reals: the value it stores at the start
  is zero, and the value it stores at each step is the running value plus the block's share of the cross
  entropy — over the block's rows, zero minus the sum over the columns of the log-softmax at the columns whose
  number is the row's label word.
-/
import proofs.«404227_j85306640433706_2_alg».proof.Proof.Gen.KernelIdeal.Skeleton
import proofs.«404227_j85306640433706_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay0

open Cert.KernelIdeal Cert.KernelIdeal.Gen Idealize.ShloMosaic Idealize.ShloMosaic.ValueIdx

/-! ## Layout: a column kept, a column spread over the lanes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions at an index -/

/-- The source index over row `r` with column `c` inserted is `(r, c)`. -/
theorem lift_row (h : S512x400.Reduces [1] S512) (r : Fin 512) (c : Fin 400) : h.lift (ix1 r) c = ix2 r c := by
  funext d
  apply Fin.ext
  match d with
  | ⟨0, _⟩ => rfl
  | ⟨1, _⟩ => rfl

/-- The source index over the one result index with row `r` inserted is `(r, 0)`. -/
theorem lift_col (h : S512x1.Reduces [0] S1) (r : Fin 512) : h.lift (ix1 (0 : Fin 1)) r = ix2 r (0 : Fin 1) := by
  funext d
  apply Fin.ext
  match d with
  | ⟨0, _⟩ => rfl
  | ⟨1, _⟩ => rfl

/-- A row's sum over the 400 lanes. -/
theorem rowSum_apply (x : FVec Ideal S512x400 .f32) (h : S512x400.Reduces [1] S512) (hφ : FKind.Formats .f32)
    (hacc : (0x00000000#32 : BitVec 32) = 0x00000000#32) (r : Fin 512) :
    multiReduction .add [1] S512 x 0x00000000#32 h hφ hacc (ix1 r) = ∑ c : Fin 400, x (ix2 r c) := by
  refine (Ideal.multiReduction_add_single x _ h hφ hacc (ix1 r)).trans ?_
  show ∑ c : Fin 400, x (h.lift (ix1 r) c) = _
  exact Finset.sum_congr rfl fun c _ => congrArg x (lift_row h r c)

/-- A row's largest entry over the 400 lanes, from the bottom element. -/
theorem rowMax_apply (x : FVec Ideal S512x400 .f32) (h : S512x400.Reduces [1] S512) (hφ : FKind.Formats .f32)
    (hacc : (0xFF800000#32 : BitVec 32) = 0xFF800000#32) (r : Fin 512) :
    multiReduction .maximumf [1] S512 x 0xFF800000#32 h hφ hacc (ix1 r)
      = Cert.Spec.rowMax (fun (r : Fin 512) (c : Fin 400) => x (ix2 r c)) r := by
  refine (Ideal.multiReduction_maximumf_single x _ h hφ hacc (ix1 r)).trans ?_
  show (Finset.univ : Finset (Fin 400)).fold max (Ideal.ofBits .f32 0xFF800000#32) (fun c => x (h.lift (ix1 r) c))
      = (Finset.univ : Finset (Fin 400)).fold max (⊥ : EReal) (fun c => x (ix2 r c))
  rw [Cert.Spec.ofBits_neg_inf]
  exact congrArg (fun f : Fin 400 → EReal => (Finset.univ : Finset (Fin 400)).fold max (⊥ : EReal) f) (funext fun c => congrArg x (lift_row h r c))

/-- The sum down the one column of the 512 rows. -/
theorem colSum_apply (x : FVec Ideal S512x1 .f32) (h : S512x1.Reduces [0] S1) (hφ : FKind.Formats .f32)
    (hacc : (0x00000000#32 : BitVec 32) = 0x00000000#32) :
    multiReduction .add [0] S1 x 0x00000000#32 h hφ hacc (ix1 (0 : Fin 1)) = ∑ r : Fin 512, x (ix2 r (0 : Fin 1)) := by
  refine (Ideal.multiReduction_add_single x _ h hφ hacc (ix1 (0 : Fin 1))).trans ?_
  show ∑ r : Fin 512, x (h.lift (ix1 (0 : Fin 1)) r) = _
  exact Finset.sum_congr rfl fun r _ => congrArg x (lift_col h r)

/-! ## Words -/

/-- A select on the equality of two words is the `if` on it. -/
theorem select_cmpi_eq {α : Type} (a b : BitVec 32) (A B : α) :
    Scalar.select (IntOp.cmpi .eq a b) A B = if a = b then A else B := by
  show (if BitVec.ofBool (a == b) = 1 then A else B) = if a = b then A else B
  by_cases hab : a = b
  · subst hab
    have hb : (a == a) = true := by simp
    rw [if_pos rfl, hb]
    exact if_pos rfl
  · have hb : (a == b) = false := by simp [hab]
    rw [if_neg hab, hb]
    exact if_neg (by decide)

/-! ## The elementwise operations this payload meets, at an index -/

section AtIndex
variable {s : Shape} {φ : FTy}

theorem exp_apply (a : FVec Ideal s φ) (i : s.Idx) : exp a i = Ideal.exp (a i) := rfl
theorem log_apply (a : FVec Ideal s φ) (i : s.Idx) : log a i = Ideal.log (a i) := rfl
theorem cmpi_apply {w : ℕ} (p : CmpIPredicate) (a b : IVec s w) (i : s.Idx) : cmpi p a b i = IntOp.cmpi p (a i) (b i) := rfl

end AtIndex

/-- The zero word is the extended real zero. -/
theorem zero_word : Scalar.ofBits (F := Ideal) .f32 0x00000000#32 = (0 : EReal) := Ideal.ofBits_zero_f32

/-! ## The stages of the arithmetic, named -/

/-- Each row's largest logit. -/
def rmax (x0 : FVec Ideal S512x400 .f32) : FVec Ideal S512 .f32 :=
  multiReduction .maximumf [1] S512 x0 0xFF800000#32 reduces_S512x400_S512 (.inl rfl) rfl

/-- The logits minus their row's largest. -/
def shf (x0 : FVec Ideal S512x400 .f32) : FVec Ideal S512x400 .f32 :=
  subf x0 (broadcastTo S512x400 (shapeCast S512x1 (rmax x0) shapeCasts_S512_S512x1) broadcasts_S512x1_S512x400)

/-- Each row's log of the sum of the exponentials of the shifted logits, as a column. -/
def lsec (x0 : FVec Ideal S512x400 .f32) : FVec Ideal S512x1 .f32 :=
  log (shapeCast S512x1 (multiReduction .add [1] S512 (exp (shf x0)) 0x00000000#32 reduces_S512x400_S512 (.inl rfl) rfl)
    shapeCasts_S512_S512x1)

/-- The log-softmax. -/
def lsm (x0 : FVec Ideal S512x400 .f32) : FVec Ideal S512x400 .f32 :=
  subf (shf x0) (broadcastTo S512x400 (lsec x0) broadcasts_S512x1_S512x400)

/-- The log-softmax kept where the lane's number is the row's label word, zero elsewhere. -/
def picked (x0 : FVec Ideal S512x400 .f32) (x1 : IVec S512x1 32) : FVec Ideal S512x400 .f32 :=
  select (cmpi .eq (iota .tc S512x400 32 [1] iota_S512x400_d1_w32)
      (broadcastTo S512x400 (shapeCast S512x1 x1 shapeCasts_S512x1_S512x1) broadcasts_S512x1_S512x400))
    (lsm x0) (broadcast S512x400 (Scalar.ofBits (F := Ideal) .f32 0x00000000#32))

/-- Zero minus each row's sum of the picked values, as a column. -/
def rowTerm (x0 : FVec Ideal S512x400 .f32) (x1 : IVec S512x1 32) : FVec Ideal S512x1 .f32 :=
  subf (broadcast S512x1 (Scalar.ofBits (F := Ideal) .f32 0x00000000#32))
    (shapeCast S512x1 (multiReduction .add [1] S512 (picked x0 x1) 0x00000000#32 reduces_S512x400_S512 (.inl rfl) rfl)
      shapeCasts_S512_S512x1)

/-- The stored value is the running value plus the sum of the rows' terms. -/
theorem pay2_stages (x0 : FVec Ideal S512x400 .f32) (x1 : IVec S512x1 32) (acc : FVec Ideal S1x1 .f32) :
    k0_pay2 (F := Ideal) x0 x1 acc
      = addf (shapeCast S1x1 acc shapeCasts_S1x1_S1x1)
          (shapeCast S1x1 (multiReduction .add [0] S1 (rowTerm x0 x1) 0x00000000#32 reduces_S512x1_S1 (.inl rfl) rfl)
            shapeCasts_S1_S1x1) := rfl

/-! ## Each stage at an index -/

/-- The block's logits as a function of row and lane. -/
abbrev lg (x0 : FVec Ideal S512x400 .f32) : Fin 512 → Fin 400 → EReal := fun r c => x0 (ix2 r c)

theorem rmax_apply (x0 : FVec Ideal S512x400 .f32) (r : Fin 512) : rmax x0 (ix1 r) = Cert.Spec.rowMax (lg x0) r :=
  rowMax_apply x0 _ _ _ r

theorem shf_apply (x0 : FVec Ideal S512x400 .f32) (r : Fin 512) (c : Fin 400) :
    shf x0 (ix2 r c) = Cert.Spec.shifted (lg x0) r c := by
  unfold shf Cert.Spec.shifted
  rw [subf_apply, broadcastTo_a1_ab_apply, shapeCast_a_a1_apply, rmax_apply]

theorem lsec_apply (x0 : FVec Ideal S512x400 .f32) (r : Fin 512) :
    lsec x0 (ix2 r (0 : Fin 1)) = Cert.Spec.lse (lg x0) r := by
  unfold lsec Cert.Spec.lse
  rw [log_apply, shapeCast_a_a1_apply, rowSum_apply]
  refine congrArg Ideal.log (Finset.sum_congr rfl fun c _ => ?_)
  rw [exp_apply, shf_apply]

theorem lsm_apply (x0 : FVec Ideal S512x400 .f32) (r : Fin 512) (c : Fin 400) :
    lsm x0 (ix2 r c) = Cert.Spec.logp (lg x0) r c := by
  unfold lsm Cert.Spec.logp
  rw [subf_apply, broadcastTo_a1_ab_apply, shf_apply, lsec_apply]

theorem picked_apply (x0 : FVec Ideal S512x400 .f32) (x1 : IVec S512x1 32) (r : Fin 512) (c : Fin 400) :
    picked x0 x1 (ix2 r c)
      = if BitVec.ofNat 32 c.val = x1 (ix2 r (0 : Fin 1)) then Cert.Spec.logp (lg x0) r c else 0 := by
  unfold picked
  rw [select_apply, cmpi_apply, iota_single_apply, broadcastTo_a1_ab_apply, shapeCast_self, broadcast_apply, zero_word,
    lsm_apply, select_cmpi_eq]

theorem rowTerm_apply (x0 : FVec Ideal S512x400 .f32) (x1 : IVec S512x1 32) (r : Fin 512) :
    rowTerm x0 x1 (ix2 r (0 : Fin 1))
      = 0 - ∑ c : Fin 400, if BitVec.ofNat 32 c.val = x1 (ix2 r (0 : Fin 1)) then Cert.Spec.logp (lg x0) r c else 0 := by
  unfold rowTerm
  rw [subf_apply, broadcast_apply, zero_word, shapeCast_a_a1_apply, rowSum_apply]
  exact congrArg (fun t : EReal => 0 - t) (Finset.sum_congr rfl fun c _ => picked_apply x0 x1 r c)

/-! ## The two stored values -/

theorem k0_pay1_eq : k0_pay1 (F := Ideal) = fun _ => (0 : EReal) :=
  funext fun _ => Ideal.ofBits_zero_f32

theorem k0_pay2_eq (x0 : FVec Ideal S512x400 .f32) (x1 : IVec S512x1 32) (acc : FVec Ideal S1x1 .f32) :
    k0_pay2 (F := Ideal) x0 x1 acc = fun _ => acc (ix2 0 0) + Cert.Spec.cePartial (fun (r : Fin 512) (c : Fin 400) => x0 (ix2 r c)) (fun r => x1 (ix2 r 0)) := by
  funext j
  have hj : j = ix2 (0 : Fin 1) (0 : Fin 1) := by
    funext d
    apply Fin.ext
    match d with
    | ⟨0, _⟩ => have := idx2_lt0 j; show (j 0).val = 0; omega
    | ⟨1, _⟩ => have := idx2_lt1 j; show (j 1).val = 0; omega
  subst hj
  rw [pay2_stages, addf_apply, shapeCast_self, shapeCast_a_1a_apply, colSum_apply]
  unfold Cert.Spec.cePartial
  exact congrArg (fun t : EReal => acc (ix2 0 0) + t) (Finset.sum_congr rfl fun r _ => rowTerm_apply x0 x1 r)

end Cert.KernelIdeal.Pay0

end
-- ==== Proof.KPay1A.lean ====
/-
  The second kernel's similarity matrix read entry by entry.

  For a block x of 1024 rows and 128 features, the kernel forms x · xᵀ, divides every entry by the temperature,
  exponentiates, and zeroes the diagonal with a 0/1 mask; the row sums of that matrix follow. Read at the
  extended reals, entry (i, j) is  exp ((Σ_k x i k · x j k) / T) · [i ≠ j]  and row i sums these over j.
-/
import proofs.«404227_j85306640433706_2_alg».proof.Proof.Gen.KernelIdeal.Skeleton
import proofs.«404227_j85306640433706_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay1A

open Cert.KernelIdeal Cert.KernelIdeal.Gen Idealize.ShloMosaic Idealize.ShloMosaic.ValueIdx

/-! ## The block as a matrix -/

/-- The block with its leading unit axis dropped: entry (i, k) is entry (0, i, k). -/
theorem k1_pay3_apply (v3 : FVec Ideal S1x1024x128 .f32) (i : Fin 1024) (k : Fin 128) :
    k1_pay3 (F := Ideal) v3 (ix2 i k) = v3 (ix3 (0 : Fin 1) i k) := by
  unfold k1_pay3
  exact shapeCast_1ab_ab_apply v3 _ i k

/-! ## The product x · xᵀ

The contraction runs over the left factor's columns and the right factor's rows; the four coordinate facts, then the
sum re-indexed by the feature. -/

/-- The left factor's row is the entry's row. -/
theorem lhs_axis0 (y : S1024x1024.Idx) (q : dot_S1024x128_S128x1024_S1024x1024_1_0_0_1_n_n.contr.Idx) :
    (dot_S1024x128_S128x1024_S1024x1024_1_0_0_1_n_n.lhsIdx y q 0).val = (y 0).val := by
  simp [DotDims.lhsIdx, dot_S1024x128_S128x1024_S1024x1024_1_0_0_1_n_n]; rfl

/-- The left factor's column is the summation position. -/
theorem lhs_axis1 (y : S1024x1024.Idx) (q : dot_S1024x128_S128x1024_S1024x1024_1_0_0_1_n_n.contr.Idx) :
    (dot_S1024x128_S128x1024_S1024x1024_1_0_0_1_n_n.lhsIdx y q 1).val = (q ⟨0, by decide⟩).val :=
  dot_S1024x128_S128x1024_S1024x1024_1_0_0_1_n_n.lhsIdx_val_of_single rfl y q

/-- The right factor's row is the summation position. -/
theorem rhs_axis0 (y : S1024x1024.Idx) (q : dot_S1024x128_S128x1024_S1024x1024_1_0_0_1_n_n.contr.Idx) :
    (dot_S1024x128_S128x1024_S1024x1024_1_0_0_1_n_n.rhsIdx y q 0).val = (q ⟨0, by decide⟩).val :=
  dot_S1024x128_S128x1024_S1024x1024_1_0_0_1_n_n.rhsIdx_val_of_single rfl y q

/-- The right factor's column is the entry's column. -/
theorem rhs_axis1 (y : S1024x1024.Idx) (q : dot_S1024x128_S128x1024_S1024x1024_1_0_0_1_n_n.contr.Idx) :
    (dot_S1024x128_S128x1024_S1024x1024_1_0_0_1_n_n.rhsIdx y q 1).val = (y 1).val := by
  simp [DotDims.rhsIdx, dot_S1024x128_S128x1024_S1024x1024_1_0_0_1_n_n]; rfl

/-- The product of a 1024 × 128 matrix with its own transpose, into zero: entry (i, j) is the sum over the 128
    features of the products of rows i and j. -/
theorem gram_apply (A : FVec Ideal S1024x128 .f32) (h : S1024x128.Transposes [1, 0] S128x1024) (i j : Fin 1024) :
    matmul dot_S1024x128_S128x1024_S1024x1024_1_0_0_1_n_n (some .fp32) A (transpose S128x1024 [1, 0] A h)
        (constant (F := Ideal) S1024x1024 .f32 0x00000000#32) (ix2 i j)
      = ∑ k : Fin 128, A (ix2 i k) * A (ix2 j k) := by
  show FloatOps.matmul dot_S1024x128_S128x1024_S1024x1024_1_0_0_1_n_n (some .fp32) A (transpose S128x1024 [1, 0] A h)
        (constant (F := Ideal) S1024x1024 .f32 0x00000000#32) (ix2 i j) = _
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have hl : dot_S1024x128_S128x1024_S1024x1024_1_0_0_1_n_n.lhsIdx (ix2 i j)
      ((contrEquiv1 dot_S1024x128_S128x1024_S1024x1024_1_0_0_1_n_n 128 rfl rfl).symm k) = ix2 i k := by
    funext ax; apply Fin.ext
    match ax with
    | ⟨0, _⟩ => exact lhs_axis0 _ _
    | ⟨1, _⟩ => exact (lhs_axis1 _ _).trans hk
  have hr : dot_S1024x128_S128x1024_S1024x1024_1_0_0_1_n_n.rhsIdx (ix2 i j)
      ((contrEquiv1 dot_S1024x128_S128x1024_S1024x1024_1_0_0_1_n_n 128 rfl rfl).symm k) = ix2 k j := by
    funext ax; apply Fin.ext
    match ax with
    | ⟨0, _⟩ => exact (rhs_axis0 _ _).trans hk
    | ⟨1, _⟩ => exact rhs_axis1 _ _
  rw [hl, hr, transpose_ix2_apply]

/-! ## The mask -/

/-- The 0/1 mask: zero on the diagonal, one off it. -/
theorem mask_apply (h0 : S1024x1024.Iotas .tc 32 [0]) (h1 : S1024x1024.Iotas .tc 32 [1]) (i j : Fin 1024) :
    select (cmpi .eq (iota .tc S1024x1024 32 [0] h0) (iota .tc S1024x1024 32 [1] h1))
      (broadcast S1024x1024 (Scalar.ofBits .f32 0x00000000#32 : Ideal .f32))
      (broadcast S1024x1024 (Scalar.ofBits .f32 0x3F800000#32 : Ideal .f32)) (ix2 i j) = Cert.Spec.offDiag i j := by
  show Scalar.select (IntOp.cmpi .eq (iota .tc S1024x1024 32 [0] h0 (ix2 i j)) (iota .tc S1024x1024 32 [1] h1 (ix2 i j)))
      (Ideal.ofBits .f32 0x00000000#32) (Ideal.ofBits .f32 0x3F800000#32) = _
  rw [iota_single_apply, iota_single_apply, Ideal.ofBits_zero_f32, Cert.Spec.ofBits_one]
  show Scalar.select (IntOp.cmpi .eq (BitVec.ofNat 32 i.val) (BitVec.ofNat 32 j.val)) (0 : EReal) 1 = _
  unfold Cert.Spec.offDiag Scalar.select IntOp.cmpi
  by_cases hij : i = j
  · subst hij; simp
  · have hne : ¬ (BitVec.ofNat 32 i.val = BitVec.ofNat 32 j.val) := by
      intro h; apply hij; apply Fin.ext
      have h2 := congrArg BitVec.toNat h
      simp only [BitVec.toNat_ofNat] at h2
      have := i.isLt; have := j.isLt
      omega
    have hb : (BitVec.ofNat 32 i.val == BitVec.ofNat 32 j.val) = false := beq_eq_false_iff_ne.mpr hne
    simp [hb, hij]

/-! ## The matrix entry -/

/-- Entry (i, j) of the masked, exponentiated similarity matrix. -/
theorem k1_pay4_apply (v3 : FVec Ideal S1x1024x128 .f32) (i j : Fin 1024) :
    k1_pay4 (F := Ideal) v3 (ix2 i j) = Cert.Spec.allProb (fun i k => v3 (ix3 (0 : Fin 1) i k)) i j := by
  have hs := gram_apply (k1_pay3 (F := Ideal) v3) transposes_S1024x128_p1_0_S128x1024 i j
  have hm := mask_apply iota_S1024x1024_d0_w32 iota_S1024x1024_d1_w32 i j
  unfold k1_pay4
  dsimp only
  refine (congrArg₂ (fun a b => Ideal.exp (Ideal.div a Cert.Spec.tenth) * b) hs hm).trans ?_
  unfold Cert.Spec.allProb Cert.Spec.sim
  simp only [k1_pay3_apply]

/-! ## The row sums -/

/-- A row of a 1024 × 1024 matrix summed over its columns, from zero. -/
theorem rowsum_apply (M : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 M 0x00000000#32 h hφ hacc (ix1 i) = ∑ j : Fin 1024, M (ix2 i j) := by
  refine (Ideal.multiReduction_add_single M 0x00000000#32 h hφ hacc (ix1 i)).trans ?_
  refine Finset.sum_congr rfl fun j _ => congrArg M ?_
  funext ax; apply Fin.ext
  match ax with
  | ⟨0, _⟩ => rfl
  | ⟨1, _⟩ => rfl

/-- A vector of 1024 entries viewed as a column: entry (i, 0) is entry i. -/
theorem column_apply {α : Type} (x : S1024.Idx → α) (h : S1024.ShapeCasts S1024x1) (i : Fin 1024) :
    shapeCast S1024x1 x h (ix2 i (0 : Fin 1)) = x (ix1 i) :=
  shapeCast_apply x h _ _ (by
    rw [Shape.rowMajor_val_one, Shape.rowMajor_val_two]
    show i.val = i.val * 1 + 0
    omega)

/-- Row i of that matrix summed over its columns. -/
theorem k1_pay5_apply (v3 : FVec Ideal S1x1024x128 .f32) (i : Fin 1024) :
    k1_pay5 (F := Ideal) v3 (ix2 i (0 : Fin 1)) = Cert.Spec.allDiv (fun i k => v3 (ix3 (0 : Fin 1) i k)) i := by
  unfold k1_pay5
  dsimp only
  refine (column_apply _ shapeCasts_S1024_S1024x1 i).trans ?_
  refine (rowsum_apply (k1_pay4 (F := Ideal) v3) reduces_S1024x1024_S1024 (.inl rfl) rfl i).trans ?_
  unfold Cert.Spec.allDiv
  exact Finset.sum_congr rfl fun j _ => k1_pay4_apply v3 i j

end Cert.KernelIdeal.Pay1A

end
-- ==== Proof.KPay1B.lean ====
/-
  The arithmetic of one pair block after the similarities: from the masked exponentials and their row sums
  to the block's contrastive term, and the step that adds it to the running total.
-/
import proofs.«404227_j85306640433706_2_alg».proof.Proof.Gen.KernelIdeal.Skeleton
import proofs.«404227_j85306640433706_2_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.KernelIdeal.Pay1B

open Cert.KernelIdeal Cert.KernelIdeal.Gen Idealize.ShloMosaic Idealize.ShloMosaic.ValueIdx

/-- The block as a function of its row and its feature. -/
abbrev blk (v3 : FVec Ideal S1x1024x128 .f32) : Fin 1024 → Fin 128 → EReal :=
  fun (i : Fin 1024) (k : Fin 128) => v3 (ix3 (0 : Fin 1) i k)

/-! ## Layout operations of a column, read at an index -/

section Layout

/-- The sum along the lanes of an [a, b] array, kept as a column [a, 1], at row i: the sum of row i. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (i : Fin a) :
    shapeCast ⟨2, ![a, 1]⟩ (multiReduction .add [1] ⟨1, ![a]⟩ src 0x00000000#32 h hφ hacc) hc (ix2 i (0 : Fin 1))
      = ∑ k : Fin b, src (ix2 i k) := by
  refine (shapeCast_apply _ hc (ix2 i (0 : Fin 1)) (ix1 i) ?_).trans ?_
  · rw [Shape.rowMajor_val_one, Shape.rowMajor_val_two]
    show i.val = i.val * 1 + 0
    omega
  refine (Ideal.multiReduction_add_single src _ h hφ hacc (ix1 i)).trans ?_
  show ∑ k : Fin b, src (h.lift (ix1 i) k) = _
  refine Finset.sum_congr rfl fun k _ => congrArg src ?_
  funext c
  apply Fin.ext
  match c with
  | ⟨0, _⟩ => rfl
  | ⟨1, _⟩ => rfl

/-- The sum down the rows of a column [a, 1], kept as [1, 1]: the sum of the column. -/
theorem colSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) :
    shapeCast ⟨2, ![1, 1]⟩ (multiReduction .add [0] ⟨1, ![1]⟩ src 0x00000000#32 h hφ hacc) hc (ix2 (0 : Fin 1) (0 : Fin 1))
      = ∑ i : Fin a, src (ix2 i (0 : Fin 1)) := by
  refine (shapeCast_apply _ hc (ix2 (0 : Fin 1) (0 : Fin 1)) (ix1 (0 : Fin 1)) ?_).trans ?_
  · rw [Shape.rowMajor_val_one, Shape.rowMajor_val_two]
    rfl
  refine (Ideal.multiReduction_add_single src _ h hφ hacc (ix1 (0 : Fin 1))).trans ?_
  show ∑ i : Fin a, src (h.lift (ix1 (0 : Fin 1)) i) = _
  refine Finset.sum_congr rfl fun i _ => congrArg src ?_
  funext c
  apply Fin.ext
  match c with
  | ⟨0, _⟩ => rfl
  | ⟨1, _⟩ => rfl

/-- A column [a, 1] broadcast along the lanes to [a, b], at (i, j): the column at row i. -/
theorem colBroadcast_apply {α : Type} {a b : ℕ} (v : (⟨2, ![a, 1]⟩ : Shape).Idx → α)
    (h : (⟨2, ![a, 1]⟩ : Shape).Broadcasts ⟨2, ![a, b]⟩) (ha : a ≠ 1) (i : Fin a) (j : Fin b) :
    broadcastTo ⟨2, ![a, b]⟩ v h (ix2 i j) = v (ix2 i (0 : Fin 1)) := by
  refine broadcastTo_apply v h (ix2 i j) (ix2 i (0 : Fin 1)) fun c => ?_
  match c with
  | ⟨0, _⟩ => exact (if_neg ha).symm
  | ⟨1, _⟩ => exact (if_pos rfl).symm

end Layout

/-! ## The block's arithmetic -/

/-- Rotating the rows of a [1024, 128] array by half its rows: row i of the result is row i + 512 (mod 1024). -/
theorem rotate_apply {α : Type} (y : S1024x128.Idx → α) (h : S1024x128.Rotates 0 none) (i : Fin 1024) (k : Fin 128) :
    dynamicRotate (0 : Fin S1024x128.rank) 512#32 none y h (ix2 i k) = y (ix2 (Cert.Spec.rot i) k) := by
  refine dynamicRotate_apply (0 : Fin S1024x128.rank) 512#32 y h (ix2 i k) (ix2 (Cert.Spec.rot i) k) fun c => ?_
  match c with
  | ⟨0, _⟩ =>
    refine Eq.trans ?_ (if_pos rfl).symm
    show (i.val + 512) % 1024 = (i.val + 1024 - 512 % 1024) % 1024
    omega
  | ⟨1, _⟩ => exact (if_neg (fun e => Nat.one_ne_zero (congrArg Fin.val e))).symm

/-- The lane sum of a [1024, 128] array times its half rotation, kept as a column, at row i. -/
theorem simRot_apply (y : FVec Ideal S1024x128 .f32) (hr : S1024x128.Rotates 0 none)
    (h : S1024x128.Reduces [1] S1024) (hφ : FKind.Formats .f32)
    (hacc : (0x00000000#32 : BitVec 32) = FKind.add.neutral .f32 hφ) (hc : S1024.ShapeCasts S1024x1) (i : Fin 1024) :
    shapeCast S1024x1 (multiReduction .add [1] S1024 (mulf y (dynamicRotate (0 : Fin S1024x128.rank) 512#32 none y hr))
        0x00000000#32 h hφ hacc) hc (ix2 i (0 : Fin 1))
      = ∑ k : Fin 128, y (ix2 i k) * y (ix2 (Cert.Spec.rot i) k) := by
  refine (rowSum_apply _ h hφ hacc hc i).trans ?_
  refine Finset.sum_congr rfl fun k _ => ?_
  exact congrArg (fun t => y (ix2 i k) * t) (rotate_apply y hr i k)

section Block

variable (v3 : FVec Ideal S1x1024x128 .f32)
  (h3 : ∀ (i : Fin 1024) (k : Fin 128), k1_pay3 (F := Ideal) v3 (ix2 i k) = v3 (ix3 (0 : Fin 1) i k))
  (h4 : ∀ i j : Fin 1024, k1_pay4 (F := Ideal) v3 (ix2 i j) = Cert.Spec.allProb (blk v3) i j)
  (h5 : ∀ i : Fin 1024, k1_pay5 (F := Ideal) v3 (ix2 i (0 : Fin 1)) = Cert.Spec.allDiv (blk v3) i)

include h3 h5 in
/-- The ratio of the partner's exponential to the row's sum. -/
theorem k1_pay6_apply (i : Fin 1024) :
    k1_pay6 (F := Ideal) v3 (ix2 i (0 : Fin 1)) = Cert.Spec.pmt (blk v3) i := by
  unfold k1_pay6
  refine (congrArg₂ Ideal.div
    (congrArg Ideal.exp (congrArg (fun t => Ideal.div t (Ideal.ofBits .f32 0x3DCCCCCD#32))
      (simRot_apply (k1_pay3 (F := Ideal) v3) _ _ _ _ _ i))) (h5 i)).trans ?_
  unfold Cert.Spec.pmt Cert.Spec.pos Cert.Spec.sim Cert.Spec.tenth
  simp only [h3]

end Block

/-- The lane sum of the logarithms of one minus the ratios, minus the logarithm of one minus a column, at row i. -/
theorem lnRow_apply (P : FVec Ideal S1024x1024 .f32) (D Q : FVec Ideal S1024x1 .f32)
    (hb : S1024x1.Broadcasts S1024x1024) (h : S1024x1024.Reduces [1] S1024) (hφ : FKind.Formats .f32)
    (hacc : (0x00000000#32 : BitVec 32) = FKind.add.neutral .f32 hφ) (hc : S1024.ShapeCasts S1024x1) (i : Fin 1024) :
    subf (shapeCast S1024x1 (multiReduction .add [1] S1024
        (log (subf (broadcast S1024x1024 (Scalar.ofBits (F := Ideal) .f32 0x3F800000#32))
          (divf P (broadcastTo S1024x1024 D hb)))) 0x00000000#32 h hφ hacc) hc)
      (log (subf (broadcast S1024x1 (Scalar.ofBits (F := Ideal) .f32 0x3F800000#32)) Q)) (ix2 i (0 : Fin 1))
      = (∑ j : Fin 1024, Ideal.log (1 - Ideal.div (P (ix2 i j)) (D (ix2 i (0 : Fin 1)))))
          - Ideal.log (1 - Q (ix2 i (0 : Fin 1))) := by
  refine congrArg₂ (fun a b : EReal => a - b) ?_ ?_
  · refine (rowSum_apply _ h hφ hacc hc i).trans (Finset.sum_congr rfl fun j _ => ?_)
    show Ideal.log (Ideal.ofBits .f32 0x3F800000#32
      - Ideal.div (P (ix2 i j)) (broadcastTo S1024x1024 D hb (ix2 i j))) = _
    rw [colBroadcast_apply D hb (by decide) i j, Cert.Spec.ofBits_one]
  · show Ideal.log (Ideal.ofBits .f32 0x3F800000#32 - Q (ix2 i (0 : Fin 1))) = _
    rw [Cert.Spec.ofBits_one]

section Block2

variable (v3 : FVec Ideal S1x1024x128 .f32)
  (h3 : ∀ (i : Fin 1024) (k : Fin 128), k1_pay3 (F := Ideal) v3 (ix2 i k) = v3 (ix3 (0 : Fin 1) i k))
  (h4 : ∀ i j : Fin 1024, k1_pay4 (F := Ideal) v3 (ix2 i j) = Cert.Spec.allProb (blk v3) i j)
  (h5 : ∀ i : Fin 1024, k1_pay5 (F := Ideal) v3 (ix2 i (0 : Fin 1)) = Cert.Spec.allDiv (blk v3) i)

include h3 h4 h5 in
/-- The row's sum of logarithms of the complements, less the partner's. -/
theorem k1_pay7_apply (i : Fin 1024) :
    k1_pay7 (F := Ideal) v3 (ix2 i (0 : Fin 1)) = Cert.Spec.lnPon (blk v3) i := by
  unfold k1_pay7
  refine (lnRow_apply (k1_pay4 (F := Ideal) v3) (k1_pay5 (F := Ideal) v3) (k1_pay6 (F := Ideal) v3) _ _ _ _ _ i).trans ?_
  unfold Cert.Spec.lnPon
  rw [h5 i, k1_pay6_apply v3 h3 h5 i]
  simp only [h4]

include h3 h5 in
/-- The sum over the rows of the logarithms of the ratios. -/
theorem k1_pay8_apply :
    k1_pay8 (F := Ideal) v3 (ix2 (0 : Fin 1) (0 : Fin 1)) = ∑ i : Fin 1024, Ideal.log (Cert.Spec.pmt (blk v3) i) := by
  unfold k1_pay8
  refine (colSum_apply _ _ _ _ _).trans (Finset.sum_congr rfl fun i _ => ?_)
  exact congrArg Ideal.log (k1_pay6_apply v3 h3 h5 i)

end Block2

/-- The step of the running total at its one entry: the column's sum joined to the first sum, negated, divided by the
    row count, added to the total. -/
theorem k1_pay1_apply (C : FVec Ideal S1024x1 .f32) (T acc : FVec Ideal S1x1 .f32) :
    k1_pay1 (F := Ideal) C T acc (ix2 (0 : Fin 1) (0 : Fin 1))
      = acc (ix2 (0 : Fin 1) (0 : Fin 1))
          + Ideal.div (-(T (ix2 (0 : Fin 1) (0 : Fin 1)) + ∑ i : Fin 1024, C (ix2 i (0 : Fin 1)))) Cert.Spec.c1024 := by
  unfold k1_pay1
  refine (congrArg₂ (fun a b : EReal => a + b)
    (congrFun (shapeCast_self acc _) (ix2 (0 : Fin 1) (0 : Fin 1)))
    (congrArg (fun t => Ideal.div t (Ideal.ofBits .f32 0x44800000#32))
      (congrArg (fun t => Ideal.ofBits .f32 0x00000000#32 - (T (ix2 (0 : Fin 1) (0 : Fin 1)) + t))
        (colSum_apply C _ _ _ _)))).trans ?_
  rw [Ideal.ofBits_zero_f32, zero_sub]
  rfl

theorem k1_pay2_eq : k1_pay2 (F := Ideal) = fun _ => (0 : EReal) := by
  funext j
  exact Ideal.ofBits_zero_f32

theorem k1_step (v3 : FVec Ideal S1x1024x128 .f32)
    (h3 : ∀ (i : Fin 1024) (k : Fin 128), k1_pay3 (F := Ideal) v3 (ix2 i k) = v3 (ix3 (0 : Fin 1) i k))
    (h4 : ∀ i j : Fin 1024, k1_pay4 (F := Ideal) v3 (ix2 i j) = Cert.Spec.allProb (blk v3) i j)
    (h5 : ∀ i : Fin 1024, k1_pay5 (F := Ideal) v3 (ix2 i (0 : Fin 1)) = Cert.Spec.allDiv (blk v3) i)
    (acc : FVec Ideal S1x1 .f32) :
    k1_pay1 (F := Ideal) (k1_pay7 v3) (k1_pay8 v3) acc
      = fun _ => acc (ix2 0 0) + Cert.Spec.nceVal (blk v3) := by
  funext j
  obtain ⟨p, q, rfl⟩ : ∃ (p q : Fin 1), j = ix2 p q := ⟨j 0, j 1, eq_ix2 j⟩
  obtain rfl : p = 0 := Subsingleton.elim _ _
  obtain rfl : q = 0 := Subsingleton.elim _ _
  refine (k1_pay1_apply _ _ acc).trans ?_
  rw [k1_pay8_apply v3 h3 h5]
  unfold Cert.Spec.nceVal
  simp only [k1_pay7_apply v3 h3 h4 h5]

end Cert.KernelIdeal.Pay1B

end
-- ==== Proof.KValue.lean ====
/-
  The kernel program's result as a value. After the last point of each grid the one-entry output holds the running
  total: zero, updated block by block; each update adds the block's term (the cross entropy's partial sum over the
  block's 512 rows; the contrastive term of the pair block), so the totals are the sums over the eight row blocks and
  over the thirty-six pair blocks. A block's entries are the array's entries at block index × block rows + row. The
  host then multiplies the contrastive total by the weight and adds the cross-entropy total divided by 4096.
-/
import proofs.«404227_j85306640433706_2_alg».proof.Proof.KAcc
import proofs.«404227_j85306640433706_2_alg».proof.Proof.KBlocks
import proofs.«404227_j85306640433706_2_alg».proof.Proof.KHost
import proofs.«404227_j85306640433706_2_alg».proof.Proof.KPay0
import proofs.«404227_j85306640433706_2_alg».proof.Proof.KPay1A
import proofs.«404227_j85306640433706_2_alg».proof.Proof.KPay1B
import proofs.«404227_j85306640433706_2_alg».proof.Proof.Spec

noncomputable section

open scoped BigOperators

namespace Cert.KernelIdeal.ValueV

open Cert.KernelIdeal Cert.KernelIdeal.Gen Idealize.ShloMosaic Idealize.ShloMosaic.TcCoe Idealize.SL.Sem
open Idealize.ShloMosaic.ValueIdx Cert.KernelIdeal.Acc Cert.KernelIdeal.Blocks Cert.KernelIdeal.HostV

variable (V : (c : Dev nD) → (b : Ref sig .tc) → Buf (Elt Ideal) ((c : Thread nD τ).loc b))

/-! ## The cross entropy's total -/

/-- The term block i adds (zero past the grid). -/
def ceTermAt (c : Dev nD) (i : ℕ) : EReal :=
  if h : i < cfg0.N then
    Cert.Spec.cePartial (fun (r : Fin 512) (col : Fin 400) => (iblk0 V c 0 ⟨i, h⟩ : FVec Ideal S512x400 .f32) (ix2 r col))
      (fun r => (iblk0 V c 1 ⟨i, h⟩ : IVec S512x1 32) (ix2 r (0 : Fin 1)))
  else 0

/-- After point n the buffer holds the sum of the terms of blocks 0 … n. -/
theorem acc0_sum (c : Dev nD) : ∀ (n : ℕ) (h : n < cfg0.N),
    acc0 (F := Ideal) V c n h = fun _ => ∑ i ∈ Finset.range (n + 1), ceTermAt V c i
  | 0, h => by
    show k0_pay2 (F := Ideal) _ _ _ = _
    rw [Cert.KernelIdeal.Pay0.k0_pay2_eq, Cert.KernelIdeal.Pay0.k0_pay1_eq]
    funext _
    rw [Finset.sum_range_one, zero_add, ceTermAt, dif_pos h]
  | n + 1, h => by
    show k0_pay2 (F := Ideal) _ _ _ = _
    rw [Cert.KernelIdeal.Pay0.k0_pay2_eq, acc0_sum c n (Nat.lt_of_succ_lt h)]
    funext _
    rw [Finset.sum_range_succ _ (n + 1), ceTermAt, dif_pos h]

/-! ## The contrastive total -/

/-- The term pair block p adds (zero past the grid). -/
def nceTermAt (c : Dev nD) (p : ℕ) : EReal :=
  if h : p < cfg1.N then
    Cert.Spec.nceVal (fun (i : Fin 1024) (k : Fin 128) => (iblk1 V c 0 ⟨p, h⟩ : FVec Ideal S1x1024x128 .f32) (ix3 (0 : Fin 1) i k))
  else 0

theorem step1 (x : FVec Ideal S1x1024x128 .f32) (acc : FVec Ideal S1x1 .f32) :
    k1_pay1 (F := Ideal) (k1_pay7 x) (k1_pay8 x) acc
      = fun _ => acc (ix2 0 0) + Cert.Spec.nceVal (fun (i : Fin 1024) (k : Fin 128) => x (ix3 (0 : Fin 1) i k)) :=
  Cert.KernelIdeal.Pay1B.k1_step x (Cert.KernelIdeal.Pay1A.k1_pay3_apply x) (Cert.KernelIdeal.Pay1A.k1_pay4_apply x)
    (Cert.KernelIdeal.Pay1A.k1_pay5_apply x) acc

/-- After point n the buffer holds the sum of the terms of pair blocks 0 … n. -/
theorem acc1_sum (c : Dev nD) : ∀ (n : ℕ) (h : n < cfg1.N),
    acc1 (F := Ideal) V c n h = fun _ => ∑ p ∈ Finset.range (n + 1), nceTermAt V c p
  | 0, h => by
    show k1_pay1 (F := Ideal) _ _ _ = _
    rw [step1, Cert.KernelIdeal.Pay1B.k1_pay2_eq]
    funext _
    rw [Finset.sum_range_one, zero_add, nceTermAt, dif_pos h]
  | n + 1, h => by
    show k1_pay1 (F := Ideal) _ _ _ = _
    rw [step1, acc1_sum c n (Nat.lt_of_succ_lt h)]
    funext _
    rw [Finset.sum_range_succ _ (n + 1), nceTermAt, dif_pos h]

/-! ## The program's result -/

variable (m : (ℓ : Loc nD τ sig) → Buf (Elt Ideal) ℓ) (ρ : Dev nD → PrngReg)

/-- The logits, the label words and the pair tensor as plain functions of their coordinates. -/
def logits (c : Dev nD) : Fin 4096 → Fin 400 → EReal :=
  fun q col => (m ((c : Thread nD τ).loc main_arg0) : FVec Ideal S4096x400 .f32) (ix2 q col)
def labels (c : Dev nD) : Fin 4096 → BitVec 32 :=
  fun q => (m ((c : Thread nD τ).loc main_arg1) : IVec S4096 32) (ix1 q)
def pairT (c : Dev nD) : Fin 36 → Fin 1024 → Fin 128 → EReal :=
  fun p i k => (Cert.KernelIdeal.Pairs.pairs (m ((c : Thread nD τ).loc main_arg2)) : FVec Ideal S36x1024x128 .f32) (ix3 p i k)

/-- Block i's term of the cross entropy, over the logits' rows 512 i … 512 i + 511 and their labels. -/
theorem ceTermAt_eq (c : Dev nD) (i : Fin 8) :
    ceTermAt (V1 m ρ) c i.val
      = Cert.Spec.cePartial (fun (r : Fin 512) (col : Fin 400) => logits m c ⟨512 * i.val + r.val, by omega⟩ col)
          (fun r => labels m c ⟨512 * i.val + r.val, by omega⟩) := by
  have hN : cfg0.N = 8 := N_0
  have hi : i.val < cfg0.N := by rw [hN]; exact i.isLt
  rw [ceTermAt, dif_pos hi]
  refine congrArg₂ Cert.Spec.cePartial (funext fun r => funext fun col => ?_) (funext fun r => ?_)
  · rw [iblk0_0_apply (V1 m ρ) c ⟨i.val, hi⟩ r col (by have := i.isLt; have := r.isLt; omega), V1_arg0]
    rfl
  · rw [iblk0_1_apply (V1 m ρ) c ⟨i.val, hi⟩ r (by have := i.isLt; have := r.isLt; omega)]
    exact V1_v0_apply m ρ c _

/-- Pair block p's contrastive term, over the pair tensor's p-th slab. -/
theorem nceTermAt_eq (c : Dev nD) (p : Fin 36) :
    nceTermAt (V3 m ρ) c p.val = Cert.Spec.nceVal (pairT m c p) := by
  have hN : cfg1.N = 36 := N_1
  have hp : p.val < cfg1.N := by rw [hN]; exact p.isLt
  rw [nceTermAt, dif_pos hp]
  refine congrArg Cert.Spec.nceVal (funext fun i => funext fun k => ?_)
  rw [iblk1_0_apply (V3 m ρ) c ⟨p.val, hp⟩ i k p.isLt, V3_v17]
  rfl

/-- The result buffer after the run: the weight times the sum of the thirty-six contrastive terms, plus the sum of the
    eight blocks' cross-entropy terms divided by 4096. -/
theorem result_value (c : Dev nD) :
    W5 m ρ c (Proc.devRef .tc main_v21)
      = fun _ => Cert.Spec.loss
          (Ideal.div (∑ i : Fin 8, Cert.Spec.cePartial (fun (r : Fin 512) (col : Fin 400) => logits m c ⟨512 * i.val + r.val, by omega⟩ col)
            (fun r => labels m c ⟨512 * i.val + r.val, by omega⟩)) Cert.Spec.c4096)
          (pairT m c) := by
  have h7 : 7 < cfg0.N := by rw [show cfg0.N = 8 from N_0]; decide
  have h35 : 35 < cfg1.N := by rw [show cfg1.N = 36 from N_1]; decide
  rw [W5_v21, final0 (V1 m ρ) c h7, final1 (V3 m ρ) c h35, outsAt0_eq, outsAt1_eq, acc0_sum, acc1_sum]
  funext j
  have e0 : (∑ i ∈ Finset.range (7 + 1), ceTermAt (V1 m ρ) c i)
      = ∑ i : Fin 8, Cert.Spec.cePartial (fun (r : Fin 512) (col : Fin 400) => logits m c ⟨512 * i.val + r.val, by omega⟩ col)
          (fun r => labels m c ⟨512 * i.val + r.val, by omega⟩) := by
    rw [Finset.sum_range]
    exact Finset.sum_congr rfl fun i _ => ceTermAt_eq m ρ c i
  have e1 : (∑ p ∈ Finset.range (35 + 1), nceTermAt (V3 m ρ) c p) = ∑ p : Fin 36, Cert.Spec.nceVal (pairT m c p) := by
    rw [Finset.sum_range]
    exact Finset.sum_congr rfl fun p _ => nceTermAt_eq m ρ c p
  show Ideal.ofBits .f32 0x3CF5C28F#32 * (∑ p ∈ Finset.range (35 + 1), nceTermAt (V3 m ρ) c p)
      + Ideal.div (∑ i ∈ Finset.range (7 + 1), ceTermAt (V1 m ρ) c i) (Ideal.ofBits .f32 0x45800000#32) = _
  rw [e0, e1]
  rfl

end Cert.KernelIdeal.ValueV

end
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«404227_j85306640433706_2_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.LibSsaTL.lean ====
/-
  One-step equations of a single-assignment line of host operations, over typed references that carry the buffer's
  own type.

  A typed reference to a literal buffer, typed at that buffer's own type, moves contents along an equation that is
  reflexivity: reading and storing through it are the identity. For such references the one-step equations hold
  between the buffers' final contents themselves, with no transport on either side; an operation printed at a literal
  type that the buffer's type computes to is such an operation.
-/
import proofs.«404227_j85306640433706_2_alg».proof.Proof.LibSsaT

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step over typed references at the buffers' own types, no operand. -/
theorem at_lnullary (h : WritesAre ops ys) (k : Nat) (W : Valuation τ sig Val) {y : Ref sig .tc} (hyd hys)
    (v : y.ty.Contents Val) (hop : ops[k]? = some (TRef.nullary (TRef.of (T := y.ty) y rfl hyd hys) v))
    (hy : y ∉ ys.drop (k + 1)) :
    after ops W (Proc.devRef .tc y) = v :=
  at_tnullary h k W (TRef.of (T := y.ty) y rfl hyd hys) v hop hy

/-- One step over typed references at the buffers' own types, one operand. -/
theorem at_lunary (h : WritesAre ops ys) (k : Nat) (W : Valuation τ sig Val) {x y : Ref sig .tc} (hxd hxs hyd hys)
    (f : x.ty.Contents Val → y.ty.Contents Val)
    (hop : ops[k]? = some (TRef.unary (TRef.of (T := x.ty) x rfl hxd hxs) (TRef.of (T := y.ty) y rfl hyd hys) f))
    (hy : y ∉ ys.drop (k + 1)) (hx : x ∉ ys.drop k) :
    after ops W (Proc.devRef .tc y) = f (after ops W (Proc.devRef .tc x)) :=
  at_tunary h k W (TRef.of (T := x.ty) x rfl hxd hxs) (TRef.of (T := y.ty) y rfl hyd hys) f hop hy hx

/-- One step over typed references at the buffers' own types, two operands. -/
theorem at_lbinary (h : WritesAre ops ys) (k : Nat) (W : Valuation τ sig Val) {a b y : Ref sig .tc}
    (had has hbd hbs hyd hys) (f : a.ty.Contents Val → b.ty.Contents Val → y.ty.Contents Val)
    (hop : ops[k]? = some (TRef.binary (TRef.of (T := a.ty) a rfl had has) (TRef.of (T := b.ty) b rfl hbd hbs)
      (TRef.of (T := y.ty) y rfl hyd hys) f))
    (hy : y ∉ ys.drop (k + 1)) (ha : a ∉ ys.drop k) (hb : b ∉ ys.drop k) :
    after ops W (Proc.devRef .tc y) = f (after ops W (Proc.devRef .tc a)) (after ops W (Proc.devRef .tc b)) :=
  at_tbinary h k W (TRef.of (T := a.ty) a rfl had has) (TRef.of (T := b.ty) b rfl hbd hbs)
    (TRef.of (T := y.ty) y rfl hyd hys) f hop hy ha hb

/-- One step over typed references at the buffers' own types, three operands. -/
theorem at_lternary (h : WritesAre ops ys) (k : Nat) (W : Valuation τ sig Val) {c a b y : Ref sig .tc}
    (hcd hcs had has hbd hbs hyd hys)
    (f : c.ty.Contents Val → a.ty.Contents Val → b.ty.Contents Val → y.ty.Contents Val)
    (hop : ops[k]? = some (TRef.ternary (TRef.of (T := c.ty) c rfl hcd hcs) (TRef.of (T := a.ty) a rfl had has)
      (TRef.of (T := b.ty) b rfl hbd hbs) (TRef.of (T := y.ty) y rfl hyd hys) f))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) :=
  at_tternary h k W (TRef.of (T := c.ty) c rfl hcd hcs) (TRef.of (T := a.ty) a rfl had has)
    (TRef.of (T := b.ty) b rfl hbd hbs) (TRef.of (T := y.ty) y rfl hyd hys) f hop hy hc ha hb

end Cert.LibSsa
-- ==== Proof.LibSsaIdx.lean ====
/-
  Side conditions of the one-step equations of a single-assignment line, by arithmetic on the references' indices.

  The one-step equations ask that a reference does not occur in a tail of the list of the written references. When the
  written references' indices, in the order of the line, are consecutive numbers a, a+1, a+2, …, the tail from
  position k on holds exactly the indices from a+k on, so a reference whose index is below a+k is not in that tail:
  each side condition becomes one comparison of two numbers. A line given as a concatenation of shorter lines writes
  the concatenation of what the shorter lines write.
-/
import proofs.«404227_j85306640433706_2_alg».proof.Proof.LibSsaTL

namespace Cert.LibSsa

open Idealize.ShloMosaic Idealize.ShloMosaic.StableHlo Cert.LibStretch

variable {τ : Topo} {sig : RefSig} {Val : EltTy → Type}

/-- In a list of references whose indices are the consecutive numbers from a on, a reference with an index below
    a + k does not occur from position k on. -/
theorem not_mem_drop_of_idx_lt {ys : List (Ref sig .tc)} {a : Nat}
    (h : ys.map (fun r => r.idx.val) = List.range' a ys.length) (k : Nat) (r : Ref sig .tc)
    (hr : r.idx.val < a + k) : r ∉ ys.drop k := by
  intro hm
  have hv : r.idx.val ∈ (ys.drop k).map (fun r => r.idx.val) := List.mem_map_of_mem hm
  rw [List.map_drop, h, List.drop_range', List.mem_range'_1] at hv
  omega

/-- A reference with an index below all the written ones is not written. -/
theorem not_mem_of_idx_lt {ys : List (Ref sig .tc)} {a : Nat}
    (h : ys.map (fun r => r.idx.val) = List.range' a ys.length) (r : Ref sig .tc)
    (hr : r.idx.val < a) : r ∉ ys :=
  not_mem_drop_of_idx_lt h 0 r (by omega)

/-- Two lines one after the other write what the first writes, then what the second writes. -/
theorem writesAre_append {l₁ l₂ : List (HloOp τ sig Val)} {ys₁ ys₂ : List (Ref sig .tc)}
    (h₁ : WritesAre l₁ ys₁) (h₂ : WritesAre l₂ ys₂) : WritesAre (l₁ ++ l₂) (ys₁ ++ ys₂) := by
  unfold WritesAre at h₁ h₂ ⊢
  induction h₁ with
  | nil => exact h₂
  | cons h _ ih => exact List.Forall₂.cons h ih

/-- The comparison of a literal reference's index with a literal number, by computation. -/
macro "idx_lt" : tactic => `(tactic| decide)

end Cert.LibSsa
-- ==== Proof.RefRun.lean ====
/-
  The reference program as one straight line of host operations, and its run.

  The program's entry function is two windows of statements with two calls of module-local functions (the
  log-softmax, and the read of one entry per row at the row's label). A call is the callee's body over the call's
  own buffers, so the whole function is one line of 124 host operations, each writing one buffer of its own; the
  buffers' indices are the consecutive numbers from 4 on, in the order of the line (the four arguments, 0 to 3, are
  never written). The line is given in three pieces: up to the entry read at the labels (42 operations), the pair
  tensor and the similarities up to the quotient of the positive term (53), and the rest (29).

  Every weakly fair execution ends with each buffer at the fold of the operations over the launch contents. Since
  the line is in single-assignment form, that fold is read one operation at a time: the list of written references
  and the fact that their indices are consecutive turn every side condition of a one-step equation into a
  comparison of two numbers.
-/
import proofs.«404227_j85306640433706_2_alg».proof.Proof.Gen.ReferenceIdeal
import Mathlib.Data.List.Basic
import Idealize.ShloMosaic.Lib.StableHlo.Run
import proofs.«404227_j85306640433706_2_alg».proof.Proof.LibSsaIdx

noncomputable section

namespace Cert.ReferenceIdeal.RunV

open Cert.ReferenceIdeal Cert.ReferenceIdeal.Gen Idealize.ShloMosaic Idealize.ShloMosaic.TcCoe Idealize.SL.Sem
open Idealize.ShloMosaic.StableHlo Cert.LibStretch Cert.LibSsa

variable {F : FTy → Type} [FloatOps F]

/-! ## The line -/

/-- The two index tables, the log-softmax of the logits, the labels as a column, and the entry of the log-softmax at
    each row's label: 42 operations. -/
def opsA : List (HloOp τ sig (Elt F)) :=
  [ nullary main_c (fun i => lit0 (S36.rowMajor i)),
    nullary main_c_0 (constantI S36 1 0#1),
    nullary main_c_1 (fun i => lit1 (S36.rowMajor i)),
    nullary main_c_2 (constantI S36 1 0#1),
    TRef.nullary main_call0.cst (constant S_ .f32 0xFF800000#32),
    TRef.binary (.of main_arg0 : TRef sig ⟨S4096x400, .f32⟩) main_call0.cst main_call0.v0 (fun x v => Host.reduce FloatOps.maximumf x v reducesTo_S4096x400_S4096_d1 h_S_),
    TRef.nullary main_call0.cst_0 (constant S_ .f32 0xFF800000#32),
    TRef.unary main_call0.cst_0 main_call0.v1 (broadcastInDim S4096 ![] bcast_S_S4096),
    TRef.binary main_call0.v1 main_call0.v0 main_call0.v2 maximumf,
    TRef.unary main_call0.v2 main_call0.v3 (broadcastInDim S4096x1 ![0] bcast_S4096_S4096x1_0),
    TRef.unary main_call0.v3 main_call0.v4 (broadcastInDim S4096x400 ![0, 1] bcast_S4096x1_S4096x400_0_1),
    TRef.binary (.of main_arg0 : TRef sig ⟨S4096x400, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4096x400_S4096_d1 h_S_),
    TRef.unary main_call0.v7 main_call0.v8 (broadcastInDim S4096x1 ![0] bcast_S4096_S4096x1_0),
    TRef.unary main_call0.v8 main_call0.v9 Host.log,
    TRef.unary main_call0.v9 main_call0.v10 (broadcastInDim S4096x400 ![0, 1] bcast_S4096x1_S4096x400_0_1),
    TRef.binary main_call0.v5 main_call0.v10 main_call0.v11 subf,
    unary main_arg1 main_v1 (broadcastInDim S4096x1 ![0] bcast_S4096_S4096x1_0 : (⟨S4096, .i32⟩ : BufTy).Contents (Elt F) → (⟨S4096x1, .i32⟩ : BufTy).Contents (Elt F)),
    TRef.nullary main_call1.c (constantI S_ 32 0#32),
    TRef.unary main_call1.c main_call1.v0 (broadcastInDim S4096x1 ![] bcast_S_S4096x1),
    TRef.binary (.of main_v1 : TRef sig ⟨S4096x1, .i32⟩) main_call1.v0 main_call1.v1 (cmpi .slt),
    TRef.nullary main_call1.c_0 (constantI S_ 32 400#32),
    TRef.unary main_call1.c_0 main_call1.v2 (broadcastInDim S4096x1 ![] bcast_S_S4096x1),
    TRef.binary (.of main_v1 : TRef sig ⟨S4096x1, .i32⟩) main_call1.v2 main_call1.v3 addi,
    TRef.ternary main_call1.v1 main_call1.v3 (.of main_v1 : TRef sig ⟨S4096x1, .i32⟩) main_call1.v4 select,
    TRef.reshape main_call1.v4 main_call1.v5 rfl shapeCasts_S4096x1_S4096x1x1,
    TRef.nullary main_call1.c_1 (constantI S1 32 399#32),
    TRef.nullary main_call1.c_2 (constantI S_ 32 0#32),
    TRef.unary main_call1.c_2 main_call1.v6 (broadcastInDim S4096x1x1 ![] bcast_S_S4096x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x1x1 ![0, 1, 2] bcast_S1x1x1_S4096x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1x1_S4096x1_d2 h_S_),
    TRef.binary (.of main_v0 : TRef sig ⟨S4096x400, .f32⟩) main_call1.v5 main_call1.v13 (fun x i => Host.gather gather_S4096x400_S4096x1x1_S4096x1_n_1_0_0_1_2_11 x i),
    TRef.nullary main_call1.cst (constant S_ .f32 0x7FC00000#32),
    TRef.unary main_call1.cst main_call1.v14 (broadcastInDim S4096x1 ![] bcast_S_S4096x1),
    TRef.ternary main_call1.v12 main_call1.v13 main_call1.v14 main_call1.v15 select ]

/-- The mean of those entries negated, the pair tensor, the similarity of each row with its partner and with every
    row, the masked exponentials, their row sums and the positive quotient: 53 operations. -/
def opsB : List (HloOp τ sig (Elt F)) :=
  [ nullary main_cst (constant S_ .f32 0x00000000#32),
    binary main_v2 main_cst main_v3 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_3 (constant S_ .f32 0x45800000#32),
    binary main_v3 main_cst_3 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    reshape main_arg2 main_v6 rfl shapeCasts_S4096x128_S512x8x128,
    nullary main_c_4 (constantI S_ 32 8#32),
    unary main_c_4 main_v7 (broadcastInDim S36 ![] bcast_S_S36 : (⟨S_, .i32⟩ : BufTy).Contents (Elt F) → (⟨S36, .i32⟩ : BufTy).Contents (Elt F)),
    binary main_c main_v7 main_v8 (addi : (⟨S36, .i32⟩ : BufTy).Contents (Elt F) → (⟨S36, .i32⟩ : BufTy).Contents (Elt F) → (⟨S36, .i32⟩ : BufTy).Contents (Elt F)),
    ternary main_c_0 main_v8 main_c main_v9 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v9 main_v10 (broadcastInDim S36x1 ![0] bcast_S36_S36x1_0 : (⟨S36, .i32⟩ : BufTy).Contents (Elt F) → (⟨S36x1, .i32⟩ : BufTy).Contents (Elt F)),
    binary main_v6 main_v10 main_v11 ((fun x i => Host.gather gather_S512x8x128_S36x1_S512x36x128_02_1_n_n_1_1_5121128 x i) : (⟨S512x8x128, .f32⟩ : BufTy).Contents (Elt F) → (⟨S36x1, .i32⟩ : BufTy).Contents (Elt F) → (⟨S512x36x128, .f32⟩ : BufTy).Contents (Elt F)),
    unary main_v11 main_v12 ((transpose S36x512x128 [1, 0, 2] · transposes_S512x36x128_S36x512x128_1_0_2) : (⟨S512x36x128, .f32⟩ : BufTy).Contents (Elt F) → (⟨S36x512x128, .f32⟩ : BufTy).Contents (Elt F)),
    nullary main_c_5 (constantI S_ 32 8#32),
    unary main_c_5 main_v13 (broadcastInDim S36 ![] bcast_S_S36 : (⟨S_, .i32⟩ : BufTy).Contents (Elt F) → (⟨S36, .i32⟩ : BufTy).Contents (Elt F)),
    binary main_c_1 main_v13 main_v14 (addi : (⟨S36, .i32⟩ : BufTy).Contents (Elt F) → (⟨S36, .i32⟩ : BufTy).Contents (Elt F) → (⟨S36, .i32⟩ : BufTy).Contents (Elt F)),
    ternary main_c_2 main_v14 main_c_1 main_v15 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v15 main_v16 (broadcastInDim S36x1 ![0] bcast_S36_S36x1_0 : (⟨S36, .i32⟩ : BufTy).Contents (Elt F) → (⟨S36x1, .i32⟩ : BufTy).Contents (Elt F)),
    binary main_v6 main_v16 main_v17 ((fun x i => Host.gather gather_S512x8x128_S36x1_S512x36x128_02_1_n_n_1_1_5121128 x i) : (⟨S512x8x128, .f32⟩ : BufTy).Contents (Elt F) → (⟨S36x1, .i32⟩ : BufTy).Contents (Elt F) → (⟨S512x36x128, .f32⟩ : BufTy).Contents (Elt F)),
    unary main_v17 main_v18 ((transpose S36x512x128 [1, 0, 2] · transposes_S512x36x128_S36x512x128_1_0_2) : (⟨S512x36x128, .f32⟩ : BufTy).Contents (Elt F) → (⟨S36x512x128, .f32⟩ : BufTy).Contents (Elt F)),
    binary main_v12 main_v18 main_v19 ((fun a b => concatenate S36x1024x128 1 [⟨S36x512x128, a⟩, ⟨S36x512x128, b⟩] concatenates_S36x512x128_S36x512x128_S36x1024x128_d1) : (⟨S36x512x128, .f32⟩ : BufTy).Contents (Elt F) → (⟨S36x512x128, .f32⟩ : BufTy).Contents (Elt F) → (⟨S36x1024x128, .f32⟩ : BufTy).Contents (Elt F)),
    unary main_v19 main_v20 ((extractStridedSlice S36x512x128 ![0, 512, 0] · slices_S36x1024x128_S36x512x128_0_512_0) : (⟨S36x1024x128, .f32⟩ : BufTy).Contents (Elt F) → (⟨S36x512x128, .f32⟩ : BufTy).Contents (Elt F)),
    unary main_v19 main_v21 ((extractStridedSlice S36x512x128 ![0, 0, 0] · slices_S36x1024x128_S36x512x128_0_0_0) : (⟨S36x1024x128, .f32⟩ : BufTy).Contents (Elt F) → (⟨S36x512x128, .f32⟩ : BufTy).Contents (Elt F)),
    binary main_v20 main_v21 main_v22 ((fun a b => concatenate S36x1024x128 1 [⟨S36x512x128, a⟩, ⟨S36x512x128, b⟩] concatenates_S36x512x128_S36x512x128_S36x1024x128_d1) : (⟨S36x512x128, .f32⟩ : BufTy).Contents (Elt F) → (⟨S36x512x128, .f32⟩ : BufTy).Contents (Elt F) → (⟨S36x1024x128, .f32⟩ : BufTy).Contents (Elt F)),
    binary main_v19 main_v22 main_v23 (mulf : (⟨S36x1024x128, .f32⟩ : BufTy).Contents (Elt F) → (⟨S36x1024x128, .f32⟩ : BufTy).Contents (Elt F) → (⟨S36x1024x128, .f32⟩ : BufTy).Contents (Elt F)),
    nullary main_cst_6 (constant S_ .f32 0x00000000#32),
    binary main_v23 main_cst_6 main_v24 ((fun x v => Host.reduceAdd x v reducesTo_S36x1024x128_S36x1024_d2 h_S_) : (⟨S36x1024x128, .f32⟩ : BufTy).Contents (Elt F) → (⟨S_, .f32⟩ : BufTy).Contents (Elt F) → (⟨S36x1024, .f32⟩ : BufTy).Contents (Elt F)),
    nullary main_cst_7 (constant S_ .f32 0x3DCCCCCD#32),
    unary main_cst_7 main_v25 (broadcastInDim S36x1024 ![] bcast_S_S36x1024 : (⟨S_, .f32⟩ : BufTy).Contents (Elt F) → (⟨S36x1024, .f32⟩ : BufTy).Contents (Elt F)),
    binary main_v24 main_v25 main_v26 (Host.divf : (⟨S36x1024, .f32⟩ : BufTy).Contents (Elt F) → (⟨S36x1024, .f32⟩ : BufTy).Contents (Elt F) → (⟨S36x1024, .f32⟩ : BufTy).Contents (Elt F)),
    unary main_v26 main_v27 (Host.exp : (⟨S36x1024, .f32⟩ : BufTy).Contents (Elt F) → (⟨S36x1024, .f32⟩ : BufTy).Contents (Elt F)),
    nullary main_v28 (iotaInDim S1024x1024 32 0),
    nullary main_v29 (iotaInDim S1024x1024 32 1),
    nullary main_c_8 (constantI S_ 32 0#32),
    unary main_c_8 main_v30 (broadcastInDim S1024x1024 ![] bcast_S_S1024x1024 : (⟨S_, .i32⟩ : BufTy).Contents (Elt F) → (⟨S1024x1024, .i32⟩ : BufTy).Contents (Elt F)),
    binary main_v28 main_v30 main_v31 (addi : (⟨S1024x1024, .i32⟩ : BufTy).Contents (Elt F) → (⟨S1024x1024, .i32⟩ : BufTy).Contents (Elt F) → (⟨S1024x1024, .i32⟩ : BufTy).Contents (Elt F)),
    binary main_v31 main_v29 main_v32 (cmpi .eq : (⟨S1024x1024, .i32⟩ : BufTy).Contents (Elt F) → (⟨S1024x1024, .i32⟩ : BufTy).Contents (Elt F) → (⟨S1024x1024, .i1⟩ : BufTy).Contents (Elt F)),
    unary main_v32 main_v33 (uitofp .f32 : (⟨S1024x1024, .i1⟩ : BufTy).Contents (Elt F) → (⟨S1024x1024, .f32⟩ : BufTy).Contents (Elt F)),
    nullary main_cst_9 (constant S_ .f32 0x3F800000#32),
    unary main_cst_9 main_v34 (broadcastInDim S1024x1024 ![] bcast_S_S1024x1024 : (⟨S_, .f32⟩ : BufTy).Contents (Elt F) → (⟨S1024x1024, .f32⟩ : BufTy).Contents (Elt F)),
    binary main_v34 main_v33 main_v35 (subf : (⟨S1024x1024, .f32⟩ : BufTy).Contents (Elt F) → (⟨S1024x1024, .f32⟩ : BufTy).Contents (Elt F) → (⟨S1024x1024, .f32⟩ : BufTy).Contents (Elt F)),
    unary main_v19 main_v36 ((transpose S36x128x1024 [0, 2, 1] · transposes_S36x1024x128_S36x128x1024_0_2_1) : (⟨S36x1024x128, .f32⟩ : BufTy).Contents (Elt F) → (⟨S36x128x1024, .f32⟩ : BufTy).Contents (Elt F)),
    binary main_v19 main_v36 main_v37 ((fun l r => Host.dotGeneral dot_S36x1024x128_S36x128x1024_S36x1024x1024_2_1_1_2_0_0 none l r) : (⟨S36x1024x128, .f32⟩ : BufTy).Contents (Elt F) → (⟨S36x128x1024, .f32⟩ : BufTy).Contents (Elt F) → (⟨S36x1024x1024, .f32⟩ : BufTy).Contents (Elt F)),
    nullary main_cst_10 (constant S_ .f32 0x3DCCCCCD#32),
    unary main_cst_10 main_v38 (broadcastInDim S36x1024x1024 ![] bcast_S_S36x1024x1024 : (⟨S_, .f32⟩ : BufTy).Contents (Elt F) → (⟨S36x1024x1024, .f32⟩ : BufTy).Contents (Elt F)),
    binary main_v37 main_v38 main_v39 (Host.divf : (⟨S36x1024x1024, .f32⟩ : BufTy).Contents (Elt F) → (⟨S36x1024x1024, .f32⟩ : BufTy).Contents (Elt F) → (⟨S36x1024x1024, .f32⟩ : BufTy).Contents (Elt F)),
    unary main_v39 main_v40 (Host.exp : (⟨S36x1024x1024, .f32⟩ : BufTy).Contents (Elt F) → (⟨S36x1024x1024, .f32⟩ : BufTy).Contents (Elt F)),
    unary main_v35 main_v41 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v41 main_v42 (broadcastInDim S36x1024x1024 ![0, 1, 2] bcast_S1x1024x1024_S36x1024x1024_0_1_2 : (⟨S1x1024x1024, .f32⟩ : BufTy).Contents (Elt F) → (⟨S36x1024x1024, .f32⟩ : BufTy).Contents (Elt F)),
    binary main_v40 main_v42 main_v43 (mulf : (⟨S36x1024x1024, .f32⟩ : BufTy).Contents (Elt F) → (⟨S36x1024x1024, .f32⟩ : BufTy).Contents (Elt F) → (⟨S36x1024x1024, .f32⟩ : BufTy).Contents (Elt F)),
    nullary main_cst_11 (constant S_ .f32 0x00000000#32),
    binary main_v43 main_cst_11 main_v44 ((fun x v => Host.reduceAdd x v reducesTo_S36x1024x1024_S36x1024_d2 h_S_) : (⟨S36x1024x1024, .f32⟩ : BufTy).Contents (Elt F) → (⟨S_, .f32⟩ : BufTy).Contents (Elt F) → (⟨S36x1024, .f32⟩ : BufTy).Contents (Elt F)),
    binary main_v27 main_v44 main_v45 (Host.divf : (⟨S36x1024, .f32⟩ : BufTy).Contents (Elt F) → (⟨S36x1024, .f32⟩ : BufTy).Contents (Elt F) → (⟨S36x1024, .f32⟩ : BufTy).Contents (Elt F)) ]

/-- The logarithms, their sums over rows and blocks, the weight and the final sum: 29 operations. -/
def opsC : List (HloOp τ sig (Elt F)) :=
  [ unary main_v44 main_v46 (broadcastInDim S36x1024x1 ![0, 1] bcast_S36x1024_S36x1024x1_0_1 : (⟨S36x1024, .f32⟩ : BufTy).Contents (Elt F) → (⟨S36x1024x1, .f32⟩ : BufTy).Contents (Elt F)),
    unary main_v46 main_v47 (broadcastInDim S36x1024x1024 ![0, 1, 2] bcast_S36x1024x1_S36x1024x1024_0_1_2 : (⟨S36x1024x1, .f32⟩ : BufTy).Contents (Elt F) → (⟨S36x1024x1024, .f32⟩ : BufTy).Contents (Elt F)),
    binary main_v43 main_v47 main_v48 (Host.divf : (⟨S36x1024x1024, .f32⟩ : BufTy).Contents (Elt F) → (⟨S36x1024x1024, .f32⟩ : BufTy).Contents (Elt F) → (⟨S36x1024x1024, .f32⟩ : BufTy).Contents (Elt F)),
    nullary main_cst_12 (constant S_ .f32 0x3F800000#32),
    unary main_cst_12 main_v49 (broadcastInDim S36x1024x1024 ![] bcast_S_S36x1024x1024 : (⟨S_, .f32⟩ : BufTy).Contents (Elt F) → (⟨S36x1024x1024, .f32⟩ : BufTy).Contents (Elt F)),
    binary main_v49 main_v48 main_v50 (subf : (⟨S36x1024x1024, .f32⟩ : BufTy).Contents (Elt F) → (⟨S36x1024x1024, .f32⟩ : BufTy).Contents (Elt F) → (⟨S36x1024x1024, .f32⟩ : BufTy).Contents (Elt F)),
    unary main_v50 main_v51 (Host.log : (⟨S36x1024x1024, .f32⟩ : BufTy).Contents (Elt F) → (⟨S36x1024x1024, .f32⟩ : BufTy).Contents (Elt F)),
    nullary main_cst_13 (constant S_ .f32 0x00000000#32),
    binary main_v51 main_cst_13 main_v52 ((fun x v => Host.reduceAdd x v reducesTo_S36x1024x1024_S36x1024_d2 h_S_) : (⟨S36x1024x1024, .f32⟩ : BufTy).Contents (Elt F) → (⟨S_, .f32⟩ : BufTy).Contents (Elt F) → (⟨S36x1024, .f32⟩ : BufTy).Contents (Elt F)),
    nullary main_cst_14 (constant S_ .f32 0x3F800000#32),
    unary main_cst_14 main_v53 (broadcastInDim S36x1024 ![] bcast_S_S36x1024 : (⟨S_, .f32⟩ : BufTy).Contents (Elt F) → (⟨S36x1024, .f32⟩ : BufTy).Contents (Elt F)),
    binary main_v53 main_v45 main_v54 (subf : (⟨S36x1024, .f32⟩ : BufTy).Contents (Elt F) → (⟨S36x1024, .f32⟩ : BufTy).Contents (Elt F) → (⟨S36x1024, .f32⟩ : BufTy).Contents (Elt F)),
    unary main_v54 main_v55 (Host.log : (⟨S36x1024, .f32⟩ : BufTy).Contents (Elt F) → (⟨S36x1024, .f32⟩ : BufTy).Contents (Elt F)),
    binary main_v52 main_v55 main_v56 (subf : (⟨S36x1024, .f32⟩ : BufTy).Contents (Elt F) → (⟨S36x1024, .f32⟩ : BufTy).Contents (Elt F) → (⟨S36x1024, .f32⟩ : BufTy).Contents (Elt F)),
    unary main_v45 main_v57 (Host.log : (⟨S36x1024, .f32⟩ : BufTy).Contents (Elt F) → (⟨S36x1024, .f32⟩ : BufTy).Contents (Elt F)),
    nullary main_cst_15 (constant S_ .f32 0x00000000#32),
    binary main_v57 main_cst_15 main_v58 ((fun x v => Host.reduceAdd x v reducesTo_S36x1024_S36_d1 h_S_) : (⟨S36x1024, .f32⟩ : BufTy).Contents (Elt F) → (⟨S_, .f32⟩ : BufTy).Contents (Elt F) → (⟨S36, .f32⟩ : BufTy).Contents (Elt F)),
    nullary main_cst_16 (constant S_ .f32 0x00000000#32),
    binary main_v56 main_cst_16 main_v59 ((fun x v => Host.reduceAdd x v reducesTo_S36x1024_S36_d1 h_S_) : (⟨S36x1024, .f32⟩ : BufTy).Contents (Elt F) → (⟨S_, .f32⟩ : BufTy).Contents (Elt F) → (⟨S36, .f32⟩ : BufTy).Contents (Elt F)),
    binary main_v58 main_v59 main_v60 (addf : (⟨S36, .f32⟩ : BufTy).Contents (Elt F) → (⟨S36, .f32⟩ : BufTy).Contents (Elt F) → (⟨S36, .f32⟩ : BufTy).Contents (Elt F)),
    unary main_v60 main_v61 (Host.negf : (⟨S36, .f32⟩ : BufTy).Contents (Elt F) → (⟨S36, .f32⟩ : BufTy).Contents (Elt F)),
    nullary main_cst_17 (constant S_ .f32 0x44800000#32),
    unary main_cst_17 main_v62 (broadcastInDim S36 ![] bcast_S_S36 : (⟨S_, .f32⟩ : BufTy).Contents (Elt F) → (⟨S36, .f32⟩ : BufTy).Contents (Elt F)),
    binary main_v61 main_v62 main_v63 (Host.divf : (⟨S36, .f32⟩ : BufTy).Contents (Elt F) → (⟨S36, .f32⟩ : BufTy).Contents (Elt F) → (⟨S36, .f32⟩ : BufTy).Contents (Elt F)),
    nullary main_cst_18 (constant S_ .f32 0x00000000#32),
    binary main_v63 main_cst_18 main_v64 ((fun x v => Host.reduceAdd x v reducesTo_S36_S_d0 h_S_) : (⟨S36, .f32⟩ : BufTy).Contents (Elt F) → (⟨S_, .f32⟩ : BufTy).Contents (Elt F) → (⟨S_, .f32⟩ : BufTy).Contents (Elt F)),
    nullary main_cst_19 (constant S_ .f32 0x3CF5C28F#32),
    binary main_cst_19 main_v64 main_v65 (mulf : (⟨S_, .f32⟩ : BufTy).Contents (Elt F) → (⟨S_, .f32⟩ : BufTy).Contents (Elt F) → (⟨S_, .f32⟩ : BufTy).Contents (Elt F)),
    binary main_v65 main_v5 main_v66 (addf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsA ++ (opsB ++ opsC)

/-- The references the three pieces write, operation by operation. -/
def ysA : List (Ref sig .tc) :=
  [ main_c, main_c_0, main_c_1, main_c_2, main_call0_cst, main_call0_v0, main_call0_cst_0, main_call0_v1,
    main_call0_v2, main_call0_v3, main_call0_v4, main_call0_v5, main_call0_v6, main_call0_cst_1, main_call0_v7,
    main_call0_v8, main_call0_v9, main_call0_v10, main_v0, main_v1, main_call1_c, main_call1_v0, main_call1_v1,
    main_call1_c_0, main_call1_v2, main_call1_v3, main_call1_v4, main_call1_v5, main_call1_c_1, main_call1_c_2,
    main_call1_v6, main_call1_v7, main_call1_v8, main_call1_v9, main_call1_v10, main_call1_v11, main_call1_c_3,
    main_call1_v12, main_call1_v13, main_call1_cst, main_call1_v14, main_v2 ]
@[inherit_doc ysA]
def ysB : List (Ref sig .tc) :=
  [ main_cst, main_v3, main_cst_3, main_v4, main_v5, main_v6, main_c_4, main_v7, main_v8, main_v9, main_v10,
    main_v11, main_v12, main_c_5, main_v13, main_v14, main_v15, main_v16, main_v17, main_v18, main_v19, main_v20,
    main_v21, main_v22, main_v23, main_cst_6, main_v24, main_cst_7, main_v25, main_v26, main_v27, main_v28,
    main_v29, main_c_8, main_v30, main_v31, main_v32, main_v33, main_cst_9, main_v34, main_v35, main_v36, main_v37,
    main_cst_10, main_v38, main_v39, main_v40, main_v41, main_v42, main_v43, main_cst_11, main_v44, main_v45 ]
@[inherit_doc ysA]
def ysC : List (Ref sig .tc) :=
  [ main_v46, main_v47, main_v48, main_cst_12, main_v49, main_v50, main_v51, main_cst_13, main_v52, main_cst_14,
    main_v53, main_v54, main_v55, main_v56, main_v57, main_cst_15, main_v58, main_cst_16, main_v59, main_v60,
    main_v61, main_cst_17, main_v62, main_v63, main_cst_18, main_v64, main_cst_19, main_v65, main_v66 ]

/-- The references the line writes, in its order. -/
abbrev ys : List (Ref sig .tc) := ysA ++ (ysB ++ ysC)

/-! ## The entry function is the line -/

set_option maxRecDepth 8192 in
set_option maxHeartbeats 4000000 in
/-- The entry function is that straight line: the two windows in order, the callees' bodies in place of the calls
    and the call records at their fields; both sides are one chain of steps once sequencing is reassociated. -/
theorem main_eq (c : Dev nD) : main (F := F) c = seq ops := by
  simp only [ops, seq_append]
  simp only [main, main_part0, main_part1, fn_log_softmax.body, fn_take_along_axis.body, opsA, opsB, opsC, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation stays among the TensorCore's buffers and determines what it writes -/

theorem opsA_sub : (opsA : List (HloOp τ sig (Elt F))).Forall fun op => op.bufs ⊆ tcRefs τ sig := by
  unfold opsA
  exact ⟨nullary_bufs_sub .., nullary_bufs_sub .., nullary_bufs_sub .., nullary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..⟩

theorem opsB_sub : (opsB : List (HloOp τ sig (Elt F))).Forall fun op => op.bufs ⊆ tcRefs τ sig := by
  unfold opsB
  exact ⟨nullary_bufs_sub .., binary_bufs_sub .., nullary_bufs_sub .., binary_bufs_sub .., unary_bufs_sub .., reshape_bufs_sub ..,
    nullary_bufs_sub .., unary_bufs_sub .., binary_bufs_sub .., ternary_bufs_sub .., unary_bufs_sub .., binary_bufs_sub ..,
    unary_bufs_sub .., nullary_bufs_sub .., unary_bufs_sub .., binary_bufs_sub .., ternary_bufs_sub .., unary_bufs_sub ..,
    binary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    unary_bufs_sub .., binary_bufs_sub .., nullary_bufs_sub .., binary_bufs_sub .., binary_bufs_sub ..⟩

theorem opsC_sub : (opsC : List (HloOp τ sig (Elt F))).Forall fun op => op.bufs ⊆ tcRefs τ sig := by
  unfold opsC
  exact ⟨unary_bufs_sub .., unary_bufs_sub .., binary_bufs_sub .., nullary_bufs_sub .., unary_bufs_sub .., binary_bufs_sub ..,
    unary_bufs_sub .., nullary_bufs_sub .., binary_bufs_sub .., nullary_bufs_sub .., unary_bufs_sub .., binary_bufs_sub ..,
    unary_bufs_sub .., binary_bufs_sub .., unary_bufs_sub .., nullary_bufs_sub .., binary_bufs_sub .., nullary_bufs_sub ..,
    binary_bufs_sub .., binary_bufs_sub .., unary_bufs_sub .., nullary_bufs_sub .., unary_bufs_sub .., binary_bufs_sub ..,
    nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

theorem opsA_fresh : (opsA : List (HloOp τ sig (Elt F))).Forall fun op => op.fresh = ∅ := by
  unfold opsA
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

theorem opsB_fresh : (opsB : List (HloOp τ sig (Elt F))).Forall fun op => op.fresh = ∅ := by
  unfold opsB
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem opsC_fresh : (opsC : List (HloOp τ sig (Elt F))).Forall fun op => op.fresh = ∅ := by
  unfold opsC
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl⟩

theorem ops_fresh : ∀ op ∈ (ops : List (HloOp τ sig (Elt F))), op.fresh = ∅ :=
  List.forall_iff_forall_mem.mp (List.forall_append.mpr ⟨opsA_fresh, List.forall_append.mpr ⟨opsB_fresh, opsC_fresh⟩⟩)

/-! ## The run -/

/-- On every device, for any float values, from any memory with zero counters: every weakly fair execution of the
    entry function terminates with each buffer at the fold of the line over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## Single assignment -/

theorem writesA : WritesAre (opsA : List (HloOp τ sig (Elt F))) ysA := by
  unfold opsA ysA
  writes_are

theorem writesB : WritesAre (opsB : List (HloOp τ sig (Elt F))) ysB := by
  unfold opsB ysB
  writes_are

theorem writesC : WritesAre (opsC : List (HloOp τ sig (Elt F))) ysC := by
  unfold opsC ysC
  writes_are

/-- Operation by operation, the line writes the references of the list. -/
theorem writes : WritesAre (ops : List (HloOp τ sig (Elt F))) ys :=
  writesAre_append writesA (writesAre_append writesB writesC)

/-- The written references' indices are the consecutive numbers from 4 on. -/
theorem ys_idx : (ys.map fun r => r.idx.val) = List.range' 4 ys.length := by
  first | rfl | decide

/-- Side condition of a one-step equation: the reference's index is below the first one written from there on. -/
macro "ssa_nd" : tactic => `(tactic| exact not_mem_drop_of_idx_lt ys_idx _ _ (by decide))

/-! ## Final contents -/

/-- A buffer's contents after the whole line. -/
abbrev fin (m : (ℓ : Loc nD τ sig) → Buf (Elt F) ℓ) (c : Dev nD) (b : Ref sig .tc) :=
  after (ops (F := F)) (launchContents m c) (Proc.devRef .tc b)

/-- The arguments are never written. -/
theorem fin_arg0 (m : (ℓ : Loc nD τ sig) → Buf (Elt F) ℓ) (c : Dev nD) :
    fin m c main_arg0 = m ((c.tc : Thread nD τ).loc main_arg0) :=
  keeps writes (launchContents m c) main_arg0 (not_mem_of_idx_lt ys_idx main_arg0 (by decide))
@[inherit_doc fin_arg0]
theorem fin_arg1 (m : (ℓ : Loc nD τ sig) → Buf (Elt F) ℓ) (c : Dev nD) :
    fin m c main_arg1 = m ((c.tc : Thread nD τ).loc main_arg1) :=
  keeps writes (launchContents m c) main_arg1 (not_mem_of_idx_lt ys_idx main_arg1 (by decide))
@[inherit_doc fin_arg0]
theorem fin_arg2 (m : (ℓ : Loc nD τ sig) → Buf (Elt F) ℓ) (c : Dev nD) :
    fin m c main_arg2 = m ((c.tc : Thread nD τ).loc main_arg2) :=
  keeps writes (launchContents m c) main_arg2 (not_mem_of_idx_lt ys_idx main_arg2 (by decide))
@[inherit_doc fin_arg0]
theorem fin_arg3 (m : (ℓ : Loc nD τ sig) → Buf (Elt F) ℓ) (c : Dev nD) :
    fin m c main_arg3 = m ((c.tc : Thread nD τ).loc main_arg3) :=
  keeps writes (launchContents m c) main_arg3 (not_mem_of_idx_lt ys_idx main_arg3 (by decide))

end Cert.ReferenceIdeal.RunV

end
-- ==== Proof.RefFin.lean ====
/-
  The reference's host line read one operation at a time: for each of the 124 buffers the line writes, its contents
  after the whole line are the operation's function of the final contents of the operation's operands. The line is in
  single-assignment form and the written references' indices are consecutive, so each equation is the one-step
  equation of its kind of operation at its position, with its side conditions comparisons of two numbers.
-/
import proofs.«404227_j85306640433706_2_alg».proof.Proof.RefRun

noncomputable section

namespace Cert.ReferenceIdeal.RunV

open Cert.ReferenceIdeal Cert.ReferenceIdeal.Gen Idealize.ShloMosaic Idealize.ShloMosaic.TcCoe Idealize.SL.Sem
open Idealize.ShloMosaic.StableHlo Cert.LibStretch Cert.LibSsa

variable {F : FTy → Type} [FloatOps F]

theorem fin_main_c (m : (ℓ : Loc nD τ sig) → Buf (Elt F) ℓ) (c : Dev nD) :
    fin m c main_c = (fun i => lit0 (S36.rowMajor i) : (⟨S36, .i32⟩ : BufTy).Contents (Elt F)) :=
  at_nullary writes 0 _ _ _ rfl (by ssa_nd)

theorem fin_main_c_0 (m : (ℓ : Loc nD τ sig) → Buf (Elt F) ℓ) (c : Dev nD) :
    fin m c main_c_0 = (constantI S36 1 0#1 : (⟨S36, .i1⟩ : BufTy).Contents (Elt F)) :=
  at_nullary writes 1 _ _ _ rfl (by ssa_nd)

theorem fin_main_c_1 (m : (ℓ : Loc nD τ sig) → Buf (Elt F) ℓ) (c : Dev nD) :
    fin m c main_c_1 = (fun i => lit1 (S36.rowMajor i) : (⟨S36, .i32⟩ : BufTy).Contents (Elt F)) :=
  at_nullary writes 2 _ _ _ rfl (by ssa_nd)

theorem fin_main_c_2 (m : (ℓ : Loc nD τ sig) → Buf (Elt F) ℓ) (c : Dev nD) :
    fin m c main_c_2 = (constantI S36 1 0#1 : (⟨S36, .i1⟩ : BufTy).Contents (Elt F)) :=
  at_nullary writes 3 _ _ _ rfl (by ssa_nd)

theorem fin_main_call0_cst (m : (ℓ : Loc nD τ sig) → Buf (Elt F) ℓ) (c : Dev nD) :
    fin m c main_call0_cst = (constant S_ .f32 0xFF800000#32 : (⟨S_, .f32⟩ : BufTy).Contents (Elt F)) :=
  at_lnullary writes 4 _ _ _ _ rfl (by ssa_nd)

theorem fin_main_call0_v0 (m : (ℓ : Loc nD τ sig) → Buf (Elt F) ℓ) (c : Dev nD) :
    fin m c main_call0_v0 = (Host.reduce FloatOps.maximumf (fin m c main_arg0) (fin m c main_call0_cst) reducesTo_S4096x400_S4096_d1 h_S_ : (⟨S4096, .f32⟩ : BufTy).Contents (Elt F)) :=
  at_lbinary writes 5 _ (a := main_arg0) (b := main_call0_cst) (y := main_call0_v0) _ _ _ _ _ _ (fun x v => Host.reduce FloatOps.maximumf x v reducesTo_S4096x400_S4096_d1 h_S_) rfl (by ssa_nd) (by ssa_nd) (by ssa_nd)

theorem fin_main_call0_cst_0 (m : (ℓ : Loc nD τ sig) → Buf (Elt F) ℓ) (c : Dev nD) :
    fin m c main_call0_cst_0 = (constant S_ .f32 0xFF800000#32 : (⟨S_, .f32⟩ : BufTy).Contents (Elt F)) :=
  at_lnullary writes 6 _ _ _ _ rfl (by ssa_nd)

theorem fin_main_call0_v1 (m : (ℓ : Loc nD τ sig) → Buf (Elt F) ℓ) (c : Dev nD) :
    fin m c main_call0_v1 = (broadcastInDim S4096 ![] bcast_S_S4096 (fin m c main_call0_cst_0) : (⟨S4096, .f32⟩ : BufTy).Contents (Elt F)) :=
  at_lunary writes 7 _ _ _ _ _ _ rfl (by ssa_nd) (by ssa_nd)

theorem fin_main_call0_v2 (m : (ℓ : Loc nD τ sig) → Buf (Elt F) ℓ) (c : Dev nD) :
    fin m c main_call0_v2 = (maximumf (fin m c main_call0_v1) (fin m c main_call0_v0) : (⟨S4096, .f32⟩ : BufTy).Contents (Elt F)) :=
  at_lbinary writes 8 _ _ _ _ _ _ _ _ rfl (by ssa_nd) (by ssa_nd) (by ssa_nd)

theorem fin_main_call0_v3 (m : (ℓ : Loc nD τ sig) → Buf (Elt F) ℓ) (c : Dev nD) :
    fin m c main_call0_v3 = (broadcastInDim S4096x1 ![0] bcast_S4096_S4096x1_0 (fin m c main_call0_v2) : (⟨S4096x1, .f32⟩ : BufTy).Contents (Elt F)) :=
  at_lunary writes 9 _ _ _ _ _ _ rfl (by ssa_nd) (by ssa_nd)

theorem fin_main_call0_v4 (m : (ℓ : Loc nD τ sig) → Buf (Elt F) ℓ) (c : Dev nD) :
    fin m c main_call0_v4 = (broadcastInDim S4096x400 ![0, 1] bcast_S4096x1_S4096x400_0_1 (fin m c main_call0_v3) : (⟨S4096x400, .f32⟩ : BufTy).Contents (Elt F)) :=
  at_lunary writes 10 _ _ _ _ _ _ rfl (by ssa_nd) (by ssa_nd)

theorem fin_main_call0_v5 (m : (ℓ : Loc nD τ sig) → Buf (Elt F) ℓ) (c : Dev nD) :
    fin m c main_call0_v5 = (subf (fin m c main_arg0) (fin m c main_call0_v4) : (⟨S4096x400, .f32⟩ : BufTy).Contents (Elt F)) :=
  at_lbinary writes 11 _ _ _ _ _ _ _ _ rfl (by ssa_nd) (by ssa_nd) (by ssa_nd)

theorem fin_main_call0_v6 (m : (ℓ : Loc nD τ sig) → Buf (Elt F) ℓ) (c : Dev nD) :
    fin m c main_call0_v6 = (Host.exp (fin m c main_call0_v5) : (⟨S4096x400, .f32⟩ : BufTy).Contents (Elt F)) :=
  at_lunary writes 12 _ _ _ _ _ _ rfl (by ssa_nd) (by ssa_nd)

theorem fin_main_call0_cst_1 (m : (ℓ : Loc nD τ sig) → Buf (Elt F) ℓ) (c : Dev nD) :
    fin m c main_call0_cst_1 = (constant S_ .f32 0x00000000#32 : (⟨S_, .f32⟩ : BufTy).Contents (Elt F)) :=
  at_lnullary writes 13 _ _ _ _ rfl (by ssa_nd)

theorem fin_main_call0_v7 (m : (ℓ : Loc nD τ sig) → Buf (Elt F) ℓ) (c : Dev nD) :
    fin m c main_call0_v7 = (Host.reduceAdd (fin m c main_call0_v6) (fin m c main_call0_cst_1) reducesTo_S4096x400_S4096_d1 h_S_ : (⟨S4096, .f32⟩ : BufTy).Contents (Elt F)) :=
  at_lbinary writes 14 _ (a := main_call0_v6) (b := main_call0_cst_1) (y := main_call0_v7) _ _ _ _ _ _ (fun x v => Host.reduceAdd x v reducesTo_S4096x400_S4096_d1 h_S_) rfl (by ssa_nd) (by ssa_nd) (by ssa_nd)

theorem fin_main_call0_v8 (m : (ℓ : Loc nD τ sig) → Buf (Elt F) ℓ) (c : Dev nD) :
    fin m c main_call0_v8 = (broadcastInDim S4096x1 ![0] bcast_S4096_S4096x1_0 (fin m c main_call0_v7) : (⟨S4096x1, .f32⟩ : BufTy).Contents (Elt F)) :=
  at_lunary writes 15 _ _ _ _ _ _ rfl (by ssa_nd) (by ssa_nd)

theorem fin_main_call0_v9 (m : (ℓ : Loc nD τ sig) → Buf (Elt F) ℓ) (c : Dev nD) :
    fin m c main_call0_v9 = (Host.log (fin m c main_call0_v8) : (⟨S4096x1, .f32⟩ : BufTy).Contents (Elt F)) :=
  at_lunary writes 16 _ _ _ _ _ _ rfl (by ssa_nd) (by ssa_nd)

theorem fin_main_call0_v10 (m : (ℓ : Loc nD τ sig) → Buf (Elt F) ℓ) (c : Dev nD) :
    fin m c main_call0_v10 = (broadcastInDim S4096x400 ![0, 1] bcast_S4096x1_S4096x400_0_1 (fin m c main_call0_v9) : (⟨S4096x400, .f32⟩ : BufTy).Contents (Elt F)) :=
  at_lunary writes 17 _ _ _ _ _ _ rfl (by ssa_nd) (by ssa_nd)

theorem fin_main_v0 (m : (ℓ : Loc nD τ sig) → Buf (Elt F) ℓ) (c : Dev nD) :
    fin m c main_v0 = (subf (fin m c main_call0_v5) (fin m c main_call0_v10) : (⟨S4096x400, .f32⟩ : BufTy).Contents (Elt F)) :=
  at_lbinary writes 18 _ _ _ _ _ _ _ _ rfl (by ssa_nd) (by ssa_nd) (by ssa_nd)

theorem fin_main_v1 (m : (ℓ : Loc nD τ sig) → Buf (Elt F) ℓ) (c : Dev nD) :
    fin m c main_v1 = (broadcastInDim S4096x1 ![0] bcast_S4096_S4096x1_0 (fin m c main_arg1) : (⟨S4096x1, .i32⟩ : BufTy).Contents (Elt F)) :=
  at_unary writes 19 _ _ _ _ rfl (by ssa_nd) (by ssa_nd)

theorem fin_main_call1_c (m : (ℓ : Loc nD τ sig) → Buf (Elt F) ℓ) (c : Dev nD) :
    fin m c main_call1_c = (constantI S_ 32 0#32 : (⟨S_, .i32⟩ : BufTy).Contents (Elt F)) :=
  at_lnullary writes 20 _ _ _ _ rfl (by ssa_nd)

theorem fin_main_call1_v0 (m : (ℓ : Loc nD τ sig) → Buf (Elt F) ℓ) (c : Dev nD) :
    fin m c main_call1_v0 = (broadcastInDim S4096x1 ![] bcast_S_S4096x1 (fin m c main_call1_c) : (⟨S4096x1, .i32⟩ : BufTy).Contents (Elt F)) :=
  at_lunary writes 21 _ _ _ _ _ _ rfl (by ssa_nd) (by ssa_nd)

theorem fin_main_call1_v1 (m : (ℓ : Loc nD τ sig) → Buf (Elt F) ℓ) (c : Dev nD) :
    fin m c main_call1_v1 = (cmpi .slt (fin m c main_v1) (fin m c main_call1_v0) : (⟨S4096x1, .i1⟩ : BufTy).Contents (Elt F)) :=
  at_lbinary writes 22 _ _ _ _ _ _ _ _ rfl (by ssa_nd) (by ssa_nd) (by ssa_nd)

theorem fin_main_call1_c_0 (m : (ℓ : Loc nD τ sig) → Buf (Elt F) ℓ) (c : Dev nD) :
    fin m c main_call1_c_0 = (constantI S_ 32 400#32 : (⟨S_, .i32⟩ : BufTy).Contents (Elt F)) :=
  at_lnullary writes 23 _ _ _ _ rfl (by ssa_nd)

theorem fin_main_call1_v2 (m : (ℓ : Loc nD τ sig) → Buf (Elt F) ℓ) (c : Dev nD) :
    fin m c main_call1_v2 = (broadcastInDim S4096x1 ![] bcast_S_S4096x1 (fin m c main_call1_c_0) : (⟨S4096x1, .i32⟩ : BufTy).Contents (Elt F)) :=
  at_lunary writes 24 _ _ _ _ _ _ rfl (by ssa_nd) (by ssa_nd)

theorem fin_main_call1_v3 (m : (ℓ : Loc nD τ sig) → Buf (Elt F) ℓ) (c : Dev nD) :
    fin m c main_call1_v3 = (addi (fin m c main_v1) (fin m c main_call1_v2) : (⟨S4096x1, .i32⟩ : BufTy).Contents (Elt F)) :=
  at_lbinary writes 25 _ _ _ _ _ _ _ _ rfl (by ssa_nd) (by ssa_nd) (by ssa_nd)

theorem fin_main_call1_v4 (m : (ℓ : Loc nD τ sig) → Buf (Elt F) ℓ) (c : Dev nD) :
    fin m c main_call1_v4 = (select (fin m c main_call1_v1) (fin m c main_call1_v3) (fin m c main_v1) : (⟨S4096x1, .i32⟩ : BufTy).Contents (Elt F)) :=
  at_lternary writes 26 _ _ _ _ _ _ _ _ _ _ rfl (by ssa_nd) (by ssa_nd) (by ssa_nd) (by ssa_nd)

theorem fin_main_call1_v5 (m : (ℓ : Loc nD τ sig) → Buf (Elt F) ℓ) (c : Dev nD) :
    fin m c main_call1_v5 = (shapeCast S4096x1x1 (fin m c main_call1_v4) shapeCasts_S4096x1_S4096x1x1 : (⟨S4096x1x1, .i32⟩ : BufTy).Contents (Elt F)) :=
  (at_reshape writes 27 _ _ _ _ _ rfl (by ssa_nd) (by ssa_nd)).trans rfl

theorem fin_main_call1_c_1 (m : (ℓ : Loc nD τ sig) → Buf (Elt F) ℓ) (c : Dev nD) :
    fin m c main_call1_c_1 = (constantI S1 32 399#32 : (⟨S1, .i32⟩ : BufTy).Contents (Elt F)) :=
  at_lnullary writes 28 _ _ _ _ rfl (by ssa_nd)

theorem fin_main_call1_c_2 (m : (ℓ : Loc nD τ sig) → Buf (Elt F) ℓ) (c : Dev nD) :
    fin m c main_call1_c_2 = (constantI S_ 32 0#32 : (⟨S_, .i32⟩ : BufTy).Contents (Elt F)) :=
  at_lnullary writes 29 _ _ _ _ rfl (by ssa_nd)

theorem fin_main_call1_v6 (m : (ℓ : Loc nD τ sig) → Buf (Elt F) ℓ) (c : Dev nD) :
    fin m c main_call1_v6 = (broadcastInDim S4096x1x1 ![] bcast_S_S4096x1x1 (fin m c main_call1_c_2) : (⟨S4096x1x1, .i32⟩ : BufTy).Contents (Elt F)) :=
  at_lunary writes 30 _ _ _ _ _ _ rfl (by ssa_nd) (by ssa_nd)

theorem fin_main_call1_v7 (m : (ℓ : Loc nD τ sig) → Buf (Elt F) ℓ) (c : Dev nD) :
    fin m c main_call1_v7 = (cmpi .sge (fin m c main_call1_v5) (fin m c main_call1_v6) : (⟨S4096x1x1, .i1⟩ : BufTy).Contents (Elt F)) :=
  at_lbinary writes 31 _ _ _ _ _ _ _ _ rfl (by ssa_nd) (by ssa_nd) (by ssa_nd)

theorem fin_main_call1_v8 (m : (ℓ : Loc nD τ sig) → Buf (Elt F) ℓ) (c : Dev nD) :
    fin m c main_call1_v8 = (broadcastInDim S1x1x1 ![2] bcast_S1_S1x1x1_2 (fin m c main_call1_c_1) : (⟨S1x1x1, .i32⟩ : BufTy).Contents (Elt F)) :=
  at_lunary writes 32 _ _ _ _ _ _ rfl (by ssa_nd) (by ssa_nd)

theorem fin_main_call1_v9 (m : (ℓ : Loc nD τ sig) → Buf (Elt F) ℓ) (c : Dev nD) :
    fin m c main_call1_v9 = (broadcastInDim S4096x1x1 ![0, 1, 2] bcast_S1x1x1_S4096x1x1_0_1_2 (fin m c main_call1_v8) : (⟨S4096x1x1, .i32⟩ : BufTy).Contents (Elt F)) :=
  at_lunary writes 33 _ _ _ _ _ _ rfl (by ssa_nd) (by ssa_nd)

theorem fin_main_call1_v10 (m : (ℓ : Loc nD τ sig) → Buf (Elt F) ℓ) (c : Dev nD) :
    fin m c main_call1_v10 = (cmpi .sle (fin m c main_call1_v5) (fin m c main_call1_v9) : (⟨S4096x1x1, .i1⟩ : BufTy).Contents (Elt F)) :=
  at_lbinary writes 34 _ _ _ _ _ _ _ _ rfl (by ssa_nd) (by ssa_nd) (by ssa_nd)

theorem fin_main_call1_v11 (m : (ℓ : Loc nD τ sig) → Buf (Elt F) ℓ) (c : Dev nD) :
    fin m c main_call1_v11 = (andi (fin m c main_call1_v7) (fin m c main_call1_v10) : (⟨S4096x1x1, .i1⟩ : BufTy).Contents (Elt F)) :=
  at_lbinary writes 35 _ _ _ _ _ _ _ _ rfl (by ssa_nd) (by ssa_nd) (by ssa_nd)

theorem fin_main_call1_c_3 (m : (ℓ : Loc nD τ sig) → Buf (Elt F) ℓ) (c : Dev nD) :
    fin m c main_call1_c_3 = (constantI S_ 1 1#1 : (⟨S_, .i1⟩ : BufTy).Contents (Elt F)) :=
  at_lnullary writes 36 _ _ _ _ rfl (by ssa_nd)

theorem fin_main_call1_v12 (m : (ℓ : Loc nD τ sig) → Buf (Elt F) ℓ) (c : Dev nD) :
    fin m c main_call1_v12 = (Host.reduce IntOp.andi (fin m c main_call1_v11) (fin m c main_call1_c_3) reducesTo_S4096x1x1_S4096x1_d2 h_S_ : (⟨S4096x1, .i1⟩ : BufTy).Contents (Elt F)) :=
  at_lbinary writes 37 _ (a := main_call1_v11) (b := main_call1_c_3) (y := main_call1_v12) _ _ _ _ _ _ (fun x v => Host.reduce IntOp.andi x v reducesTo_S4096x1x1_S4096x1_d2 h_S_) rfl (by ssa_nd) (by ssa_nd) (by ssa_nd)

theorem fin_main_call1_v13 (m : (ℓ : Loc nD τ sig) → Buf (Elt F) ℓ) (c : Dev nD) :
    fin m c main_call1_v13 = (Host.gather gather_S4096x400_S4096x1x1_S4096x1_n_1_0_0_1_2_11 (fin m c main_v0) (fin m c main_call1_v5) : (⟨S4096x1, .f32⟩ : BufTy).Contents (Elt F)) :=
  at_lbinary writes 38 _ (a := main_v0) (b := main_call1_v5) (y := main_call1_v13) _ _ _ _ _ _ (fun x i => Host.gather gather_S4096x400_S4096x1x1_S4096x1_n_1_0_0_1_2_11 x i) rfl (by ssa_nd) (by ssa_nd) (by ssa_nd)

theorem fin_main_call1_cst (m : (ℓ : Loc nD τ sig) → Buf (Elt F) ℓ) (c : Dev nD) :
    fin m c main_call1_cst = (constant S_ .f32 0x7FC00000#32 : (⟨S_, .f32⟩ : BufTy).Contents (Elt F)) :=
  at_lnullary writes 39 _ _ _ _ rfl (by ssa_nd)

theorem fin_main_call1_v14 (m : (ℓ : Loc nD τ sig) → Buf (Elt F) ℓ) (c : Dev nD) :
    fin m c main_call1_v14 = (broadcastInDim S4096x1 ![] bcast_S_S4096x1 (fin m c main_call1_cst) : (⟨S4096x1, .f32⟩ : BufTy).Contents (Elt F)) :=
  at_lunary writes 40 _ _ _ _ _ _ rfl (by ssa_nd) (by ssa_nd)

theorem fin_main_v2 (m : (ℓ : Loc nD τ sig) → Buf (Elt F) ℓ) (c : Dev nD) :
    fin m c main_v2 = (select (fin m c main_call1_v12) (fin m c main_call1_v13) (fin m c main_call1_v14) : (⟨S4096x1, .f32⟩ : BufTy).Contents (Elt F)) :=
  at_lternary writes 41 _ _ _ _ _ _ _ _ _ _ rfl (by ssa_nd) (by ssa_nd) (by ssa_nd) (by ssa_nd)

theorem fin_main_cst (m : (ℓ : Loc nD τ sig) → Buf (Elt F) ℓ) (c : Dev nD) :
    fin m c main_cst = (constant S_ .f32 0x00000000#32 : (⟨S_, .f32⟩ : BufTy).Contents (Elt F)) :=
  at_nullary writes 42 _ _ _ rfl (by ssa_nd)

theorem fin_main_v3 (m : (ℓ : Loc nD τ sig) → Buf (Elt F) ℓ) (c : Dev nD) :
    fin m c main_v3 = (Host.reduceAdd (fin m c main_v2) (fin m c main_cst) reducesTo_S4096x1_S_d0_1 h_S_ : (⟨S_, .f32⟩ : BufTy).Contents (Elt F)) :=
  at_binary writes 43 _ (a := main_v2) (b := main_cst) (y := main_v3) ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)) _ _ _ rfl (by ssa_nd) (by ssa_nd) (by ssa_nd)

theorem fin_main_cst_3 (m : (ℓ : Loc nD τ sig) → Buf (Elt F) ℓ) (c : Dev nD) :
    fin m c main_cst_3 = (constant S_ .f32 0x45800000#32 : (⟨S_, .f32⟩ : BufTy).Contents (Elt F)) :=
  at_nullary writes 44 _ _ _ rfl (by ssa_nd)

theorem fin_main_v4 (m : (ℓ : Loc nD τ sig) → Buf (Elt F) ℓ) (c : Dev nD) :
    fin m c main_v4 = (Host.divf (fin m c main_v3) (fin m c main_cst_3) : (⟨S_, .f32⟩ : BufTy).Contents (Elt F)) :=
  at_binary writes 45 _ _ _ _ _ rfl (by ssa_nd) (by ssa_nd) (by ssa_nd)

theorem fin_main_v5 (m : (ℓ : Loc nD τ sig) → Buf (Elt F) ℓ) (c : Dev nD) :
    fin m c main_v5 = (Host.negf (fin m c main_v4) : (⟨S_, .f32⟩ : BufTy).Contents (Elt F)) :=
  at_unary writes 46 _ _ _ _ rfl (by ssa_nd) (by ssa_nd)

theorem fin_main_v6 (m : (ℓ : Loc nD τ sig) → Buf (Elt F) ℓ) (c : Dev nD) :
    fin m c main_v6 = (shapeCast S512x8x128 (fin m c main_arg2) shapeCasts_S4096x128_S512x8x128 : (⟨S512x8x128, .f32⟩ : BufTy).Contents (Elt F)) :=
  (at_reshape writes 47 _ _ _ _ _ rfl (by ssa_nd) (by ssa_nd)).trans rfl

theorem fin_main_c_4 (m : (ℓ : Loc nD τ sig) → Buf (Elt F) ℓ) (c : Dev nD) :
    fin m c main_c_4 = (constantI S_ 32 8#32 : (⟨S_, .i32⟩ : BufTy).Contents (Elt F)) :=
  at_nullary writes 48 _ _ _ rfl (by ssa_nd)

theorem fin_main_v7 (m : (ℓ : Loc nD τ sig) → Buf (Elt F) ℓ) (c : Dev nD) :
    fin m c main_v7 = (broadcastInDim S36 ![] bcast_S_S36 (fin m c main_c_4) : (⟨S36, .i32⟩ : BufTy).Contents (Elt F)) :=
  at_unary writes 49 _ _ _ _ rfl (by ssa_nd) (by ssa_nd)

theorem fin_main_v8 (m : (ℓ : Loc nD τ sig) → Buf (Elt F) ℓ) (c : Dev nD) :
    fin m c main_v8 = (addi (fin m c main_c) (fin m c main_v7) : (⟨S36, .i32⟩ : BufTy).Contents (Elt F)) :=
  at_binary writes 50 _ _ _ _ _ rfl (by ssa_nd) (by ssa_nd) (by ssa_nd)

theorem fin_main_v9 (m : (ℓ : Loc nD τ sig) → Buf (Elt F) ℓ) (c : Dev nD) :
    fin m c main_v9 = (select (fin m c main_c_0) (fin m c main_v8) (fin m c main_c) : (⟨S36, .i32⟩ : BufTy).Contents (Elt F)) :=
  at_ternary writes 51 _ _ _ _ _ _ rfl (by ssa_nd) (by ssa_nd) (by ssa_nd) (by ssa_nd)

theorem fin_main_v10 (m : (ℓ : Loc nD τ sig) → Buf (Elt F) ℓ) (c : Dev nD) :
    fin m c main_v10 = (broadcastInDim S36x1 ![0] bcast_S36_S36x1_0 (fin m c main_v9) : (⟨S36x1, .i32⟩ : BufTy).Contents (Elt F)) :=
  at_unary writes 52 _ _ _ _ rfl (by ssa_nd) (by ssa_nd)

theorem fin_main_v11 (m : (ℓ : Loc nD τ sig) → Buf (Elt F) ℓ) (c : Dev nD) :
    fin m c main_v11 = (Host.gather gather_S512x8x128_S36x1_S512x36x128_02_1_n_n_1_1_5121128 (fin m c main_v6) (fin m c main_v10) : (⟨S512x36x128, .f32⟩ : BufTy).Contents (Elt F)) :=
  at_binary writes 53 _ (a := main_v6) (b := main_v10) (y := main_v11) ((fun x i => Host.gather gather_S512x8x128_S36x1_S512x36x128_02_1_n_n_1_1_5121128 x i) : (⟨S512x8x128, .f32⟩ : BufTy).Contents (Elt F) → (⟨S36x1, .i32⟩ : BufTy).Contents (Elt F) → (⟨S512x36x128, .f32⟩ : BufTy).Contents (Elt F)) _ _ _ rfl (by ssa_nd) (by ssa_nd) (by ssa_nd)

theorem fin_main_v12 (m : (ℓ : Loc nD τ sig) → Buf (Elt F) ℓ) (c : Dev nD) :
    fin m c main_v12 = (transpose S36x512x128 [1, 0, 2] (fin m c main_v11) transposes_S512x36x128_S36x512x128_1_0_2 : (⟨S36x512x128, .f32⟩ : BufTy).Contents (Elt F)) :=
  at_unary writes 54 _ _ _ _ rfl (by ssa_nd) (by ssa_nd)

theorem fin_main_c_5 (m : (ℓ : Loc nD τ sig) → Buf (Elt F) ℓ) (c : Dev nD) :
    fin m c main_c_5 = (constantI S_ 32 8#32 : (⟨S_, .i32⟩ : BufTy).Contents (Elt F)) :=
  at_nullary writes 55 _ _ _ rfl (by ssa_nd)

theorem fin_main_v13 (m : (ℓ : Loc nD τ sig) → Buf (Elt F) ℓ) (c : Dev nD) :
    fin m c main_v13 = (broadcastInDim S36 ![] bcast_S_S36 (fin m c main_c_5) : (⟨S36, .i32⟩ : BufTy).Contents (Elt F)) :=
  at_unary writes 56 _ _ _ _ rfl (by ssa_nd) (by ssa_nd)

theorem fin_main_v14 (m : (ℓ : Loc nD τ sig) → Buf (Elt F) ℓ) (c : Dev nD) :
    fin m c main_v14 = (addi (fin m c main_c_1) (fin m c main_v13) : (⟨S36, .i32⟩ : BufTy).Contents (Elt F)) :=
  at_binary writes 57 _ _ _ _ _ rfl (by ssa_nd) (by ssa_nd) (by ssa_nd)

theorem fin_main_v15 (m : (ℓ : Loc nD τ sig) → Buf (Elt F) ℓ) (c : Dev nD) :
    fin m c main_v15 = (select (fin m c main_c_2) (fin m c main_v14) (fin m c main_c_1) : (⟨S36, .i32⟩ : BufTy).Contents (Elt F)) :=
  at_ternary writes 58 _ _ _ _ _ _ rfl (by ssa_nd) (by ssa_nd) (by ssa_nd) (by ssa_nd)

theorem fin_main_v16 (m : (ℓ : Loc nD τ sig) → Buf (Elt F) ℓ) (c : Dev nD) :
    fin m c main_v16 = (broadcastInDim S36x1 ![0] bcast_S36_S36x1_0 (fin m c main_v15) : (⟨S36x1, .i32⟩ : BufTy).Contents (Elt F)) :=
  at_unary writes 59 _ _ _ _ rfl (by ssa_nd) (by ssa_nd)

theorem fin_main_v17 (m : (ℓ : Loc nD τ sig) → Buf (Elt F) ℓ) (c : Dev nD) :
    fin m c main_v17 = (Host.gather gather_S512x8x128_S36x1_S512x36x128_02_1_n_n_1_1_5121128 (fin m c main_v6) (fin m c main_v16) : (⟨S512x36x128, .f32⟩ : BufTy).Contents (Elt F)) :=
  at_binary writes 60 _ (a := main_v6) (b := main_v16) (y := main_v17) ((fun x i => Host.gather gather_S512x8x128_S36x1_S512x36x128_02_1_n_n_1_1_5121128 x i) : (⟨S512x8x128, .f32⟩ : BufTy).Contents (Elt F) → (⟨S36x1, .i32⟩ : BufTy).Contents (Elt F) → (⟨S512x36x128, .f32⟩ : BufTy).Contents (Elt F)) _ _ _ rfl (by ssa_nd) (by ssa_nd) (by ssa_nd)

theorem fin_main_v18 (m : (ℓ : Loc nD τ sig) → Buf (Elt F) ℓ) (c : Dev nD) :
    fin m c main_v18 = (transpose S36x512x128 [1, 0, 2] (fin m c main_v17) transposes_S512x36x128_S36x512x128_1_0_2 : (⟨S36x512x128, .f32⟩ : BufTy).Contents (Elt F)) :=
  at_unary writes 61 _ _ _ _ rfl (by ssa_nd) (by ssa_nd)

theorem fin_main_v19 (m : (ℓ : Loc nD τ sig) → Buf (Elt F) ℓ) (c : Dev nD) :
    fin m c main_v19 = (concatenate S36x1024x128 1 [⟨S36x512x128, (fin m c main_v12)⟩, ⟨S36x512x128, (fin m c main_v18)⟩] concatenates_S36x512x128_S36x512x128_S36x1024x128_d1 : (⟨S36x1024x128, .f32⟩ : BufTy).Contents (Elt F)) :=
  at_binary writes 62 _ (a := main_v12) (b := main_v18) (y := main_v19) ((fun a b => concatenate S36x1024x128 1 [⟨S36x512x128, a⟩, ⟨S36x512x128, b⟩] concatenates_S36x512x128_S36x512x128_S36x1024x128_d1) : (⟨S36x512x128, .f32⟩ : BufTy).Contents (Elt F) → (⟨S36x512x128, .f32⟩ : BufTy).Contents (Elt F) → (⟨S36x1024x128, .f32⟩ : BufTy).Contents (Elt F)) _ _ _ rfl (by ssa_nd) (by ssa_nd) (by ssa_nd)

theorem fin_main_v20 (m : (ℓ : Loc nD τ sig) → Buf (Elt F) ℓ) (c : Dev nD) :
    fin m c main_v20 = (extractStridedSlice S36x512x128 ![0, 512, 0] (fin m c main_v19) slices_S36x1024x128_S36x512x128_0_512_0 : (⟨S36x512x128, .f32⟩ : BufTy).Contents (Elt F)) :=
  at_unary writes 63 _ _ _ _ rfl (by ssa_nd) (by ssa_nd)

theorem fin_main_v21 (m : (ℓ : Loc nD τ sig) → Buf (Elt F) ℓ) (c : Dev nD) :
    fin m c main_v21 = (extractStridedSlice S36x512x128 ![0, 0, 0] (fin m c main_v19) slices_S36x1024x128_S36x512x128_0_0_0 : (⟨S36x512x128, .f32⟩ : BufTy).Contents (Elt F)) :=
  at_unary writes 64 _ _ _ _ rfl (by ssa_nd) (by ssa_nd)

theorem fin_main_v22 (m : (ℓ : Loc nD τ sig) → Buf (Elt F) ℓ) (c : Dev nD) :
    fin m c main_v22 = (concatenate S36x1024x128 1 [⟨S36x512x128, (fin m c main_v20)⟩, ⟨S36x512x128, (fin m c main_v21)⟩] concatenates_S36x512x128_S36x512x128_S36x1024x128_d1 : (⟨S36x1024x128, .f32⟩ : BufTy).Contents (Elt F)) :=
  at_binary writes 65 _ (a := main_v20) (b := main_v21) (y := main_v22) ((fun a b => concatenate S36x1024x128 1 [⟨S36x512x128, a⟩, ⟨S36x512x128, b⟩] concatenates_S36x512x128_S36x512x128_S36x1024x128_d1) : (⟨S36x512x128, .f32⟩ : BufTy).Contents (Elt F) → (⟨S36x512x128, .f32⟩ : BufTy).Contents (Elt F) → (⟨S36x1024x128, .f32⟩ : BufTy).Contents (Elt F)) _ _ _ rfl (by ssa_nd) (by ssa_nd) (by ssa_nd)

theorem fin_main_v23 (m : (ℓ : Loc nD τ sig) → Buf (Elt F) ℓ) (c : Dev nD) :
    fin m c main_v23 = (mulf (fin m c main_v19) (fin m c main_v22) : (⟨S36x1024x128, .f32⟩ : BufTy).Contents (Elt F)) :=
  at_binary writes 66 _ _ _ _ _ rfl (by ssa_nd) (by ssa_nd) (by ssa_nd)

theorem fin_main_cst_6 (m : (ℓ : Loc nD τ sig) → Buf (Elt F) ℓ) (c : Dev nD) :
    fin m c main_cst_6 = (constant S_ .f32 0x00000000#32 : (⟨S_, .f32⟩ : BufTy).Contents (Elt F)) :=
  at_nullary writes 67 _ _ _ rfl (by ssa_nd)

theorem fin_main_v24 (m : (ℓ : Loc nD τ sig) → Buf (Elt F) ℓ) (c : Dev nD) :
    fin m c main_v24 = (Host.reduceAdd (fin m c main_v23) (fin m c main_cst_6) reducesTo_S36x1024x128_S36x1024_d2 h_S_ : (⟨S36x1024, .f32⟩ : BufTy).Contents (Elt F)) :=
  at_binary writes 68 _ (a := main_v23) (b := main_cst_6) (y := main_v24) ((fun x v => Host.reduceAdd x v reducesTo_S36x1024x128_S36x1024_d2 h_S_) : (⟨S36x1024x128, .f32⟩ : BufTy).Contents (Elt F) → (⟨S_, .f32⟩ : BufTy).Contents (Elt F) → (⟨S36x1024, .f32⟩ : BufTy).Contents (Elt F)) _ _ _ rfl (by ssa_nd) (by ssa_nd) (by ssa_nd)

theorem fin_main_cst_7 (m : (ℓ : Loc nD τ sig) → Buf (Elt F) ℓ) (c : Dev nD) :
    fin m c main_cst_7 = (constant S_ .f32 0x3DCCCCCD#32 : (⟨S_, .f32⟩ : BufTy).Contents (Elt F)) :=
  at_nullary writes 69 _ _ _ rfl (by ssa_nd)

theorem fin_main_v25 (m : (ℓ : Loc nD τ sig) → Buf (Elt F) ℓ) (c : Dev nD) :
    fin m c main_v25 = (broadcastInDim S36x1024 ![] bcast_S_S36x1024 (fin m c main_cst_7) : (⟨S36x1024, .f32⟩ : BufTy).Contents (Elt F)) :=
  at_unary writes 70 _ _ _ _ rfl (by ssa_nd) (by ssa_nd)

theorem fin_main_v26 (m : (ℓ : Loc nD τ sig) → Buf (Elt F) ℓ) (c : Dev nD) :
    fin m c main_v26 = (Host.divf (fin m c main_v24) (fin m c main_v25) : (⟨S36x1024, .f32⟩ : BufTy).Contents (Elt F)) :=
  at_binary writes 71 _ _ _ _ _ rfl (by ssa_nd) (by ssa_nd) (by ssa_nd)

theorem fin_main_v27 (m : (ℓ : Loc nD τ sig) → Buf (Elt F) ℓ) (c : Dev nD) :
    fin m c main_v27 = (Host.exp (fin m c main_v26) : (⟨S36x1024, .f32⟩ : BufTy).Contents (Elt F)) :=
  at_unary writes 72 _ _ _ _ rfl (by ssa_nd) (by ssa_nd)

theorem fin_main_v28 (m : (ℓ : Loc nD τ sig) → Buf (Elt F) ℓ) (c : Dev nD) :
    fin m c main_v28 = (iotaInDim S1024x1024 32 0 : (⟨S1024x1024, .i32⟩ : BufTy).Contents (Elt F)) :=
  at_nullary writes 73 _ _ _ rfl (by ssa_nd)

theorem fin_main_v29 (m : (ℓ : Loc nD τ sig) → Buf (Elt F) ℓ) (c : Dev nD) :
    fin m c main_v29 = (iotaInDim S1024x1024 32 1 : (⟨S1024x1024, .i32⟩ : BufTy).Contents (Elt F)) :=
  at_nullary writes 74 _ _ _ rfl (by ssa_nd)

theorem fin_main_c_8 (m : (ℓ : Loc nD τ sig) → Buf (Elt F) ℓ) (c : Dev nD) :
    fin m c main_c_8 = (constantI S_ 32 0#32 : (⟨S_, .i32⟩ : BufTy).Contents (Elt F)) :=
  at_nullary writes 75 _ _ _ rfl (by ssa_nd)

theorem fin_main_v30 (m : (ℓ : Loc nD τ sig) → Buf (Elt F) ℓ) (c : Dev nD) :
    fin m c main_v30 = (broadcastInDim S1024x1024 ![] bcast_S_S1024x1024 (fin m c main_c_8) : (⟨S1024x1024, .i32⟩ : BufTy).Contents (Elt F)) :=
  at_unary writes 76 _ _ _ _ rfl (by ssa_nd) (by ssa_nd)

theorem fin_main_v31 (m : (ℓ : Loc nD τ sig) → Buf (Elt F) ℓ) (c : Dev nD) :
    fin m c main_v31 = (addi (fin m c main_v28) (fin m c main_v30) : (⟨S1024x1024, .i32⟩ : BufTy).Contents (Elt F)) :=
  at_binary writes 77 _ _ _ _ _ rfl (by ssa_nd) (by ssa_nd) (by ssa_nd)

theorem fin_main_v32 (m : (ℓ : Loc nD τ sig) → Buf (Elt F) ℓ) (c : Dev nD) :
    fin m c main_v32 = (cmpi .eq (fin m c main_v31) (fin m c main_v29) : (⟨S1024x1024, .i1⟩ : BufTy).Contents (Elt F)) :=
  at_binary writes 78 _ _ _ _ _ rfl (by ssa_nd) (by ssa_nd) (by ssa_nd)

theorem fin_main_v33 (m : (ℓ : Loc nD τ sig) → Buf (Elt F) ℓ) (c : Dev nD) :
    fin m c main_v33 = (uitofp .f32 (fin m c main_v32) : (⟨S1024x1024, .f32⟩ : BufTy).Contents (Elt F)) :=
  at_unary writes 79 _ _ _ _ rfl (by ssa_nd) (by ssa_nd)

theorem fin_main_cst_9 (m : (ℓ : Loc nD τ sig) → Buf (Elt F) ℓ) (c : Dev nD) :
    fin m c main_cst_9 = (constant S_ .f32 0x3F800000#32 : (⟨S_, .f32⟩ : BufTy).Contents (Elt F)) :=
  at_nullary writes 80 _ _ _ rfl (by ssa_nd)

theorem fin_main_v34 (m : (ℓ : Loc nD τ sig) → Buf (Elt F) ℓ) (c : Dev nD) :
    fin m c main_v34 = (broadcastInDim S1024x1024 ![] bcast_S_S1024x1024 (fin m c main_cst_9) : (⟨S1024x1024, .f32⟩ : BufTy).Contents (Elt F)) :=
  at_unary writes 81 _ _ _ _ rfl (by ssa_nd) (by ssa_nd)

theorem fin_main_v35 (m : (ℓ : Loc nD τ sig) → Buf (Elt F) ℓ) (c : Dev nD) :
    fin m c main_v35 = (subf (fin m c main_v34) (fin m c main_v33) : (⟨S1024x1024, .f32⟩ : BufTy).Contents (Elt F)) :=
  at_binary writes 82 _ _ _ _ _ rfl (by ssa_nd) (by ssa_nd) (by ssa_nd)

theorem fin_main_v36 (m : (ℓ : Loc nD τ sig) → Buf (Elt F) ℓ) (c : Dev nD) :
    fin m c main_v36 = (transpose S36x128x1024 [0, 2, 1] (fin m c main_v19) transposes_S36x1024x128_S36x128x1024_0_2_1 : (⟨S36x128x1024, .f32⟩ : BufTy).Contents (Elt F)) :=
  at_unary writes 83 _ _ _ _ rfl (by ssa_nd) (by ssa_nd)

theorem fin_main_v37 (m : (ℓ : Loc nD τ sig) → Buf (Elt F) ℓ) (c : Dev nD) :
    fin m c main_v37 = (Host.dotGeneral dot_S36x1024x128_S36x128x1024_S36x1024x1024_2_1_1_2_0_0 none (fin m c main_v19) (fin m c main_v36) : (⟨S36x1024x1024, .f32⟩ : BufTy).Contents (Elt F)) :=
  at_binary writes 84 _ (a := main_v19) (b := main_v36) (y := main_v37) ((fun l r => Host.dotGeneral dot_S36x1024x128_S36x128x1024_S36x1024x1024_2_1_1_2_0_0 none l r) : (⟨S36x1024x128, .f32⟩ : BufTy).Contents (Elt F) → (⟨S36x128x1024, .f32⟩ : BufTy).Contents (Elt F) → (⟨S36x1024x1024, .f32⟩ : BufTy).Contents (Elt F)) _ _ _ rfl (by ssa_nd) (by ssa_nd) (by ssa_nd)

theorem fin_main_cst_10 (m : (ℓ : Loc nD τ sig) → Buf (Elt F) ℓ) (c : Dev nD) :
    fin m c main_cst_10 = (constant S_ .f32 0x3DCCCCCD#32 : (⟨S_, .f32⟩ : BufTy).Contents (Elt F)) :=
  at_nullary writes 85 _ _ _ rfl (by ssa_nd)

theorem fin_main_v38 (m : (ℓ : Loc nD τ sig) → Buf (Elt F) ℓ) (c : Dev nD) :
    fin m c main_v38 = (broadcastInDim S36x1024x1024 ![] bcast_S_S36x1024x1024 (fin m c main_cst_10) : (⟨S36x1024x1024, .f32⟩ : BufTy).Contents (Elt F)) :=
  at_unary writes 86 _ _ _ _ rfl (by ssa_nd) (by ssa_nd)

theorem fin_main_v39 (m : (ℓ : Loc nD τ sig) → Buf (Elt F) ℓ) (c : Dev nD) :
    fin m c main_v39 = (Host.divf (fin m c main_v37) (fin m c main_v38) : (⟨S36x1024x1024, .f32⟩ : BufTy).Contents (Elt F)) :=
  at_binary writes 87 _ _ _ _ _ rfl (by ssa_nd) (by ssa_nd) (by ssa_nd)

theorem fin_main_v40 (m : (ℓ : Loc nD τ sig) → Buf (Elt F) ℓ) (c : Dev nD) :
    fin m c main_v40 = (Host.exp (fin m c main_v39) : (⟨S36x1024x1024, .f32⟩ : BufTy).Contents (Elt F)) :=
  at_unary writes 88 _ _ _ _ rfl (by ssa_nd) (by ssa_nd)

theorem fin_main_v41 (m : (ℓ : Loc nD τ sig) → Buf (Elt F) ℓ) (c : Dev nD) :
    fin m c main_v41 = (broadcastInDim S1x1024x1024 ![1, 2] bcast_S1024x1024_S1x1024x1024_1_2 (fin m c main_v35) : (⟨S1x1024x1024, .f32⟩ : BufTy).Contents (Elt F)) :=
  at_unary writes 89 _ _ _ _ rfl (by ssa_nd) (by ssa_nd)

theorem fin_main_v42 (m : (ℓ : Loc nD τ sig) → Buf (Elt F) ℓ) (c : Dev nD) :
    fin m c main_v42 = (broadcastInDim S36x1024x1024 ![0, 1, 2] bcast_S1x1024x1024_S36x1024x1024_0_1_2 (fin m c main_v41) : (⟨S36x1024x1024, .f32⟩ : BufTy).Contents (Elt F)) :=
  at_unary writes 90 _ _ _ _ rfl (by ssa_nd) (by ssa_nd)

theorem fin_main_v43 (m : (ℓ : Loc nD τ sig) → Buf (Elt F) ℓ) (c : Dev nD) :
    fin m c main_v43 = (mulf (fin m c main_v40) (fin m c main_v42) : (⟨S36x1024x1024, .f32⟩ : BufTy).Contents (Elt F)) :=
  at_binary writes 91 _ _ _ _ _ rfl (by ssa_nd) (by ssa_nd) (by ssa_nd)

theorem fin_main_cst_11 (m : (ℓ : Loc nD τ sig) → Buf (Elt F) ℓ) (c : Dev nD) :
    fin m c main_cst_11 = (constant S_ .f32 0x00000000#32 : (⟨S_, .f32⟩ : BufTy).Contents (Elt F)) :=
  at_nullary writes 92 _ _ _ rfl (by ssa_nd)

theorem fin_main_v44 (m : (ℓ : Loc nD τ sig) → Buf (Elt F) ℓ) (c : Dev nD) :
    fin m c main_v44 = (Host.reduceAdd (fin m c main_v43) (fin m c main_cst_11) reducesTo_S36x1024x1024_S36x1024_d2 h_S_ : (⟨S36x1024, .f32⟩ : BufTy).Contents (Elt F)) :=
  at_binary writes 93 _ (a := main_v43) (b := main_cst_11) (y := main_v44) ((fun x v => Host.reduceAdd x v reducesTo_S36x1024x1024_S36x1024_d2 h_S_) : (⟨S36x1024x1024, .f32⟩ : BufTy).Contents (Elt F) → (⟨S_, .f32⟩ : BufTy).Contents (Elt F) → (⟨S36x1024, .f32⟩ : BufTy).Contents (Elt F)) _ _ _ rfl (by ssa_nd) (by ssa_nd) (by ssa_nd)

theorem fin_main_v45 (m : (ℓ : Loc nD τ sig) → Buf (Elt F) ℓ) (c : Dev nD) :
    fin m c main_v45 = (Host.divf (fin m c main_v27) (fin m c main_v44) : (⟨S36x1024, .f32⟩ : BufTy).Contents (Elt F)) :=
  at_binary writes 94 _ _ _ _ _ rfl (by ssa_nd) (by ssa_nd) (by ssa_nd)

theorem fin_main_v46 (m : (ℓ : Loc nD τ sig) → Buf (Elt F) ℓ) (c : Dev nD) :
    fin m c main_v46 = (broadcastInDim S36x1024x1 ![0, 1] bcast_S36x1024_S36x1024x1_0_1 (fin m c main_v44) : (⟨S36x1024x1, .f32⟩ : BufTy).Contents (Elt F)) :=
  at_unary writes 95 _ _ _ _ rfl (by ssa_nd) (by ssa_nd)

theorem fin_main_v47 (m : (ℓ : Loc nD τ sig) → Buf (Elt F) ℓ) (c : Dev nD) :
    fin m c main_v47 = (broadcastInDim S36x1024x1024 ![0, 1, 2] bcast_S36x1024x1_S36x1024x1024_0_1_2 (fin m c main_v46) : (⟨S36x1024x1024, .f32⟩ : BufTy).Contents (Elt F)) :=
  at_unary writes 96 _ _ _ _ rfl (by ssa_nd) (by ssa_nd)

theorem fin_main_v48 (m : (ℓ : Loc nD τ sig) → Buf (Elt F) ℓ) (c : Dev nD) :
    fin m c main_v48 = (Host.divf (fin m c main_v43) (fin m c main_v47) : (⟨S36x1024x1024, .f32⟩ : BufTy).Contents (Elt F)) :=
  at_binary writes 97 _ _ _ _ _ rfl (by ssa_nd) (by ssa_nd) (by ssa_nd)

theorem fin_main_cst_12 (m : (ℓ : Loc nD τ sig) → Buf (Elt F) ℓ) (c : Dev nD) :
    fin m c main_cst_12 = (constant S_ .f32 0x3F800000#32 : (⟨S_, .f32⟩ : BufTy).Contents (Elt F)) :=
  at_nullary writes 98 _ _ _ rfl (by ssa_nd)

theorem fin_main_v49 (m : (ℓ : Loc nD τ sig) → Buf (Elt F) ℓ) (c : Dev nD) :
    fin m c main_v49 = (broadcastInDim S36x1024x1024 ![] bcast_S_S36x1024x1024 (fin m c main_cst_12) : (⟨S36x1024x1024, .f32⟩ : BufTy).Contents (Elt F)) :=
  at_unary writes 99 _ _ _ _ rfl (by ssa_nd) (by ssa_nd)

theorem fin_main_v50 (m : (ℓ : Loc nD τ sig) → Buf (Elt F) ℓ) (c : Dev nD) :
    fin m c main_v50 = (subf (fin m c main_v49) (fin m c main_v48) : (⟨S36x1024x1024, .f32⟩ : BufTy).Contents (Elt F)) :=
  at_binary writes 100 _ _ _ _ _ rfl (by ssa_nd) (by ssa_nd) (by ssa_nd)

theorem fin_main_v51 (m : (ℓ : Loc nD τ sig) → Buf (Elt F) ℓ) (c : Dev nD) :
    fin m c main_v51 = (Host.log (fin m c main_v50) : (⟨S36x1024x1024, .f32⟩ : BufTy).Contents (Elt F)) :=
  at_unary writes 101 _ _ _ _ rfl (by ssa_nd) (by ssa_nd)

theorem fin_main_cst_13 (m : (ℓ : Loc nD τ sig) → Buf (Elt F) ℓ) (c : Dev nD) :
    fin m c main_cst_13 = (constant S_ .f32 0x00000000#32 : (⟨S_, .f32⟩ : BufTy).Contents (Elt F)) :=
  at_nullary writes 102 _ _ _ rfl (by ssa_nd)

theorem fin_main_v52 (m : (ℓ : Loc nD τ sig) → Buf (Elt F) ℓ) (c : Dev nD) :
    fin m c main_v52 = (Host.reduceAdd (fin m c main_v51) (fin m c main_cst_13) reducesTo_S36x1024x1024_S36x1024_d2 h_S_ : (⟨S36x1024, .f32⟩ : BufTy).Contents (Elt F)) :=
  at_binary writes 103 _ (a := main_v51) (b := main_cst_13) (y := main_v52) ((fun x v => Host.reduceAdd x v reducesTo_S36x1024x1024_S36x1024_d2 h_S_) : (⟨S36x1024x1024, .f32⟩ : BufTy).Contents (Elt F) → (⟨S_, .f32⟩ : BufTy).Contents (Elt F) → (⟨S36x1024, .f32⟩ : BufTy).Contents (Elt F)) _ _ _ rfl (by ssa_nd) (by ssa_nd) (by ssa_nd)

theorem fin_main_cst_14 (m : (ℓ : Loc nD τ sig) → Buf (Elt F) ℓ) (c : Dev nD) :
    fin m c main_cst_14 = (constant S_ .f32 0x3F800000#32 : (⟨S_, .f32⟩ : BufTy).Contents (Elt F)) :=
  at_nullary writes 104 _ _ _ rfl (by ssa_nd)

theorem fin_main_v53 (m : (ℓ : Loc nD τ sig) → Buf (Elt F) ℓ) (c : Dev nD) :
    fin m c main_v53 = (broadcastInDim S36x1024 ![] bcast_S_S36x1024 (fin m c main_cst_14) : (⟨S36x1024, .f32⟩ : BufTy).Contents (Elt F)) :=
  at_unary writes 105 _ _ _ _ rfl (by ssa_nd) (by ssa_nd)

theorem fin_main_v54 (m : (ℓ : Loc nD τ sig) → Buf (Elt F) ℓ) (c : Dev nD) :
    fin m c main_v54 = (subf (fin m c main_v53) (fin m c main_v45) : (⟨S36x1024, .f32⟩ : BufTy).Contents (Elt F)) :=
  at_binary writes 106 _ _ _ _ _ rfl (by ssa_nd) (by ssa_nd) (by ssa_nd)

theorem fin_main_v55 (m : (ℓ : Loc nD τ sig) → Buf (Elt F) ℓ) (c : Dev nD) :
    fin m c main_v55 = (Host.log (fin m c main_v54) : (⟨S36x1024, .f32⟩ : BufTy).Contents (Elt F)) :=
  at_unary writes 107 _ _ _ _ rfl (by ssa_nd) (by ssa_nd)

theorem fin_main_v56 (m : (ℓ : Loc nD τ sig) → Buf (Elt F) ℓ) (c : Dev nD) :
    fin m c main_v56 = (subf (fin m c main_v52) (fin m c main_v55) : (⟨S36x1024, .f32⟩ : BufTy).Contents (Elt F)) :=
  at_binary writes 108 _ _ _ _ _ rfl (by ssa_nd) (by ssa_nd) (by ssa_nd)

theorem fin_main_v57 (m : (ℓ : Loc nD τ sig) → Buf (Elt F) ℓ) (c : Dev nD) :
    fin m c main_v57 = (Host.log (fin m c main_v45) : (⟨S36x1024, .f32⟩ : BufTy).Contents (Elt F)) :=
  at_unary writes 109 _ _ _ _ rfl (by ssa_nd) (by ssa_nd)

theorem fin_main_cst_15 (m : (ℓ : Loc nD τ sig) → Buf (Elt F) ℓ) (c : Dev nD) :
    fin m c main_cst_15 = (constant S_ .f32 0x00000000#32 : (⟨S_, .f32⟩ : BufTy).Contents (Elt F)) :=
  at_nullary writes 110 _ _ _ rfl (by ssa_nd)

theorem fin_main_v58 (m : (ℓ : Loc nD τ sig) → Buf (Elt F) ℓ) (c : Dev nD) :
    fin m c main_v58 = (Host.reduceAdd (fin m c main_v57) (fin m c main_cst_15) reducesTo_S36x1024_S36_d1 h_S_ : (⟨S36, .f32⟩ : BufTy).Contents (Elt F)) :=
  at_binary writes 111 _ (a := main_v57) (b := main_cst_15) (y := main_v58) ((fun x v => Host.reduceAdd x v reducesTo_S36x1024_S36_d1 h_S_) : (⟨S36x1024, .f32⟩ : BufTy).Contents (Elt F) → (⟨S_, .f32⟩ : BufTy).Contents (Elt F) → (⟨S36, .f32⟩ : BufTy).Contents (Elt F)) _ _ _ rfl (by ssa_nd) (by ssa_nd) (by ssa_nd)

theorem fin_main_cst_16 (m : (ℓ : Loc nD τ sig) → Buf (Elt F) ℓ) (c : Dev nD) :
    fin m c main_cst_16 = (constant S_ .f32 0x00000000#32 : (⟨S_, .f32⟩ : BufTy).Contents (Elt F)) :=
  at_nullary writes 112 _ _ _ rfl (by ssa_nd)

theorem fin_main_v59 (m : (ℓ : Loc nD τ sig) → Buf (Elt F) ℓ) (c : Dev nD) :
    fin m c main_v59 = (Host.reduceAdd (fin m c main_v56) (fin m c main_cst_16) reducesTo_S36x1024_S36_d1 h_S_ : (⟨S36, .f32⟩ : BufTy).Contents (Elt F)) :=
  at_binary writes 113 _ (a := main_v56) (b := main_cst_16) (y := main_v59) ((fun x v => Host.reduceAdd x v reducesTo_S36x1024_S36_d1 h_S_) : (⟨S36x1024, .f32⟩ : BufTy).Contents (Elt F) → (⟨S_, .f32⟩ : BufTy).Contents (Elt F) → (⟨S36, .f32⟩ : BufTy).Contents (Elt F)) _ _ _ rfl (by ssa_nd) (by ssa_nd) (by ssa_nd)

theorem fin_main_v60 (m : (ℓ : Loc nD τ sig) → Buf (Elt F) ℓ) (c : Dev nD) :
    fin m c main_v60 = (addf (fin m c main_v58) (fin m c main_v59) : (⟨S36, .f32⟩ : BufTy).Contents (Elt F)) :=
  at_binary writes 114 _ _ _ _ _ rfl (by ssa_nd) (by ssa_nd) (by ssa_nd)

theorem fin_main_v61 (m : (ℓ : Loc nD τ sig) → Buf (Elt F) ℓ) (c : Dev nD) :
    fin m c main_v61 = (Host.negf (fin m c main_v60) : (⟨S36, .f32⟩ : BufTy).Contents (Elt F)) :=
  at_unary writes 115 _ _ _ _ rfl (by ssa_nd) (by ssa_nd)

theorem fin_main_cst_17 (m : (ℓ : Loc nD τ sig) → Buf (Elt F) ℓ) (c : Dev nD) :
    fin m c main_cst_17 = (constant S_ .f32 0x44800000#32 : (⟨S_, .f32⟩ : BufTy).Contents (Elt F)) :=
  at_nullary writes 116 _ _ _ rfl (by ssa_nd)

theorem fin_main_v62 (m : (ℓ : Loc nD τ sig) → Buf (Elt F) ℓ) (c : Dev nD) :
    fin m c main_v62 = (broadcastInDim S36 ![] bcast_S_S36 (fin m c main_cst_17) : (⟨S36, .f32⟩ : BufTy).Contents (Elt F)) :=
  at_unary writes 117 _ _ _ _ rfl (by ssa_nd) (by ssa_nd)

theorem fin_main_v63 (m : (ℓ : Loc nD τ sig) → Buf (Elt F) ℓ) (c : Dev nD) :
    fin m c main_v63 = (Host.divf (fin m c main_v61) (fin m c main_v62) : (⟨S36, .f32⟩ : BufTy).Contents (Elt F)) :=
  at_binary writes 118 _ _ _ _ _ rfl (by ssa_nd) (by ssa_nd) (by ssa_nd)

theorem fin_main_cst_18 (m : (ℓ : Loc nD τ sig) → Buf (Elt F) ℓ) (c : Dev nD) :
    fin m c main_cst_18 = (constant S_ .f32 0x00000000#32 : (⟨S_, .f32⟩ : BufTy).Contents (Elt F)) :=
  at_nullary writes 119 _ _ _ rfl (by ssa_nd)

theorem fin_main_v64 (m : (ℓ : Loc nD τ sig) → Buf (Elt F) ℓ) (c : Dev nD) :
    fin m c main_v64 = (Host.reduceAdd (fin m c main_v63) (fin m c main_cst_18) reducesTo_S36_S_d0 h_S_ : (⟨S_, .f32⟩ : BufTy).Contents (Elt F)) :=
  at_binary writes 120 _ (a := main_v63) (b := main_cst_18) (y := main_v64) ((fun x v => Host.reduceAdd x v reducesTo_S36_S_d0 h_S_) : (⟨S36, .f32⟩ : BufTy).Contents (Elt F) → (⟨S_, .f32⟩ : BufTy).Contents (Elt F) → (⟨S_, .f32⟩ : BufTy).Contents (Elt F)) _ _ _ rfl (by ssa_nd) (by ssa_nd) (by ssa_nd)

theorem fin_main_cst_19 (m : (ℓ : Loc nD τ sig) → Buf (Elt F) ℓ) (c : Dev nD) :
    fin m c main_cst_19 = (constant S_ .f32 0x3CF5C28F#32 : (⟨S_, .f32⟩ : BufTy).Contents (Elt F)) :=
  at_nullary writes 121 _ _ _ rfl (by ssa_nd)

theorem fin_main_v65 (m : (ℓ : Loc nD τ sig) → Buf (Elt F) ℓ) (c : Dev nD) :
    fin m c main_v65 = (mulf (fin m c main_cst_19) (fin m c main_v64) : (⟨S_, .f32⟩ : BufTy).Contents (Elt F)) :=
  at_binary writes 122 _ _ _ _ _ rfl (by ssa_nd) (by ssa_nd) (by ssa_nd)

theorem fin_main_v66 (m : (ℓ : Loc nD τ sig) → Buf (Elt F) ℓ) (c : Dev nD) :
    fin m c main_v66 = (addf (fin m c main_v65) (fin m c main_v5) : (⟨S_, .f32⟩ : BufTy).Contents (Elt F)) :=
  at_binary writes 123 _ _ _ _ _ rfl (by ssa_nd) (by ssa_nd) (by ssa_nd)

end Cert.ReferenceIdeal.RunV

end
-- ==== Proof.RefCE.lean ====
/-
  The reference's cross entropy as one term of its operations over the logits and the label words, and its value:
  minus the quotient by 4096 of the sum over the rows of the log-softmax at the row's label. When every label word
  is below 400 the wrap of negative labels keeps the word, the range test is one, the clamp is the identity, and the
  gather reads the log-softmax at the label's column.
-/
import proofs.«404227_j85306640433706_2_alg».proof.Proof.Gen.ReferenceIdeal
import proofs.«404227_j85306640433706_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.Lib.ReduceAll
import Idealize.ShloMosaic.Lib.StableHlo.Predicate
import Idealize.ShloMosaic.PureOps.Ideal.Laws

noncomputable section

open scoped BigOperators

namespace Cert.ReferenceIdeal.RefCE

open Cert.ReferenceIdeal Cert.ReferenceIdeal.Gen Idealize.ShloMosaic Idealize.ShloMosaic.ValueIdx

/-! ## Reductions over one axis of the logits -/

/-- The witness naming the source index of a reduction over the columns. -/
theorem red1 : S4096x400.Reduces [1] S4096 := by decide

/-- Row r with column c inserted is the index (r, c). -/
theorem lift1 (r : Fin 4096) (c : Fin 400) : red1.lift (ix1 r) c = ix2 r c := by
  funext a
  match a with
  | ⟨0, _⟩ => exact Fin.ext rfl
  | ⟨1, _⟩ => exact Fin.ext rfl

/-- The maximum over the columns from minus infinity is the row's largest entry. -/
theorem rowMax_apply (P : FVec Ideal S4096x400 .f32) (r : Fin 4096) :
    Host.reduce FloatOps.maximumf P (constant (F := Ideal) S_ .f32 0xFF800000#32) reducesTo_S4096x400_S4096_d1 h_S_ (ix1 r)
      = Cert.Spec.rowMax (fun (r : Fin 4096) (c : Fin 400) => P (ix2 r c)) r := by
  rw [Host.reduce_eq_fold_single FloatOps.maximumf P _ reducesTo_S4096x400_S4096_d1 red1 h_S_ (ix1 r)]
  show (Finset.univ : Finset (Fin 400)).fold max (Ideal.ofBits .f32 0xFF800000#32) (fun c : Fin 400 => P (red1.lift (ix1 r) c)) = _
  rw [Cert.Spec.ofBits_neg_inf]
  simp only [lift1]
  rfl

/-- The sum over the columns from zero is the row's sum. -/
theorem rowSum_apply (X : FVec Ideal S4096x400 .f32) (r : Fin 4096) :
    Host.reduceAdd X (constant (F := Ideal) S_ .f32 0x00000000#32) reducesTo_S4096x400_S4096_d1 h_S_ (ix1 r)
      = ∑ c : Fin 400, X (ix2 r c) := by
  rw [hostReduceAdd_apply, Ideal.hostReduceAdd_single reducesTo_S4096x400_S4096_d1 red1, constant_apply,
    Ideal.ofBits_zero_f32, zero_add]
  show ∑ c : Fin 400, X (red1.lift (ix1 r) c) = _
  simp only [lift1]

/-- The host's exponential at an index. -/
theorem hostExp_apply {s : Shape} (x : FVec Ideal s .f32) (i : s.Idx) : Host.exp x i = Ideal.exp (x i) := rfl

/-- The host's logarithm at an index. -/
theorem hostLog_apply {s : Shape} (x : FVec Ideal s .f32) (i : s.Idx) : Host.log x i = Ideal.log (x i) := rfl

/-! ## A vector as a column, a column along the rows -/

/-- A vector laid out as a column reads, in row r, the vector's entry r. -/
theorem col_apply {α : Type} (v : S4096.Idx → α) (r : Fin 4096) :
    broadcastInDim S4096x1 ![0] bcast_S4096_S4096x1_0 v (ix2 r (0 : Fin 1)) = v (ix1 r) :=
  broadcastInDim_apply _ _ v _ (ix1 r) (fun a => by match a with | ⟨0, _⟩ => rfl)

/-- A column copied along the rows reads, at (r, c), the column's entry r. -/
theorem rows_apply {α : Type} (v : S4096x1.Idx → α) (r : Fin 4096) (c : Fin 400) :
    broadcastInDim S4096x400 ![0, 1] bcast_S4096x1_S4096x400_0_1 v (ix2 r c) = v (ix2 r (0 : Fin 1)) :=
  broadcastInDim_apply _ _ v _ (ix2 r (0 : Fin 1)) (fun a => by match a with | ⟨0, _⟩ => rfl | ⟨1, _⟩ => rfl)

/-! ## The log-softmax -/

/-- The log-softmax's operations in the reference's order. -/
def lsm {F : FTy → Type} [FloatOps F] (P : FVec F S4096x400 .f32) : FVec F S4096x400 .f32 :=
  let cst : FVec F S_ .f32 := constant S_ .f32 0xFF800000#32
  let a0 : FVec F S4096 .f32 := Host.reduce FloatOps.maximumf P cst reducesTo_S4096x400_S4096_d1 h_S_
  let cst_0 : FVec F S_ .f32 := constant S_ .f32 0xFF800000#32
  let a1 : FVec F S4096 .f32 := broadcastInDim S4096 ![] bcast_S_S4096 cst_0
  let a2 : FVec F S4096 .f32 := maximumf a1 a0
  let a3 : FVec F S4096x1 .f32 := broadcastInDim S4096x1 ![0] bcast_S4096_S4096x1_0 a2
  let a4 : FVec F S4096x400 .f32 := broadcastInDim S4096x400 ![0, 1] bcast_S4096x1_S4096x400_0_1 a3
  let a5 : FVec F S4096x400 .f32 := subf P a4
  let a6 : FVec F S4096x400 .f32 := Host.exp a5
  let cst_1 : FVec F S_ .f32 := constant S_ .f32 0x00000000#32
  let a7 : FVec F S4096 .f32 := Host.reduceAdd a6 cst_1 reducesTo_S4096x400_S4096_d1 h_S_
  let a8 : FVec F S4096x1 .f32 := broadcastInDim S4096x1 ![0] bcast_S4096_S4096x1_0 a7
  let a9 : FVec F S4096x1 .f32 := Host.log a8
  let a10 : FVec F S4096x400 .f32 := broadcastInDim S4096x400 ![0, 1] bcast_S4096x1_S4096x400_0_1 a9
  subf a5 a10

/-- The shifted logits: each entry minus its row's largest. -/
theorem shifted_apply (P : FVec Ideal S4096x400 .f32) (r : Fin 4096) (c : Fin 400) :
    subf P (broadcastInDim S4096x400 ![0, 1] bcast_S4096x1_S4096x400_0_1
      (broadcastInDim S4096x1 ![0] bcast_S4096_S4096x1_0
        (maximumf (broadcastInDim S4096 ![] bcast_S_S4096 (constant (F := Ideal) S_ .f32 0xFF800000#32))
          (Host.reduce FloatOps.maximumf P (constant (F := Ideal) S_ .f32 0xFF800000#32) reducesTo_S4096x400_S4096_d1 h_S_))))
      (ix2 r c)
      = Cert.Spec.shifted (fun (r : Fin 4096) (c : Fin 400) => P (ix2 r c)) r c := by
  rw [subf_apply, rows_apply, col_apply, maximumf_apply, rowMax_apply, broadcastInDim_scalar_apply, constant_apply,
    Cert.Spec.ofBits_neg_inf, max_eq_right bot_le]
  rfl

/-- The log-softmax at (r, c). -/
theorem lsm_apply (P : FVec Ideal S4096x400 .f32) (r : Fin 4096) (c : Fin 400) :
    lsm (F := Ideal) P (ix2 r c) = Cert.Spec.logp (fun (r : Fin 4096) (c : Fin 400) => P (ix2 r c)) r c := by
  unfold lsm
  dsimp only
  rw [subf_apply, shifted_apply, rows_apply, hostLog_apply, col_apply, rowSum_apply]
  unfold Cert.Spec.logp Cert.Spec.lse
  refine congrArg (fun s => _ - Ideal.log s) (Finset.sum_congr rfl fun k _ => ?_)
  rw [hostExp_apply, shifted_apply]

/-! ## A label word below 400 -/

open Idealize.ShloMosaic.StableHlo.Predicate

/-- Integer comparison of arrays at an index. -/
theorem cmpi_apply {s : Shape} {w : Nat} (p : CmpIPredicate) (a b : IVec s w) (i : s.Idx) :
    cmpi p a b i = IntOp.cmpi p (a i) (b i) := rfl

/-- The bitwise and of arrays at an index. -/
theorem andi_apply {s : Shape} {w : Nat} (a b : IVec s w) (i : s.Idx) : andi a b i = IntOp.andi (a i) (b i) := rfl

/-- Read as a signed word it is not negative. -/
theorem slt_zero (w : BitVec 32) (h : w.toNat < 400) : IntOp.cmpi .slt w 0#32 = 0#1 := by
  refine eq_zero_of_ne_one fun e => ?_
  have := (slt_iff_toNat (a := w) (b := 0#32) (by omega) (by decide)).mp e
  exact absurd this (by simp)

theorem sge_zero (w : BitVec 32) (h : w.toNat < 400) : IntOp.cmpi .sge w 0#32 = 1#1 :=
  (sge_iff_toNat (a := w) (b := 0#32) (by omega) (by decide)).mpr (by simp)

theorem sle_399 (w : BitVec 32) (h : w.toNat < 400) : IntOp.cmpi .sle w 399#32 = 1#1 :=
  (sle_iff_toNat (a := w) (b := 399#32) (by omega) (by decide)).mpr (by
    have : (399#32 : BitVec 32).toNat = 399 := by decide
    omega)

/-- Read as a signed word and clamped to the columns it is its own value. -/
theorem clamp_toNat (w : BitVec 32) (h : w.toNat < 400) : min w.toInt.toNat 399 = w.toNat := by
  rw [toInt_eq_toNat_of_lt (a := w) (by omega), Int.toNat_natCast]
  omega

/-! ## The labels: wrapped, reshaped, tested -/

/-- Negative labels wrapped by 400, as a [4096, 1, 1] array. -/
def wrapped (l1 : IVec S4096x1 32) : IVec S4096x1x1 32 :=
  let c : IVec S_ 32 := constantI S_ 32 0#32
  let b0 : IVec S4096x1 32 := broadcastInDim S4096x1 ![] bcast_S_S4096x1 c
  let b1 : IVec S4096x1 1 := cmpi .slt l1 b0
  let c_0 : IVec S_ 32 := constantI S_ 32 400#32
  let b2 : IVec S4096x1 32 := broadcastInDim S4096x1 ![] bcast_S_S4096x1 c_0
  let b3 : IVec S4096x1 32 := addi l1 b2
  let b4 : IVec S4096x1 32 := select b1 b3 l1
  shapeCast S4096x1x1 b4 shapeCasts_S4096x1_S4096x1x1

/-- The reshape reads row r of the column. -/
theorem cube_apply {α : Type} (v : S4096x1.Idx → α) (r : Fin 4096) :
    shapeCast S4096x1x1 v shapeCasts_S4096x1_S4096x1x1 (ix3 r (0 : Fin 1) (0 : Fin 1)) = v (ix2 r (0 : Fin 1)) :=
  shapeCast_apply v _ _ (ix2 r (0 : Fin 1)) (by
    rw [Shape.rowMajor_val_two, Shape.rowMajor_val_three]
    show r.val * 1 + 0 = (r.val * 1 + 0) * 1 + 0
    omega)

/-- A word below 400 is kept by the wrap. -/
theorem wrapped_apply (l1 : IVec S4096x1 32) (r : Fin 4096) (h : (l1 (ix2 r (0 : Fin 1))).toNat < 400) :
    wrapped l1 (ix3 r (0 : Fin 1) (0 : Fin 1)) = l1 (ix2 r (0 : Fin 1)) := by
  unfold wrapped
  dsimp only
  rw [cube_apply, select_apply, cmpi_apply, broadcastInDim_scalar_apply, constantI_apply, slt_zero _ h, select_zero]

/-- The range test 0 ≤ · ≤ 399, all over the last axis. -/
def inRange (b5 : IVec S4096x1x1 32) : IVec S4096x1 1 :=
  let c_1 : IVec S1 32 := constantI S1 32 399#32
  let c_2 : IVec S_ 32 := constantI S_ 32 0#32
  let b6 : IVec S4096x1x1 32 := broadcastInDim S4096x1x1 ![] bcast_S_S4096x1x1 c_2
  let b7 : IVec S4096x1x1 1 := cmpi .sge b5 b6
  let b8 : IVec S1x1x1 32 := broadcastInDim S1x1x1 ![2] bcast_S1_S1x1x1_2 c_1
  let b9 : IVec S4096x1x1 32 := broadcastInDim S4096x1x1 ![0, 1, 2] bcast_S1x1x1_S4096x1x1_0_1_2 b8
  let b10 : IVec S4096x1x1 1 := cmpi .sle b5 b9
  let b11 : IVec S4096x1x1 1 := andi b7 b10
  let c_3 : IVec S_ 1 := constantI S_ 1 1#1
  Host.reduce IntOp.andi b11 c_3 reducesTo_S4096x1x1_S4096x1_d2 h_S_

/-- The witness naming the source index of the reduction over the last axis. -/
theorem red2 : S4096x1x1.Reduces [2] S4096x1 := by decide

theorem lift2 (r : Fin 4096) (k : Fin 1) : red2.lift (ix2 r (0 : Fin 1)) k = ix3 r (0 : Fin 1) (0 : Fin 1) := by
  funext a
  match a with
  | ⟨0, _⟩ => exact Fin.ext rfl
  | ⟨1, _⟩ => exact Fin.ext rfl
  | ⟨2, _⟩ => exact Fin.ext (by have := k.isLt; show k.val = 0; omega)

/-- The reduction by and over the last axis, of extent one, is the entry itself. -/
theorem all_apply (m : IVec S4096x1x1 1) (r : Fin 4096) (h : m (ix3 r (0 : Fin 1) (0 : Fin 1)) = 1#1) :
    Host.reduce IntOp.andi m (constantI S_ 1 1#1) reducesTo_S4096x1x1_S4096x1_d2 h_S_ (ix2 r (0 : Fin 1)) = 1#1 := by
  rw [Host.reduce_eq_fold_single IntOp.andi m _ reducesTo_S4096x1x1_S4096x1_d2 red2 h_S_ (ix2 r (0 : Fin 1))]
  show (Finset.univ : Finset (Fin 1)).fold IntOp.andi (1#1) (fun k : Fin 1 => m (red2.lift (ix2 r (0 : Fin 1)) k)) = 1#1
  simp only [lift2, h]
  rw [Finset.univ_unique, Finset.fold_singleton]
  rfl

/-- The 399 read at any index of the [4096, 1, 1] array. -/
theorem hi_apply (r : Fin 4096) :
    broadcastInDim S4096x1x1 ![0, 1, 2] bcast_S1x1x1_S4096x1x1_0_1_2
      (broadcastInDim S1x1x1 ![2] bcast_S1_S1x1x1_2 (constantI S1 32 399#32)) (ix3 r (0 : Fin 1) (0 : Fin 1)) = 399#32 := by
  rw [broadcastInDim_apply _ _ _ _ (ix3 (0 : Fin 1) (0 : Fin 1) (0 : Fin 1))
    (fun a => by match a with | ⟨0, _⟩ => rfl | ⟨1, _⟩ => rfl | ⟨2, _⟩ => rfl)]
  rw [broadcastInDim_apply _ _ _ _ (ix1 (0 : Fin 1)) (fun a => by match a with | ⟨0, _⟩ => rfl)]
  rfl

/-- A word below 400 passes the test. -/
theorem inRange_apply (b5 : IVec S4096x1x1 32) (r : Fin 4096) (h : (b5 (ix3 r (0 : Fin 1) (0 : Fin 1))).toNat < 400) :
    inRange b5 (ix2 r (0 : Fin 1)) = 1#1 := by
  unfold inRange
  dsimp only
  refine all_apply _ r ?_
  rw [andi_apply, cmpi_apply, cmpi_apply, hi_apply, broadcastInDim_scalar_apply, constantI_apply, sge_zero _ h, sle_399 _ h]
  rfl

/-! ## The gather -/

/-- The gather's dimension numbers: rows batched, the column taken from the start index. -/
abbrev gd : GatherDims S4096x400 S4096x1x1 S4096x1 := gather_S4096x400_S4096x1x1_S4096x1_n_1_0_0_1_2_11

/-- The gather reads, in row r, the operand at the column the start index names. -/
theorem gather_apply {α : Type} (X : S4096x400.Idx → α) (idx : IVec S4096x1x1 32) (r : Fin 4096) (w : BitVec 32)
    (hw : w.toNat < 400) (e : idx (ix3 r (0 : Fin 1) (0 : Fin 1)) = w) :
    Host.gather gd X idx (ix2 r (0 : Fin 1)) = X (ix2 r ⟨w.toNat, hw⟩) := by
  unfold Host.gather
  refine congrArg X (funext fun a => Fin.ext ?_)
  match a with
  | ⟨0, _⟩ =>
    show gd.start (ix2 r (0 : Fin 1)) idx 0 + gd.batchCoord (ix2 r (0 : Fin 1)) 0 + gd.offCoord (ix2 r (0 : Fin 1)) 0 = r.val
    rw [gd.start_batching _ _ _ (List.mem_singleton.mpr rfl),
      gd.offCoord_eq_zero _ _ (fun h => ((gd.mem_sKept _).mp h).2 (List.mem_singleton.mpr rfl)),
      Nat.zero_add, Nat.add_zero]
    rfl
  | ⟨1, _⟩ =>
    show gd.start (ix2 r (0 : Fin 1)) idx 1 + gd.batchCoord (ix2 r (0 : Fin 1)) 1 + gd.offCoord (ix2 r (0 : Fin 1)) 1 = w.toNat
    rw [gd.batchCoord_eq_zero _ _ (fun h => absurd (List.mem_singleton.mp h) (by decide)),
      gd.offCoord_eq_zero _ _ (fun h => ((gd.mem_sKept _).mp h).1 (List.mem_singleton.mpr rfl)),
      Nat.add_zero]
    unfold GatherDims.start
    rw [dif_pos (show (1 : Fin 2) ∈ gd.startIndexMap from List.mem_singleton.mpr rfl)]
    have hsi : gd.siIdx (ix2 r (0 : Fin 1)) ⟨List.idxOf (1 : Fin 2) gd.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi, e]
    exact clamp_toNat w hw

/-! ## The entry at the label -/

/-- The reference's take along the columns: the gather at the wrapped labels, kept where the label is in range. -/
def take {F : FTy → Type} [FloatOps F] (X : FVec F S4096x400 .f32) (l1 : IVec S4096x1 32) : FVec F S4096x1 .f32 :=
  let b5 : IVec S4096x1x1 32 := wrapped l1
  let b12 : IVec S4096x1 1 := inRange b5
  let b13 : FVec F S4096x1 .f32 := Host.gather gather_S4096x400_S4096x1x1_S4096x1_n_1_0_0_1_2_11 X b5
  let cstn : FVec F S_ .f32 := constant S_ .f32 0x7FC00000#32
  let b14 : FVec F S4096x1 .f32 := broadcastInDim S4096x1 ![] bcast_S_S4096x1 cstn
  select b12 b13 b14

/-- With the label word below 400 the take reads the operand at the label's column. -/
theorem take_apply {F : FTy → Type} [FloatOps F] (X : FVec F S4096x400 .f32) (l1 : IVec S4096x1 32) (r : Fin 4096)
    (h : (l1 (ix2 r (0 : Fin 1))).toNat < 400) :
    take X l1 (ix2 r (0 : Fin 1)) = X (ix2 r ⟨(l1 (ix2 r (0 : Fin 1))).toNat, h⟩) := by
  have e := wrapped_apply l1 r h
  unfold take
  dsimp only
  rw [select_apply, inRange_apply _ r (by rw [e]; exact h), select_one]
  exact gather_apply X _ r _ h e

/-! ## The cross entropy -/

/-- The log-softmax of the logits, then the entry at each row's label, summed over the rows, divided by 4096 and
    negated: the operations in the order the reference applies them. -/
def ceTerm {F : FTy → Type} [FloatOps F] (P : FVec F S4096x400 .f32) (L : IVec S4096 32) : FVec F S_ .f32 :=
  -- the log-softmax
  let cst : FVec F S_ .f32 := constant S_ .f32 0xFF800000#32
  let a0 : FVec F S4096 .f32 := Host.reduce FloatOps.maximumf P cst reducesTo_S4096x400_S4096_d1 h_S_
  let cst_0 : FVec F S_ .f32 := constant S_ .f32 0xFF800000#32
  let a1 : FVec F S4096 .f32 := broadcastInDim S4096 ![] bcast_S_S4096 cst_0
  let a2 : FVec F S4096 .f32 := maximumf a1 a0
  let a3 : FVec F S4096x1 .f32 := broadcastInDim S4096x1 ![0] bcast_S4096_S4096x1_0 a2
  let a4 : FVec F S4096x400 .f32 := broadcastInDim S4096x400 ![0, 1] bcast_S4096x1_S4096x400_0_1 a3
  let a5 : FVec F S4096x400 .f32 := subf P a4
  let a6 : FVec F S4096x400 .f32 := Host.exp a5
  let cst_1 : FVec F S_ .f32 := constant S_ .f32 0x00000000#32
  let a7 : FVec F S4096 .f32 := Host.reduceAdd a6 cst_1 reducesTo_S4096x400_S4096_d1 h_S_
  let a8 : FVec F S4096x1 .f32 := broadcastInDim S4096x1 ![0] bcast_S4096_S4096x1_0 a7
  let a9 : FVec F S4096x1 .f32 := Host.log a8
  let a10 : FVec F S4096x400 .f32 := broadcastInDim S4096x400 ![0, 1] bcast_S4096x1_S4096x400_0_1 a9
  let a11 : FVec F S4096x400 .f32 := subf a5 a10
  -- the labels as a column
  let l1 : IVec S4096x1 32 := broadcastInDim S4096x1 ![0] bcast_S4096_S4096x1_0 L
  -- the entry at the label
  let c : IVec S_ 32 := constantI S_ 32 0#32
  let b0 : IVec S4096x1 32 := broadcastInDim S4096x1 ![] bcast_S_S4096x1 c
  let b1 : IVec S4096x1 1 := cmpi .slt l1 b0
  let c_0 : IVec S_ 32 := constantI S_ 32 400#32
  let b2 : IVec S4096x1 32 := broadcastInDim S4096x1 ![] bcast_S_S4096x1 c_0
  let b3 : IVec S4096x1 32 := addi l1 b2
  let b4 : IVec S4096x1 32 := select b1 b3 l1
  let b5 : IVec S4096x1x1 32 := shapeCast S4096x1x1 b4 shapeCasts_S4096x1_S4096x1x1
  let c_1 : IVec S1 32 := constantI S1 32 399#32
  let c_2 : IVec S_ 32 := constantI S_ 32 0#32
  let b6 : IVec S4096x1x1 32 := broadcastInDim S4096x1x1 ![] bcast_S_S4096x1x1 c_2
  let b7 : IVec S4096x1x1 1 := cmpi .sge b5 b6
  let b8 : IVec S1x1x1 32 := broadcastInDim S1x1x1 ![2] bcast_S1_S1x1x1_2 c_1
  let b9 : IVec S4096x1x1 32 := broadcastInDim S4096x1x1 ![0, 1, 2] bcast_S1x1x1_S4096x1x1_0_1_2 b8
  let b10 : IVec S4096x1x1 1 := cmpi .sle b5 b9
  let b11 : IVec S4096x1x1 1 := andi b7 b10
  let c_3 : IVec S_ 1 := constantI S_ 1 1#1
  let b12 : IVec S4096x1 1 := Host.reduce IntOp.andi b11 c_3 reducesTo_S4096x1x1_S4096x1_d2 h_S_
  let b13 : FVec F S4096x1 .f32 := Host.gather gather_S4096x400_S4096x1x1_S4096x1_n_1_0_0_1_2_11 a11 b5
  let cstn : FVec F S_ .f32 := constant S_ .f32 0x7FC00000#32
  let b14 : FVec F S4096x1 .f32 := broadcastInDim S4096x1 ![] bcast_S_S4096x1 cstn
  let b15 : FVec F S4096x1 .f32 := select b12 b13 b14
  -- the mean, negated
  let z : FVec F S_ .f32 := constant S_ .f32 0x00000000#32
  let s : FVec F S_ .f32 := Host.reduceAdd b15 z reducesTo_S4096x1_S_d0_1 h_S_
  let n : FVec F S_ .f32 := constant S_ .f32 0x45800000#32
  let q : FVec F S_ .f32 := Host.divf s n
  Host.negf q

/-- The same operations grouped: the take of the log-softmax at the labels' column, summed, divided and negated. -/
theorem ceTerm_grouped {F : FTy → Type} [FloatOps F] (P : FVec F S4096x400 .f32) (L : IVec S4096 32) :
    ceTerm P L = Host.negf (Host.divf
      (Host.reduceAdd (take (lsm P) (broadcastInDim S4096x1 ![0] bcast_S4096_S4096x1_0 L)) (constant S_ .f32 0x00000000#32)
        reducesTo_S4096x1_S_d0_1 h_S_)
      (constant S_ .f32 0x45800000#32)) := rfl

/-- The host's negation at an index. -/
theorem hostNegf_apply {s : Shape} (x : FVec Ideal s .f32) (i : s.Idx) : Host.negf x i = -(x i) := rfl

theorem ceTerm_eq (P : FVec Ideal S4096x400 .f32) (L : IVec S4096 32) (hL : ∀ r : Fin 4096, (L (ix1 r)).toNat < 400) :
    ceTerm (F := Ideal) P L = fun _ => Cert.Spec.ceRef (fun (r : Fin 4096) (c : Fin 400) => P (ix2 r c)) (fun r => L (ix1 r)) := by
  funext j
  rw [ceTerm_grouped, hostNegf_apply, hostDivf_apply, hostReduceAdd_apply,
    Ideal.hostReduceAdd_total reducesTo_S4096x1_S_d0_1 (fun b => b.elim0), constant_apply, constant_apply,
    Ideal.ofBits_zero_f32, zero_add, sum_idx2]
  unfold Cert.Spec.ceRef Cert.Spec.c4096
  refine congrArg (fun s => -(Ideal.div s _)) (Finset.sum_congr rfl fun r _ => ?_)
  have hr : (broadcastInDim S4096x1 ![0] bcast_S4096_S4096x1_0 L (ix2 r (0 : Fin 1))).toNat < 400 := by
    rw [col_apply]; exact hL r
  rw [Fin.sum_univ_one, take_apply _ _ r hr, lsm_apply]
  refine congrArg (Cert.Spec.logp _ r) (Fin.ext ?_)
  show (broadcastInDim S4096x1 ![0] bcast_S4096_S4096x1_0 L (ix2 r (0 : Fin 1))).toNat = (L (ix1 r)).toNat % 400
  rw [col_apply, Nat.mod_eq_of_lt (hL r)]

end Cert.ReferenceIdeal.RefCE

end
-- ==== Proof.RefNceA.lean ====
/-
  The first half of the reference's contrastive term, as pure terms of the pair tensor X (36 blocks of 1024 rows of 128
  features), and what each is at an index:
  * the similarity of every row with its partner half a block further, divided by the temperature, exponentiated;
  * the exponentiated scaled similarity of every two rows of a block, times one off the diagonal and zero on it;
  * the sum of the latter over the second row.
-/
import proofs.«404227_j85306640433706_2_alg».proof.Proof.Gen.ReferenceIdeal
import proofs.«404227_j85306640433706_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StackMember

noncomputable section

open scoped BigOperators

namespace Cert.ReferenceIdeal.RefNceA

open Cert.ReferenceIdeal Cert.ReferenceIdeal.Gen Idealize.ShloMosaic Idealize.ShloMosaic.ValueIdx

/-! ## The terms -/

/-- exp of (the row-by-row product of X with X's halves swapped, summed over the features, over the temperature). -/
def posT {F : FTy → Type} [FloatOps F] (X : FVec F S36x1024x128 .f32) : FVec F S36x1024 .f32 :=
  let v20 : FVec F S36x512x128 .f32 := extractStridedSlice S36x512x128 ![0, 512, 0] X slices_S36x1024x128_S36x512x128_0_512_0
  let v21 : FVec F S36x512x128 .f32 := extractStridedSlice S36x512x128 ![0, 0, 0] X slices_S36x1024x128_S36x512x128_0_0_0
  let v22 : FVec F S36x1024x128 .f32 := concatenate S36x1024x128 1 [⟨S36x512x128, v20⟩, ⟨S36x512x128, v21⟩] concatenates_S36x512x128_S36x512x128_S36x1024x128_d1
  let v23 : FVec F S36x1024x128 .f32 := mulf X v22
  let cst_6 : FVec F S_ .f32 := constant S_ .f32 0x00000000#32
  let v24 : FVec F S36x1024 .f32 := Host.reduceAdd v23 cst_6 reducesTo_S36x1024x128_S36x1024_d2 h_S_
  let cst_7 : FVec F S_ .f32 := constant S_ .f32 0x3DCCCCCD#32
  let v25 : FVec F S36x1024 .f32 := broadcastInDim S36x1024 ![] bcast_S_S36x1024 cst_7
  let v26 : FVec F S36x1024 .f32 := Host.divf v24 v25
  Host.exp v26

/-- exp of (X times its transpose, block by block, over the temperature), times the mask that is one minus the
    indicator of the diagonal. -/
def allProbT {F : FTy → Type} [FloatOps F] (X : FVec F S36x1024x128 .f32) : FVec F S36x1024x1024 .f32 :=
  let v28 : IVec S1024x1024 32 := iotaInDim S1024x1024 32 0
  let v29 : IVec S1024x1024 32 := iotaInDim S1024x1024 32 1
  let c_8 : IVec S_ 32 := constantI S_ 32 0#32
  let v30 : IVec S1024x1024 32 := broadcastInDim S1024x1024 ![] bcast_S_S1024x1024 c_8
  let v31 : IVec S1024x1024 32 := addi v28 v30
  let v32 : IVec S1024x1024 1 := cmpi .eq v31 v29
  let v33 : FVec F S1024x1024 .f32 := uitofp .f32 v32
  let cst_9 : FVec F S_ .f32 := constant S_ .f32 0x3F800000#32
  let v34 : FVec F S1024x1024 .f32 := broadcastInDim S1024x1024 ![] bcast_S_S1024x1024 cst_9
  let v35 : FVec F S1024x1024 .f32 := subf v34 v33
  let v36 : FVec F S36x128x1024 .f32 := transpose S36x128x1024 [0, 2, 1] X transposes_S36x1024x128_S36x128x1024_0_2_1
  let v37 : FVec F S36x1024x1024 .f32 := Host.dotGeneral dot_S36x1024x128_S36x128x1024_S36x1024x1024_2_1_1_2_0_0 none X v36
  let cst_10 : FVec F S_ .f32 := constant S_ .f32 0x3DCCCCCD#32
  let v38 : FVec F S36x1024x1024 .f32 := broadcastInDim S36x1024x1024 ![] bcast_S_S36x1024x1024 cst_10
  let v39 : FVec F S36x1024x1024 .f32 := Host.divf v37 v38
  let v40 : FVec F S36x1024x1024 .f32 := Host.exp v39
  let v41 : FVec F S1x1024x1024 .f32 := broadcastInDim S1x1024x1024 ![1, 2] bcast_S1024x1024_S1x1024x1024_1_2 v35
  let v42 : FVec F S36x1024x1024 .f32 := broadcastInDim S36x1024x1024 ![0, 1, 2] bcast_S1x1024x1024_S36x1024x1024_0_1_2 v41
  mulf v40 v42

/-- The sum of the masked exponentials over the second row. -/
def allDivT {F : FTy → Type} [FloatOps F] (X : FVec F S36x1024x128 .f32) : FVec F S36x1024 .f32 :=
  let cst_11 : FVec F S_ .f32 := constant S_ .f32 0x00000000#32
  Host.reduceAdd (allProbT X) cst_11 reducesTo_S36x1024x1024_S36x1024_d2 h_S_

/-! ## The layout steps at an index -/

/-- The two halves of an array along its rows, swapped: row i of the result is row (i + 512) mod 1024 of the array. -/
theorem swapHalves_apply {α : Type} (X : S36x1024x128.Idx → α) (p : Fin 36) (i : Fin 1024) (k : Fin 128) :
    concatenate S36x1024x128 1
        [⟨S36x512x128, extractStridedSlice S36x512x128 ![0, 512, 0] X slices_S36x1024x128_S36x512x128_0_512_0⟩,
         ⟨S36x512x128, extractStridedSlice S36x512x128 ![0, 0, 0] X slices_S36x1024x128_S36x512x128_0_0_0⟩]
        concatenates_S36x512x128_S36x512x128_S36x1024x128_d1 (ix3 p i k)
      = X (ix3 p (Cert.Spec.rot i) k) := by
  by_cases hi : i.val < 512
  · refine (concatenate_pair_apply_left (t := S36x1024x128) (s₁ := S36x512x128) (s₂ := S36x512x128) (1 : Fin 3) _ _ _ (ix3 p i k) rfl (ix3 p (⟨i.val, hi⟩ : Fin 512) k)
      (fun b => by match b with | ⟨0, _⟩ => rfl | ⟨1, _⟩ => rfl | ⟨2, _⟩ => rfl)).trans ?_
    exact slice3_axis1_apply 512 X _ p ⟨i.val, hi⟩ k (Cert.Spec.rot i)
      (by show (i.val + 512) % 1024 = 512 + i.val; omega)
  · have hi' : i.val - 512 < 512 := by have := i.isLt; omega
    refine (concatenate_pair_apply_right (t := S36x1024x128) (s₁ := S36x512x128) (s₂ := S36x512x128) (1 : Fin 3) _ _ _ (ix3 p i k) rfl rfl (ix3 p (⟨i.val - 512, hi'⟩ : Fin 512) k)
      (fun b hb => by
        match b with
        | ⟨0, _⟩ => rfl
        | ⟨1, _⟩ => exact absurd rfl hb
        | ⟨2, _⟩ => rfl)
      (by show i.val - 512 + 512 = i.val; omega)).trans ?_
    exact slice3_axis1_apply 0 X _ p ⟨i.val - 512, hi'⟩ k (Cert.Spec.rot i)
      (by show (i.val + 512) % 1024 = 0 + (i.val - 512); omega)

/-! ## The sums over the last axis -/

/-- The host sum of a [36, 1024, 128] array over its last axis from the zero word: the sum over the 128 features. -/
theorem sumFeatures_apply (V : FVec Ideal S36x1024x128 .f32) (p : Fin 36) (i : Fin 1024) :
    Host.reduceAdd (F := Ideal) V (constant (F := Ideal) S_ .f32 0x00000000#32) reducesTo_S36x1024x128_S36x1024_d2 h_S_ (ix2 p i)
      = ∑ k : Fin 128, V (ix3 p i k) := by
  have hR : S36x1024x128.Reduces [2] S36x1024 := by decide
  rw [hostReduceAdd_apply, Ideal.hostReduceAdd_single _ hR]
  show Ideal.ofBits .f32 0x00000000#32 + _ = _
  rw [Ideal.ofBits_zero_f32, zero_add]
  refine Finset.sum_congr rfl fun k _ => congrArg V ?_
  funext a; match a with | ⟨0, _⟩ => rfl | ⟨1, _⟩ => rfl | ⟨2, _⟩ => rfl

/-- The host sum of a [36, 1024, 1024] array over its last axis from the zero word: the sum over the 1024 second rows. -/
theorem sumRows_apply (V : FVec Ideal S36x1024x1024 .f32) (p : Fin 36) (i : Fin 1024) :
    Host.reduceAdd (F := Ideal) V (constant (F := Ideal) S_ .f32 0x00000000#32) reducesTo_S36x1024x1024_S36x1024_d2 h_S_ (ix2 p i)
      = ∑ j : Fin 1024, V (ix3 p i j) := by
  have hR : S36x1024x1024.Reduces [2] S36x1024 := by decide
  rw [hostReduceAdd_apply, Ideal.hostReduceAdd_single _ hR]
  show Ideal.ofBits .f32 0x00000000#32 + _ = _
  rw [Ideal.ofBits_zero_f32, zero_add]
  refine Finset.sum_congr rfl fun k _ => congrArg V ?_
  funext a; match a with | ⟨0, _⟩ => rfl | ⟨1, _⟩ => rfl | ⟨2, _⟩ => rfl

/-! ## The temperature and the exponential -/

/-- The exponential of the quotient by the temperature splat, at an index. -/
theorem expOverT_apply {s : Shape} (V : FVec Ideal s .f32) (h : S_.BroadcastsInDim s ![]) (j : s.Idx) :
    Host.exp (F := Ideal) (Host.divf (F := Ideal) V (broadcastInDim s ![] h (constant (F := Ideal) S_ .f32 0x3DCCCCCD#32))) j
      = Ideal.exp (Ideal.div (V j) Cert.Spec.tenth) := by
  show Ideal.exp (Ideal.div (V j) (broadcastInDim s ![] h (constant (F := Ideal) S_ .f32 0x3DCCCCCD#32) j)) = _
  rw [broadcastInDim_scalar_apply]
  rfl

/-! ## The mask -/

/-- The comparison word of row number i (plus the zero word) with column number j is the bit of i = j. -/
theorem eqWord (i j : Fin 1024) :
    IntOp.cmpi .eq (IntOp.addi (BitVec.ofNat 32 i.val) 0#32) (BitVec.ofNat 32 j.val) = if i = j then 1#1 else 0#1 := by
  show BitVec.ofBool (BitVec.ofNat 32 i.val + 0#32 == BitVec.ofNat 32 j.val) = _
  rw [BitVec.add_zero]
  by_cases h : i = j
  · subst h; rw [if_pos rfl, beq_self_eq_true]; rfl
  · rw [if_neg h]
    have hne : (BitVec.ofNat 32 i.val == BitVec.ofNat 32 j.val) = false := by
      rw [beq_eq_false_iff_ne]
      intro e
      have e' := congrArg BitVec.toNat e
      rw [BitVec.toNat_ofNat, BitVec.toNat_ofNat] at e'
      have hi := i.isLt; have hj := j.isLt
      exact h (Fin.ext (by omega))
    rw [hne]; rfl

/-- One minus the indicator of the diagonal, at (i, j): one off the diagonal, zero on it. -/
theorem mask_apply (i j : Fin 1024) :
    subf (F := Ideal) (broadcastInDim S1024x1024 ![] bcast_S_S1024x1024 (constant (F := Ideal) S_ .f32 0x3F800000#32))
      (uitofp (F := Ideal) .f32 (cmpi .eq (addi (iotaInDim S1024x1024 32 0)
        (broadcastInDim S1024x1024 ![] bcast_S_S1024x1024 (constantI S_ 32 0#32))) (iotaInDim S1024x1024 32 1))) (ix2 i j)
      = Cert.Spec.offDiag i j := by
  show broadcastInDim S1024x1024 ![] bcast_S_S1024x1024 (constant (F := Ideal) S_ .f32 0x3F800000#32) (ix2 i j)
      - (((IntOp.cmpi .eq (IntOp.addi (BitVec.ofNat 32 i.val)
          (broadcastInDim S1024x1024 ![] bcast_S_S1024x1024 (constantI S_ 32 0#32) (ix2 i j))) (BitVec.ofNat 32 j.val)).toNat : ℝ) : EReal) = _
  rw [broadcastInDim_scalar_apply, broadcastInDim_scalar_apply]
  show Ideal.ofBits .f32 0x3F800000#32
      - (((IntOp.cmpi .eq (IntOp.addi (BitVec.ofNat 32 i.val) 0#32) (BitVec.ofNat 32 j.val)).toNat : ℝ) : EReal) = _
  rw [Cert.Spec.ofBits_one, eqWord]
  unfold Cert.Spec.offDiag
  by_cases h : i = j
  · rw [if_pos h, if_pos h]
    show ((1 : ℝ) : EReal) - (((1 : ℕ) : ℝ) : EReal) = ((0 : ℝ) : EReal)
    rw [← EReal.coe_sub, Nat.cast_one, sub_self]
  · rw [if_neg h, if_neg h]
    show ((1 : ℝ) : EReal) - (((0 : ℕ) : ℝ) : EReal) = ((1 : ℝ) : EReal)
    rw [← EReal.coe_sub, Nat.cast_zero, sub_zero]

/-! ## Their values at an index -/

theorem posT_apply (X : FVec Ideal S36x1024x128 .f32) (p : Fin 36) (i : Fin 1024) :
    posT (F := Ideal) X (ix2 p i) = Cert.Spec.pos (fun i k => X (ix3 p i k)) i := by
  unfold posT
  dsimp only
  refine (expOverT_apply _ _ _).trans ?_
  unfold Cert.Spec.pos Cert.Spec.sim
  refine congrArg (fun z => Ideal.exp (Ideal.div z Cert.Spec.tenth)) ?_
  refine (sumFeatures_apply _ p i).trans (Finset.sum_congr rfl fun k _ => ?_)
  refine (mulf_apply _ _ _).trans (congrArg (X (ix3 p i k) * ·) ?_)
  exact swapHalves_apply X p i k

theorem allProbT_apply (X : FVec Ideal S36x1024x128 .f32) (p : Fin 36) (i j : Fin 1024) :
    allProbT (F := Ideal) X (ix3 p i j) = Cert.Spec.allProb (fun i k => X (ix3 p i k)) i j := by
  unfold allProbT
  dsimp only
  refine (mulf_apply _ _ _).trans ?_
  unfold Cert.Spec.allProb Cert.Spec.sim
  refine congrArg₂ (· * ·) ?_ ?_
  · refine (expOverT_apply _ _ _).trans (congrArg (fun z => Ideal.exp (Ideal.div z Cert.Spec.tenth)) ?_)
    refine (StackMember.dotGeneral_stack_apply dot_S36x1024x128_S36x128x1024_S36x1024x1024_2_1_1_2_0_0_wf none X _ p i j).trans
      (Finset.sum_congr rfl fun c _ => congrArg (X (ix3 p i c) * ·) ?_)
    exact transpose_ix3_021_apply X _ p c j
  · refine (broadcastInDim_apply ![0, 1, 2] _ _ (ix3 p i j) (ix3 (0 : Fin 1) i j)
      (fun a => by match a with | ⟨0, _⟩ => rfl | ⟨1, _⟩ => rfl | ⟨2, _⟩ => rfl)).trans ?_
    refine (broadcastInDim_apply ![1, 2] _ _ (ix3 (0 : Fin 1) i j) (ix2 i j)
      (fun a => by match a with | ⟨0, _⟩ => rfl | ⟨1, _⟩ => rfl)).trans ?_
    exact mask_apply i j

theorem allDivT_apply (X : FVec Ideal S36x1024x128 .f32) (p : Fin 36) (i : Fin 1024) :
    allDivT (F := Ideal) X (ix2 p i) = Cert.Spec.allDiv (fun i k => X (ix3 p i k)) i := by
  unfold allDivT
  dsimp only
  refine (sumRows_apply _ p i).trans ?_
  unfold Cert.Spec.allDiv
  exact Finset.sum_congr rfl fun j _ => allProbT_apply X p i j

end Cert.ReferenceIdeal.RefNceA

end
-- ==== Proof.RefNceB.lean ====
/-
  The second half of the reference's contrastive term, as a pure function of three arrays: the positives pos[p, i],
  the masked similarities allProb[p, i, j] and their row sums allDiv[p, i]. From them the reference forms
    pmt = pos / allDiv,   lnPon = Σ_j log (1 - allProb / allDiv) - log (1 - pmt),
    nce_p = -(Σ_i log pmt + Σ_i lnPon) / 1024,
  and sums nce_p over the 36 blocks. Over the extended reals this is, literally, Σ_p nceVal (x p).
-/
import proofs.«404227_j85306640433706_2_alg».proof.Proof.Gen.ReferenceIdeal
import proofs.«404227_j85306640433706_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.ValueIdxRank1

noncomputable section

open scoped BigOperators

namespace Cert.ReferenceIdeal.RefNceB

open Cert.ReferenceIdeal Cert.ReferenceIdeal.Gen Idealize.ShloMosaic Idealize.ShloMosaic.ValueIdx

/-- The host operations from the three arrays to the summed contrastive term, composed in program order. -/
def tailT {F : FTy → Type} [FloatOps F] (v27 : FVec F S36x1024 .f32) (v43 : FVec F S36x1024x1024 .f32)
    (v44 : FVec F S36x1024 .f32) : FVec F S_ .f32 :=
  let v45 : FVec F S36x1024 .f32 := Host.divf v27 v44
  let v46 : FVec F S36x1024x1 .f32 := broadcastInDim S36x1024x1 ![0, 1] bcast_S36x1024_S36x1024x1_0_1 v44
  let v47 : FVec F S36x1024x1024 .f32 := broadcastInDim S36x1024x1024 ![0, 1, 2] bcast_S36x1024x1_S36x1024x1024_0_1_2 v46
  let v48 : FVec F S36x1024x1024 .f32 := Host.divf v43 v47
  let cst_12 : FVec F S_ .f32 := constant S_ .f32 0x3F800000#32
  let v49 : FVec F S36x1024x1024 .f32 := broadcastInDim S36x1024x1024 ![] bcast_S_S36x1024x1024 cst_12
  let v50 : FVec F S36x1024x1024 .f32 := subf v49 v48
  let v51 : FVec F S36x1024x1024 .f32 := Host.log v50
  let cst_13 : FVec F S_ .f32 := constant S_ .f32 0x00000000#32
  let v52 : FVec F S36x1024 .f32 := Host.reduceAdd v51 cst_13 reducesTo_S36x1024x1024_S36x1024_d2 h_S_
  let cst_14 : FVec F S_ .f32 := constant S_ .f32 0x3F800000#32
  let v53 : FVec F S36x1024 .f32 := broadcastInDim S36x1024 ![] bcast_S_S36x1024 cst_14
  let v54 : FVec F S36x1024 .f32 := subf v53 v45
  let v55 : FVec F S36x1024 .f32 := Host.log v54
  let v56 : FVec F S36x1024 .f32 := subf v52 v55
  let v57 : FVec F S36x1024 .f32 := Host.log v45
  let cst_15 : FVec F S_ .f32 := constant S_ .f32 0x00000000#32
  let v58 : FVec F S36 .f32 := Host.reduceAdd v57 cst_15 reducesTo_S36x1024_S36_d1 h_S_
  let cst_16 : FVec F S_ .f32 := constant S_ .f32 0x00000000#32
  let v59 : FVec F S36 .f32 := Host.reduceAdd v56 cst_16 reducesTo_S36x1024_S36_d1 h_S_
  let v60 : FVec F S36 .f32 := addf v58 v59
  let v61 : FVec F S36 .f32 := Host.negf v60
  let cst_17 : FVec F S_ .f32 := constant S_ .f32 0x44800000#32
  let v62 : FVec F S36 .f32 := broadcastInDim S36 ![] bcast_S_S36 cst_17
  let v63 : FVec F S36 .f32 := Host.divf v61 v62
  let cst_18 : FVec F S_ .f32 := constant S_ .f32 0x00000000#32
  Host.reduceAdd v63 cst_18 reducesTo_S36_S_d0 h_S_

/-! ## The layout and reduction operations read at an index -/

/-- A [36,1024] array given a unit last axis and then repeated along it reads, at (p, i, j), the array at (p, i). -/
theorem bcastCol_apply (v : FVec Ideal S36x1024 .f32) (p : Fin 36) (i j : Fin 1024) :
    broadcastInDim S36x1024x1024 ![0, 1, 2] bcast_S36x1024x1_S36x1024x1024_0_1_2
      (broadcastInDim S36x1024x1 ![0, 1] bcast_S36x1024_S36x1024x1_0_1 v) (ix3 p i j) = v (ix2 p i) := by
  refine (broadcastInDim_apply _ _ _ (ix3 p i j) (ix3 p i (0 : Fin 1)) ?_).trans ?_
  · intro a; match a with | ⟨0, _⟩ => rfl | ⟨1, _⟩ => rfl | ⟨2, _⟩ => rfl
  · refine broadcastInDim_apply _ _ _ (ix3 p i (0 : Fin 1)) (ix2 p i) ?_
    intro a; match a with | ⟨0, _⟩ => rfl | ⟨1, _⟩ => rfl

theorem red_d2 : Shape.Reduces S36x1024x1024 [2] S36x1024 := by decide
theorem red_d1 : Shape.Reduces S36x1024 [1] S36 := by decide

/-- The sum over the last axis of a [36,1024,1024] array, at (p, i): the initial value plus Σ_j. -/
theorem reduce_d2_apply (y : FVec Ideal S36x1024x1024 .f32) (init : FVec Ideal S_ .f32) (p : Fin 36) (i : Fin 1024) :
    Host.reduceAdd (F := Ideal) y init reducesTo_S36x1024x1024_S36x1024_d2 h_S_ (ix2 p i)
      = init (Shape.Idx.first h_S_) + ∑ j : Fin 1024, y (ix3 p i j) := by
  refine (hostReduceAdd_apply y init _ _ (ix2 p i)).trans ?_
  refine (Ideal.hostReduceAdd_single _ red_d2 y _ (ix2 p i)).trans ?_
  refine congrArg _ (Finset.sum_congr rfl fun j _ => congrArg y ?_)
  funext a; match a with | ⟨0, _⟩ => rfl | ⟨1, _⟩ => rfl | ⟨2, _⟩ => rfl

/-- The sum over the rows of a [36,1024] array, at p: the initial value plus Σ_i. -/
theorem reduce_d1_apply (y : FVec Ideal S36x1024 .f32) (init : FVec Ideal S_ .f32) (p : Fin 36) :
    Host.reduceAdd (F := Ideal) y init reducesTo_S36x1024_S36_d1 h_S_ (ix1 p)
      = init (Shape.Idx.first h_S_) + ∑ i : Fin 1024, y (ix2 p i) := by
  refine (hostReduceAdd_apply y init _ _ (ix1 p)).trans ?_
  refine (Ideal.hostReduceAdd_single _ red_d1 y _ (ix1 p)).trans ?_
  refine congrArg _ (Finset.sum_congr rfl fun i _ => congrArg y ?_)
  funext a; match a with | ⟨0, _⟩ => rfl | ⟨1, _⟩ => rfl

/-- The sum of a [36] array: the initial value plus Σ_p. -/
theorem reduce_d0_apply (y : FVec Ideal S36 .f32) (init : FVec Ideal S_ .f32) (j : S_.Idx) :
    Host.reduceAdd (F := Ideal) y init reducesTo_S36_S_d0 h_S_ j
      = init (Shape.Idx.first h_S_) + ∑ p : Fin 36, y (ix1 p) := by
  refine (hostReduceAdd_apply y init _ _ j).trans ?_
  refine (Ideal.hostReduceAdd_total _ (fun b => b.elim0) y _ j).trans ?_
  exact congrArg _ (Equiv.sum_comp (idxEquiv1 (n := 36)).symm y).symm

/-! ## The pointwise host operations at an index -/

theorem hostLog_apply {s : Shape} (a : FVec Ideal s .f32) (i : s.Idx) : Host.log a i = Ideal.log (a i) := rfl

theorem hostNegf_apply {s : Shape} (a : FVec Ideal s .f32) (i : s.Idx) : Host.negf a i = -(a i) := rfl

/-! ## The reference's arrays at an index -/

section
variable (x : Fin 36 → Fin 1024 → Fin 128 → EReal) (v27 : FVec Ideal S36x1024 .f32)
  (v43 : FVec Ideal S36x1024x1024 .f32) (v44 : FVec Ideal S36x1024 .f32)
  (h27 : ∀ (p : Fin 36) (i : Fin 1024), v27 (ix2 p i) = Cert.Spec.pos (x p) i)
  (h43 : ∀ (p : Fin 36) (i j : Fin 1024), v43 (ix3 p i j) = Cert.Spec.allProb (x p) i j)
  (h44 : ∀ (p : Fin 36) (i : Fin 1024), v44 (ix2 p i) = Cert.Spec.allDiv (x p) i)

include h27 h44 in
/-- The quotient of the positives by the row sums is pmt. -/
theorem pmt_apply (p : Fin 36) (i : Fin 1024) :
    Host.divf (F := Ideal) v27 v44 (ix2 p i) = Cert.Spec.pmt (x p) i := by
  refine (hostDivf_apply v27 v44 (ix2 p i)).trans ?_
  rw [h27, h44]; rfl

include h43 h44 in
/-- One term of lnPon's sum: log (1 - allProb / allDiv) at (p, i, j). -/
theorem logTerm_apply (p : Fin 36) (i j : Fin 1024) :
    Host.log (F := Ideal)
      (subf (broadcastInDim S36x1024x1024 ![] bcast_S_S36x1024x1024 (constant (F := Ideal) S_ .f32 0x3F800000#32))
        (Host.divf (F := Ideal) v43
          (broadcastInDim S36x1024x1024 ![0, 1, 2] bcast_S36x1024x1_S36x1024x1024_0_1_2
            (broadcastInDim S36x1024x1 ![0, 1] bcast_S36x1024_S36x1024x1_0_1 v44)))) (ix3 p i j)
      = Ideal.log (1 - Ideal.div (Cert.Spec.allProb (x p) i j) (Cert.Spec.allDiv (x p) i)) := by
  rw [hostLog_apply, subf_apply, hostDivf_apply, broadcastInDim_scalar_apply, constant_apply, bcastCol_apply,
    h43, h44, Cert.Spec.ofBits_one]

end

theorem tailT_eq (x : Fin 36 → Fin 1024 → Fin 128 → EReal) (v27 : FVec Ideal S36x1024 .f32)
    (v43 : FVec Ideal S36x1024x1024 .f32) (v44 : FVec Ideal S36x1024 .f32)
    (h27 : ∀ (p : Fin 36) (i : Fin 1024), v27 (ix2 p i) = Cert.Spec.pos (x p) i)
    (h43 : ∀ (p : Fin 36) (i j : Fin 1024), v43 (ix3 p i j) = Cert.Spec.allProb (x p) i j)
    (h44 : ∀ (p : Fin 36) (i : Fin 1024), v44 (ix2 p i) = Cert.Spec.allDiv (x p) i) :
    tailT (F := Ideal) v27 v43 v44 = fun _ => ∑ p : Fin 36, Cert.Spec.nceVal (x p) := by
  funext j
  unfold tailT
  dsimp only
  refine (reduce_d0_apply _ _ j).trans ?_
  rw [constant_apply, Ideal.ofBits_zero_f32, zero_add]
  refine Finset.sum_congr rfl fun p _ => ?_
  rw [hostDivf_apply, broadcastInDim_scalar_apply, constant_apply, hostNegf_apply, addf_apply,
    reduce_d1_apply, reduce_d1_apply, constant_apply, Ideal.ofBits_zero_f32, zero_add, zero_add]
  unfold Cert.Spec.nceVal Cert.Spec.c1024
  refine congrArg (fun t => Ideal.div (-t) _) ?_
  refine congrArg₂ (· + ·) ?_ ?_
  · exact Finset.sum_congr rfl fun i _ =>
      (hostLog_apply _ _).trans (congrArg Ideal.log (pmt_apply x v27 v44 h27 h44 p i))
  · refine Finset.sum_congr rfl fun i _ => ?_
    rw [subf_apply, reduce_d2_apply, constant_apply, Ideal.ofBits_zero_f32, zero_add, hostLog_apply, subf_apply,
      broadcastInDim_scalar_apply, constant_apply, Cert.Spec.ofBits_one, pmt_apply x v27 v44 h27 h44]
    unfold Cert.Spec.lnPon
    refine congrArg (· - _) ?_
    exact Finset.sum_congr rfl fun j' _ => logTerm_apply x v43 v44 h43 h44 p i j'

end Cert.ReferenceIdeal.RefNceB

end
-- ==== Proof.PairsR.lean ====
/-
  The pair tensor both programs build from the features before anything else: the 4096 rows regrouped as 512 groups of
  8, for each of the 36 index pairs (a, b) with a ≤ b the 512 rows numbered a of their groups followed by the 512 rows
  numbered b, one block of 1024 rows per pair. It is carried as one function of the feature array; nothing here looks
  inside it.
-/
import proofs.«404227_j85306640433706_2_alg».proof.ReferenceIdeal
import proofs.«404227_j85306640433706_2_alg».proof.Proof.Gen.ReferenceIdeal

noncomputable section

namespace Cert.ReferenceIdeal.Pairs

open Cert.ReferenceIdeal Cert.ReferenceIdeal.Gen Idealize.ShloMosaic

variable {F : FTy → Type} [FloatOps F]

/-- The host operations from the feature array to the pair tensor, composed. -/
def pairs (a2 : FVec F S4096x128 .f32) : FVec F S36x1024x128 .f32 :=
  let c : IVec S36 32 := fun i => lit0 (S36.rowMajor i)
  let c_0 : IVec S36 1 := constantI S36 1 0#1
  let c_1 : IVec S36 32 := fun i => lit1 (S36.rowMajor i)
  let c_2 : IVec S36 1 := constantI S36 1 0#1
  let g : FVec F S512x8x128 .f32 := shapeCast S512x8x128 a2 shapeCasts_S4096x128_S512x8x128
  let e : IVec S_ 32 := constantI S_ 32 8#32
  let e1 : IVec S36 32 := broadcastInDim S36 ![] bcast_S_S36 e
  let s1 : IVec S36 32 := addi c e1
  let t1 : IVec S36 32 := select c_0 s1 c
  let i1 : IVec S36x1 32 := broadcastInDim S36x1 ![0] bcast_S36_S36x1_0 t1
  let r1 : FVec F S512x36x128 .f32 := Host.gather gather_S512x8x128_S36x1_S512x36x128_02_1_n_n_1_1_5121128 g i1
  let x1 : FVec F S36x512x128 .f32 := transpose S36x512x128 [1, 0, 2] r1 transposes_S512x36x128_S36x512x128_1_0_2
  let e' : IVec S_ 32 := constantI S_ 32 8#32
  let e2 : IVec S36 32 := broadcastInDim S36 ![] bcast_S_S36 e'
  let s2 : IVec S36 32 := addi c_1 e2
  let t2 : IVec S36 32 := select c_2 s2 c_1
  let i2 : IVec S36x1 32 := broadcastInDim S36x1 ![0] bcast_S36_S36x1_0 t2
  let r2 : FVec F S512x36x128 .f32 := Host.gather gather_S512x8x128_S36x1_S512x36x128_02_1_n_n_1_1_5121128 g i2
  let x2 : FVec F S36x512x128 .f32 := transpose S36x512x128 [1, 0, 2] r2 transposes_S512x36x128_S36x512x128_1_0_2
  concatenate S36x1024x128 1 [⟨S36x512x128, x1⟩, ⟨S36x512x128, x2⟩] concatenates_S36x512x128_S36x512x128_S36x1024x128_d1

end Cert.ReferenceIdeal.Pairs

end
-- ==== Proof.RefTop.lean ====
/-
  The reference's result and its three parts, read off the one-step equations of its host line.

  The result is the weight times the summed contrastive term plus the cross entropy. Rewriting a buffer's final
  contents by the one-step equations, from the last operation that feeds it back to the arguments, turns them into
  the composed term of the operations; that term is, up to naming its intermediate values, the cross entropy of the
  logits and the labels, the pair tensor of the features, and the contrastive tail of the three arrays formed from
  the pair tensor.
-/
import proofs.«404227_j85306640433706_2_alg».proof.Proof.RefFin
import proofs.«404227_j85306640433706_2_alg».proof.Proof.RefCE
import proofs.«404227_j85306640433706_2_alg».proof.Proof.RefNceA
import proofs.«404227_j85306640433706_2_alg».proof.Proof.RefNceB
import proofs.«404227_j85306640433706_2_alg».proof.Proof.PairsR

noncomputable section

namespace Cert.ReferenceIdeal.RunV

open Cert.ReferenceIdeal Cert.ReferenceIdeal.Gen Idealize.ShloMosaic Idealize.ShloMosaic.TcCoe Idealize.SL.Sem
open Idealize.ShloMosaic.StableHlo

variable {F : FTy → Type} [FloatOps F]

/-- The result: the weight times the summed contrastive term, plus the cross entropy. -/
theorem fin_result (m : (ℓ : Loc nD τ sig) → Buf (Elt F) ℓ) (c : Dev nD) :
    fin m c main_v66 = addf (mulf (constant S_ .f32 0x3CF5C28F#32) (fin m c main_v64)) (fin m c main_v5) := by
  rw [fin_main_v66, fin_main_v65, fin_main_cst_19]

/-- The cross entropy buffer holds the cross-entropy term of the logits and the labels. -/
theorem fin_ce (m : (ℓ : Loc nD τ sig) → Buf (Elt F) ℓ) (c : Dev nD) :
    fin m c main_v5 = Cert.ReferenceIdeal.RefCE.ceTerm (m ((c.tc : Thread nD τ).loc main_arg0))
      (m ((c.tc : Thread nD τ).loc main_arg1)) := by
  rw [fin_main_v5, fin_main_v4, fin_main_cst_3, fin_main_v3, fin_main_cst, fin_main_v2, fin_main_call1_v14,
    fin_main_call1_cst, fin_main_call1_v13, fin_main_call1_v12, fin_main_call1_c_3, fin_main_call1_v11,
    fin_main_call1_v10, fin_main_call1_v9, fin_main_call1_v8, fin_main_call1_v7, fin_main_call1_v6,
    fin_main_call1_c_2, fin_main_call1_c_1, fin_main_call1_v5, fin_main_call1_v4, fin_main_call1_v3,
    fin_main_call1_v2, fin_main_call1_c_0, fin_main_call1_v1, fin_main_call1_v0, fin_main_call1_c,
    fin_main_v1, fin_main_v0, fin_main_call0_v10, fin_main_call0_v9, fin_main_call0_v8,
    fin_main_call0_v7, fin_main_call0_cst_1, fin_main_call0_v6, fin_main_call0_v5, fin_main_call0_v4,
    fin_main_call0_v3, fin_main_call0_v2, fin_main_call0_v1, fin_main_call0_cst_0, fin_main_call0_v0,
    fin_main_call0_cst, fin_arg1, fin_arg0]
  rfl

/-- The pair tensor's buffer holds the pair tensor of the features. -/
theorem fin_pairs (m : (ℓ : Loc nD τ sig) → Buf (Elt F) ℓ) (c : Dev nD) :
    fin m c main_v19 = Cert.ReferenceIdeal.Pairs.pairs (m ((c.tc : Thread nD τ).loc main_arg2)) := by
  rw [fin_main_v19, fin_main_v18, fin_main_v17, fin_main_v16, fin_main_v15, fin_main_v14, fin_main_v13,
    fin_main_c_5, fin_main_v12, fin_main_v11, fin_main_v10, fin_main_v9, fin_main_v8, fin_main_v7,
    fin_main_c_4, fin_main_v6, fin_main_c_2, fin_main_c_1, fin_main_c_0, fin_main_c, fin_arg2]
  rfl

/-- The summed contrastive term is the tail of the three arrays formed from the pair tensor. -/
theorem fin_nce (m : (ℓ : Loc nD τ sig) → Buf (Elt F) ℓ) (c : Dev nD) :
    fin m c main_v64 = Cert.ReferenceIdeal.RefNceB.tailT (Cert.ReferenceIdeal.RefNceA.posT (fin m c main_v19))
      (Cert.ReferenceIdeal.RefNceA.allProbT (fin m c main_v19)) (Cert.ReferenceIdeal.RefNceA.allDivT (fin m c main_v19)) := by
  rw [fin_main_v64, fin_main_cst_18, fin_main_v63, fin_main_v62, fin_main_cst_17, fin_main_v61,
    fin_main_v60, fin_main_v59, fin_main_cst_16, fin_main_v58, fin_main_cst_15, fin_main_v57,
    fin_main_v56, fin_main_v55, fin_main_v54, fin_main_v53, fin_main_cst_14, fin_main_v52,
    fin_main_cst_13, fin_main_v51, fin_main_v50, fin_main_v49, fin_main_cst_12, fin_main_v48,
    fin_main_v47, fin_main_v46, fin_main_v45, fin_main_v44, fin_main_cst_11, fin_main_v43, fin_main_v42,
    fin_main_v41, fin_main_v40, fin_main_v39, fin_main_v38, fin_main_cst_10, fin_main_v37, fin_main_v36,
    fin_main_v35, fin_main_v34, fin_main_cst_9, fin_main_v33, fin_main_v32, fin_main_v31, fin_main_v30,
    fin_main_c_8, fin_main_v29, fin_main_v28, fin_main_v27, fin_main_v26, fin_main_v25, fin_main_cst_7,
    fin_main_v24, fin_main_cst_6, fin_main_v23, fin_main_v22, fin_main_v21, fin_main_v20]
  rfl

end Cert.ReferenceIdeal.RunV

end
-- ==== Proof.RValue.lean ====
/-
  The reference program's result as a value: its final buffer is the weight times the sum over the thirty-six pair
  blocks of the contrastive term, plus minus the mean of the log-softmax at the labels — each part the composed host
  operations read at their indices, under the labels' range.
-/
import proofs.«404227_j85306640433706_2_alg».proof.Proof.RefTop
import proofs.«404227_j85306640433706_2_alg».proof.Proof.RefCE
import proofs.«404227_j85306640433706_2_alg».proof.Proof.RefNceA
import proofs.«404227_j85306640433706_2_alg».proof.Proof.RefNceB
import proofs.«404227_j85306640433706_2_alg».proof.Proof.PairsR
import proofs.«404227_j85306640433706_2_alg».proof.Proof.Spec

noncomputable section

open scoped BigOperators

namespace Cert.ReferenceIdeal.ValueV

open Cert.ReferenceIdeal Cert.ReferenceIdeal.Gen Idealize.ShloMosaic Idealize.ShloMosaic.TcCoe Idealize.SL.Sem
open Idealize.ShloMosaic.ValueIdx Cert.ReferenceIdeal.RunV

variable (m : (ℓ : Loc nD τ sig) → Buf (Elt Ideal) ℓ)

/-- The logits, the label words and the pair tensor as plain functions of their coordinates. -/
def logits (c : Dev nD) : Fin 4096 → Fin 400 → EReal :=
  fun q col => (m ((c.tc : Thread nD τ).loc main_arg0) : FVec Ideal S4096x400 .f32) (ix2 q col)
def labels (c : Dev nD) : Fin 4096 → BitVec 32 :=
  fun q => (m ((c.tc : Thread nD τ).loc main_arg1) : IVec S4096 32) (ix1 q)
def pairT (c : Dev nD) : Fin 36 → Fin 1024 → Fin 128 → EReal :=
  fun p i k => (Cert.ReferenceIdeal.Pairs.pairs (m ((c.tc : Thread nD τ).loc main_arg2)) : FVec Ideal S36x1024x128 .f32) (ix3 p i k)

/-- The result buffer after the run, where every label word is below 400. -/
theorem result_value (c : Dev nD) (hL : ∀ q : Fin 4096, (labels m c q).toNat < 400) :
    fin m c main_v66 = fun _ => Cert.Spec.loss (Cert.Spec.ceRef (logits m c) (labels m c)) (pairT m c) := by
  rw [fin_result, fin_ce, fin_nce, fin_pairs, Cert.ReferenceIdeal.RefCE.ceTerm_eq _ _ hL,
    Cert.ReferenceIdeal.RefNceB.tailT_eq (pairT m c) _ _ _
      (fun p i => Cert.ReferenceIdeal.RefNceA.posT_apply _ p i)
      (fun p i j => Cert.ReferenceIdeal.RefNceA.allProbT_apply _ p i j)
      (fun p i => Cert.ReferenceIdeal.RefNceA.allDivT_apply _ p i)]
  rfl

end Cert.ReferenceIdeal.ValueV

end
-- ==== Proof.Algebra.lean ====
/-
  The cross entropy, two ways. The kernel adds, block of 512 rows by block, zero minus each row's masked sum of the
  log-softmax and divides the total by 4096; the reference sums the log-softmax at the labels, divides by 4096 and
  negates. Where every logit is a real number the log-softmax is a real number (the row's largest logit is real, a sum
  of 400 exponentials is a positive real, its logarithm is real), so negation passes through the sums; where a label
  word is below 400 the masked sum over the columns is the one entry at the label; the eight blocks of 512 rows are the
  4096 rows; and dividing by the real 4096 is multiplying by its reciprocal, through which negation passes too.
-/
import proofs.«404227_j85306640433706_2_alg».proof.Proof.Spec
import Mathlib.Algebra.BigOperators.Fin
import Mathlib.Data.EReal.Inv
import Mathlib.Data.Finset.Fold

noncomputable section

open scoped BigOperators

namespace Cert.Algebra

open Idealize.ShloMosaic Cert.Spec

/-- A finite sum of real numbers, as an extended real, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The 4096 rows are the eight blocks of 512 rows. -/
theorem sum_blocks {M : Type} [AddCommMonoid M] (f : Fin 4096 → M) :
    ∑ q : Fin 4096, f q = ∑ i : Fin 8, ∑ r : Fin 512, f ⟨512 * i.val + r.val, by omega⟩ := by
  rw [← Fintype.sum_prod_type' (f := fun (i : Fin 8) (r : Fin 512) => f ⟨512 * i.val + r.val, by omega⟩)]
  refine (Fintype.sum_equiv (finProdFinEquiv (m := 8) (n := 512)) _ _ fun x => ?_).symm
  refine congrArg f (Fin.ext ?_)
  show 512 * x.1.val + x.2.val = x.2.val + 512 * x.1.val
  omega

variable (P : Fin 4096 → Fin 400 → EReal) (L : Fin 4096 → BitVec 32)

/-- The row's largest logit is a real number when the logits are. -/
theorem rowMax_real (hP : ∀ r c, ∃ x : ℝ, P r c = (x : EReal)) (q : Fin 4096) : ∃ m : ℝ, rowMax P q = (m : EReal) := by
  have hlt : rowMax P q < ⊤ := by
    unfold rowMax
    rw [Finset.fold_max_lt]
    exact ⟨bot_lt_top, fun c _ => by obtain ⟨x, hx⟩ := hP q c; rw [hx]; exact EReal.coe_lt_top x⟩
  have hgt : ⊥ < rowMax P q := by
    unfold rowMax
    rw [Finset.lt_fold_max]
    exact Or.inr ⟨⟨0, by norm_num⟩, Finset.mem_univ _, by obtain ⟨x, hx⟩ := hP q ⟨0, by norm_num⟩; rw [hx]; exact EReal.bot_lt_coe x⟩
  exact ⟨(rowMax P q).toReal, (EReal.coe_toReal hlt.ne hgt.ne').symm⟩

/-- The log-softmax is a real number when the logits are. -/
theorem logp_real (hP : ∀ r c, ∃ x : ℝ, P r c = (x : EReal)) (q : Fin 4096) (c : Fin 400) : ∃ y : ℝ, logp P q c = (y : EReal) := by
  obtain ⟨m, hm⟩ := rowMax_real P hP q
  choose x hx using hP
  have hsh : ∀ c, shifted P q c = ((x q c - m : ℝ) : EReal) := fun c => by
    unfold shifted; rw [hx, hm, ← EReal.coe_sub]
  have hsum : (∑ c : Fin 400, Ideal.exp (shifted P q c)) = ((∑ c : Fin 400, Real.exp (x q c - m) : ℝ) : EReal) := by
    rw [← coe_sum]
    exact Finset.sum_congr rfl fun c _ => by rw [hsh]; rfl
  have hpos : 0 < ∑ c : Fin 400, Real.exp (x q c - m) :=
    Finset.sum_pos (fun c _ => Real.exp_pos _) ⟨⟨0, by norm_num⟩, Finset.mem_univ _⟩
  have hlse : lse P q = ((Real.log (∑ c : Fin 400, Real.exp (x q c - m)) : ℝ) : EReal) := by
    unfold lse; rw [hsum, Ideal.log_coe, if_neg (not_le.mpr hpos)]
  exact ⟨x q c - m - Real.log (∑ c : Fin 400, Real.exp (x q c - m)), by unfold logp; rw [hsh, hlse, ← EReal.coe_sub]⟩

/-- Where the label word is below 400, the masked sum over the columns is the entry at the label. -/
theorem masked_sum (hL : ∀ r, (L r).toNat < 400) (q : Fin 4096) :
    (∑ c : Fin 400, if BitVec.ofNat 32 c.val = L q then logp P q c else 0) = logp P q (lblIdx (L q)) := by
  have hidx : (lblIdx (L q)).val = (L q).toNat := Nat.mod_eq_of_lt (hL q)
  rw [Finset.sum_eq_single (lblIdx (L q))]
  · rw [if_pos]
    apply BitVec.eq_of_toNat_eq
    rw [BitVec.toNat_ofNat, hidx]
    exact Nat.mod_eq_of_lt (by have := (L q).isLt; omega)
  · intro c _ hc
    rw [if_neg]
    intro h
    apply hc
    apply Fin.ext
    rw [hidx, ← h, BitVec.toNat_ofNat]
    exact (Nat.mod_eq_of_lt (by have := c.isLt; omega)).symm
  · intro h; exact absurd (Finset.mem_univ _) h

/-- The literal 4096.0 is the real number 4096. -/
theorem c4096_eq : c4096 = ((4096 : ℝ) : EReal) := by
  unfold c4096
  simp [Ideal.ofBits, Ideal.ieee]
  rw [← EReal.coe_mul]
  norm_num

/-- The kernel's cross entropy is the reference's. -/
theorem ce_bridge (hP : ∀ r c, ∃ x : ℝ, P r c = (x : EReal)) (hL : ∀ r, (L r).toNat < 400) :
    Ideal.div (∑ i : Fin 8, cePartial (fun (r : Fin 512) (c : Fin 400) => P ⟨512 * i.val + r.val, by omega⟩ c)
        (fun r => L ⟨512 * i.val + r.val, by omega⟩)) c4096 = ceRef P L := by
  choose y hy using logp_real P hP
  have hrow : ∀ q : Fin 4096, (0 - ∑ c : Fin 400, if BitVec.ofNat 32 c.val = L q then logp P q c else 0) = ((-(y q (lblIdx (L q))) : ℝ) : EReal) := fun q => by
    rw [masked_sum P L hL q, hy, zero_sub, EReal.coe_neg]
  have hk : (∑ i : Fin 8, cePartial (fun (r : Fin 512) (c : Fin 400) => P ⟨512 * i.val + r.val, by omega⟩ c)
        (fun r => L ⟨512 * i.val + r.val, by omega⟩)) = ((-(∑ q : Fin 4096, y q (lblIdx (L q))) : ℝ) : EReal) := by
    rw [← Finset.sum_neg_distrib, ← coe_sum, sum_blocks (fun q => ((-(y q (lblIdx (L q))) : ℝ) : EReal))]
    refine Finset.sum_congr rfl fun i _ => ?_
    unfold cePartial
    exact Finset.sum_congr rfl fun r _ => hrow ⟨512 * i.val + r.val, by omega⟩
  have hr : (∑ r : Fin 4096, logp P r (lblIdx (L r))) = ((∑ q : Fin 4096, y q (lblIdx (L q)) : ℝ) : EReal) := by
    rw [← coe_sum]; exact Finset.sum_congr rfl fun q _ => hy q _
  unfold ceRef
  rw [hk, hr, c4096_eq, Ideal.div_coe (by norm_num : (4096 : ℝ) ≠ 0), Ideal.div_coe (by norm_num : (4096 : ℝ) ≠ 0),
    EReal.coe_neg, neg_mul]

end Cert.Algebra

end
-- ==== Proof.PreDecode.lean ====
/-
  The precondition read back: when the printed predicate is all ones, every logit is a real number and every label
  word, read as a natural number, is below 400 (so it is a column of the logits, and non-negative as a signed word).
-/
import proofs.«404227_j85306640433706_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Gen

instance : Subsingleton S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have hlt : max x (-x) < ⊤ := by
    by_contra hc
    simp [Ideal.cmp, hc] at h
  induction x using EReal.rec with
  | bot => simp at hlt
  | coe r => exact ⟨r, rfl⟩
  | top => simp at hlt

/-- A 32-bit word that is at least 0 and below 400 as a signed word is below 400 as a natural number. -/
theorem toNat_lt_of_signed (w : BitVec 32) (h0 : (0#32 : BitVec 32).toInt ≤ w.toInt) (h1 : w.toInt < (400#32 : BitVec 32).toInt) :
    w.toNat < 400 := by
  have e0 : (0#32 : BitVec 32).toInt = 0 := by decide
  have e4 : (400#32 : BitVec 32).toInt = 400 := by decide
  rw [e0] at h0; rw [e4] at h1
  have hw := w.isLt
  rw [BitVec.toInt_eq_toNat_cond] at h0 h1
  split_ifs at h0 h1 <;> omega

theorem decode (a0 : FVec Ideal S4096x400 .f32) (a1 : IVec S4096 32) (a2 : FVec Ideal S4096x128 .f32) (a3 : IVec S4096 32)
    (h : Cert.Pre_finite_inputs.fn (F := Ideal) a0 a1 a2 a3 = fun _ => 1#1) :
    (∀ i, ∃ r : ℝ, a0 i = (r : EReal)) ∧ (∀ i, (a1 i).toNat < 400) := by
  have h0 := congrFun h ix0
  dsimp only [Cert.Pre_finite_inputs.fn] at h0
  obtain ⟨h8, h14⟩ := IntOp.andi_eq_one.1 h0
  obtain ⟨h3, h7⟩ := IntOp.andi_eq_one.1 h8
  refine ⟨fun i => ?_, fun i => ?_⟩
  · exact real_of_abs_lt (a0 i) (Host.reduce_andi_all _ _ _ _ _ h3 i)
  · obtain ⟨e1, e2⟩ := IntOp.andi_eq_one.1 (Host.reduce_andi_all _ _ _ _ _ h14 i)
    exact toNat_lt_of_signed (a1 i) (IntOp.cmpi_sge.1 e1) (IntOp.cmpi_slt.1 e2)

end Cert.PreDecode

end
-- ==== Proof.PairsEq.lean ====
/-
  The two programs build the pair tensor by the same host operations, so the two composed functions are one function.
-/
import proofs.«404227_j85306640433706_2_alg».proof.Proof.PairsK
import proofs.«404227_j85306640433706_2_alg».proof.Proof.PairsR

noncomputable section

namespace Cert.PairsEq

open Idealize.ShloMosaic

/-- For any float values: the kernel program's pair tensor is the reference program's. -/
theorem pairs_eq {F : FTy → Type} [FloatOps F] (a2 : FVec F ⟨2, ![4096, 128]⟩ .f32) :
    Cert.KernelIdeal.Pairs.pairs a2 = Cert.ReferenceIdeal.Pairs.pairs a2 := rfl

end Cert.PairsEq

end
-- ==== Proof.lean ====
/-
  A loss of two parts, each computed by a grid kernel against a host reference: a cross entropy (the mean over 4096
  rows of minus the log-softmax at the row's label) and a weighted sum over 36 pair blocks of a contrastive term.

  Both programs are read as ONE function of the argument arrays (Proof/Spec.lean): the kernel program through its two
  grids' running totals (one entry, updated block by block, the first point resetting it) and the host operations
  around them; the reference through its straight line of host operations, read one operation at a time. The
  contrastive part is the same formula on both sides, entry by entry, over the same pair tensor (both programs build it
  by the same host operations). The cross entropy differs in arrangement only: the kernel masks the row's log-softmax
  with "column number = label" and sums, negates per row and adds block by block; the reference gathers at the label,
  sums, divides and negates. Under the precondition (finite logits, labels in [0, 400)) the log-softmax is a real
  number, the masked row sum is the entry at the label, and negation passes through the sums and the quotient
  (Proof/Algebra.lean).
-/
import proofs.«404227_j85306640433706_2_alg».proof.Defs
import proofs.«404227_j85306640433706_2_alg».proof.Proof.Gen.Kernel
import proofs.«404227_j85306640433706_2_alg».proof.Proof.Gen.Kernel.Skeleton
import proofs.«404227_j85306640433706_2_alg».proof.Proof.Gen.Kernel.Launch
import proofs.«404227_j85306640433706_2_alg».proof.Proof.Gen.Kernel.Points
import proofs.«404227_j85306640433706_2_alg».proof.Proof.Gen.Kernel.Frame
import proofs.«404227_j85306640433706_2_alg».proof.Proof.Gen.KernelIdeal
import proofs.«404227_j85306640433706_2_alg».proof.Proof.Gen.KernelIdeal.Skeleton
import proofs.«404227_j85306640433706_2_alg».proof.Proof.Gen.KernelIdeal.Launch
import proofs.«404227_j85306640433706_2_alg».proof.Proof.Gen.KernelIdeal.Points
import proofs.«404227_j85306640433706_2_alg».proof.Proof.Gen.KernelIdeal.Frame
import proofs.«404227_j85306640433706_2_alg».proof.Proof.Gen.ReferenceIdeal
import proofs.«404227_j85306640433706_2_alg».proof.Proof.Gen.Pre_finite_inputs
import proofs.«404227_j85306640433706_2_alg».proof.Proof.KRun
import proofs.«404227_j85306640433706_2_alg».proof.Proof.KValue
import proofs.«404227_j85306640433706_2_alg».proof.Proof.RValue
import proofs.«404227_j85306640433706_2_alg».proof.Proof.Algebra
import proofs.«404227_j85306640433706_2_alg».proof.Proof.PreDecode
import proofs.«404227_j85306640433706_2_alg».proof.Proof.PairsEq
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments as launched: its straight line writes none of them. -/
theorem frame_ri : Cert.frame_ReferenceIdeal := fun m ρ _ =>
  (θ_run Cert.ReferenceIdeal.defs _ _).mono
    (fun _ h c => ⟨(h c Cert.ReferenceIdeal.main_arg0).trans (Cert.ReferenceIdeal.RunV.fin_arg0 m c),
      (h c Cert.ReferenceIdeal.main_arg1).trans (Cert.ReferenceIdeal.RunV.fin_arg1 m c),
      (h c Cert.ReferenceIdeal.main_arg2).trans (Cert.ReferenceIdeal.RunV.fin_arg2 m c),
      (h c Cert.ReferenceIdeal.main_arg3).trans (Cert.ReferenceIdeal.RunV.fin_arg3 m c)⟩)
    (Cert.ReferenceIdeal.RunV.run_all (F := Ideal) m ρ)

/-- Both idealized programs end with the loss of the argument arrays in their result buffer. -/
theorem algebraic : Cert.algebraic_KernelIdeal_ReferenceIdeal := by
  intro m ρ m' ρ' hpre hagree
  refine ⟨fun c => fun _ => Cert.Spec.loss
      (Cert.Spec.ceRef (Cert.KernelIdeal.ValueV.logits m c) (Cert.KernelIdeal.ValueV.labels m c))
      (Cert.KernelIdeal.ValueV.pairT m c), ?_, ?_⟩
  · refine (θ_run Cert.KernelIdeal.defs _ _).mono (fun r h c => ⟨(h c).1.trans ?_, (h c).2⟩)
      (Cert.KernelIdeal.RunV.run_value m ρ)
    obtain ⟨hP, hL⟩ := Cert.PreDecode.decode _ _ _ _ (hpre c)
    rw [Cert.KernelIdeal.ValueV.result_value m ρ c]
    funext _
    exact congrArg (fun ce => Cert.Spec.loss ce (Cert.KernelIdeal.ValueV.pairT m c))
      (Cert.Algebra.ce_bridge (Cert.KernelIdeal.ValueV.logits m c) (Cert.KernelIdeal.ValueV.labels m c)
        (fun r col => hP (ix2 r col)) (fun r => hL (ix1 r)))
  · refine (θ_run Cert.ReferenceIdeal.defs _ _).mono
      (fun r h c => ⟨(h c Cert.ReferenceIdeal.main_v66).trans ?_,
        (h c Cert.ReferenceIdeal.main_arg0).trans (Cert.ReferenceIdeal.RunV.fin_arg0 m' c),
        (h c Cert.ReferenceIdeal.main_arg1).trans (Cert.ReferenceIdeal.RunV.fin_arg1 m' c),
        (h c Cert.ReferenceIdeal.main_arg2).trans (Cert.ReferenceIdeal.RunV.fin_arg2 m' c),
        (h c Cert.ReferenceIdeal.main_arg3).trans (Cert.ReferenceIdeal.RunV.fin_arg3 m' c)⟩)
      (Cert.ReferenceIdeal.RunV.run_all (F := Ideal) m' ρ')
    obtain ⟨hP, hL⟩ := Cert.PreDecode.decode _ _ _ _ (hpre c)
    have e0 : Cert.ReferenceIdeal.ValueV.logits m' c = Cert.KernelIdeal.ValueV.logits m c := by
      unfold Cert.ReferenceIdeal.ValueV.logits Cert.KernelIdeal.ValueV.logits; rw [(hagree c).1]
    have e1 : Cert.ReferenceIdeal.ValueV.labels m' c = Cert.KernelIdeal.ValueV.labels m c := by
      unfold Cert.ReferenceIdeal.ValueV.labels Cert.KernelIdeal.ValueV.labels; rw [(hagree c).2.1]
    have e2 : Cert.ReferenceIdeal.ValueV.pairT m' c = Cert.KernelIdeal.ValueV.pairT m c := by
      unfold Cert.ReferenceIdeal.ValueV.pairT Cert.KernelIdeal.ValueV.pairT
      rw [(hagree c).2.2.1, ← Cert.PairsEq.pairs_eq]
    refine (Cert.ReferenceIdeal.ValueV.result_value m' c (by rw [e1]; exact fun q => hL (ix1 q))).trans ?_
    rw [e0, e1, e2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
